-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn {F : FTy → Type} [FloatOps F] (main_arg0 : FVec F S16x1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  main_v3
-- ==== Kernel.lean ====
abbrev S16x1024x1024 : Shape := ⟨3, ![16, 1024, 1024]⟩
abbrev S16x4x1024x1024 : Shape := ⟨4, ![16, 4, 1024, 1024]⟩
abbrev S1x1024x1024 : Shape := ⟨3, ![1, 1024, 1024]⟩
abbrev S1x1x1024x1024 : Shape := ⟨4, ![1, 1, 1024, 1024]⟩
abbrev S1024x1024 : Shape := ⟨2, ![1024, 1024]⟩
abbrev S1x1024 : Shape := ⟨2, ![1, 1024]⟩
abbrev S2x1024 : Shape := ⟨2, ![2, 1024]⟩
abbrev S1028x1024 : Shape := ⟨2, ![1028, 1024]⟩
abbrev S1024x1 : Shape := ⟨2, ![1024, 1]⟩
abbrev S1024x2 : Shape := ⟨2, ![1024, 2]⟩
abbrev S1024x1028 : Shape := ⟨2, ![1024, 1028]⟩
abbrev S4x1024 : Shape := ⟨2, ![4, 1024]⟩
abbrev S1032x1024 : Shape := ⟨2, ![1032, 1024]⟩
abbrev S1024x4 : Shape := ⟨2, ![1024, 4]⟩
abbrev S1024x1032 : Shape := ⟨2, ![1024, 1032]⟩
abbrev S8x1024 : Shape := ⟨2, ![8, 1024]⟩
abbrev S1040x1024 : Shape := ⟨2, ![1040, 1024]⟩
abbrev S1024x8 : Shape := ⟨2, ![1024, 8]⟩
abbrev S1024x1040 : Shape := ⟨2, ![1024, 1040]⟩

abbrev nBuf : Space → Nat
  | .hbm => 2
  | .vmem => 5
  | .smem => 0
  | _ => 0

abbrev bufTy : (tb : Table) → Fin (tcTables nBuf tb) → BufTy
  | .hbm, ⟨0, _⟩ => ⟨S16x1024x1024, .f32⟩
  | .hbm, ⟨1, _⟩ => ⟨S16x4x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1024x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S1024x1024_o2_0_S1x1024 : S1024x1024.Slices ![2, 0] S1x1024
  slices_S1024x1024_o1_0_S1x1024 : S1024x1024.Slices ![1, 0] S1x1024
  concatenates_S1x1024_S1x1024_S2x1024_d0 : Shape.Concatenates [S1x1024, S1x1024] S2x1024 0
  slices_S1024x1024_o1022_0_S1x1024 : S1024x1024.Slices ![1022, 0] S1x1024
  slices_S1024x1024_o1021_0_S1x1024 : S1024x1024.Slices ![1021, 0] S1x1024
  concatenates_S2x1024_S1024x1024_S2x1024_S1028x1024_d0 : Shape.Concatenates [S2x1024, S1024x1024, S2x1024] S1028x1024 0
  slices_S1028x1024_o0_0_S1024x1024 : S1028x1024.Slices ![0, 0] S1024x1024
  slices_S1028x1024_o1_0_S1024x1024 : S1028x1024.Slices ![1, 0] S1024x1024
  slices_S1028x1024_o2_0_S1024x1024 : S1028x1024.Slices ![2, 0] S1024x1024
  slices_S1028x1024_o3_0_S1024x1024 : S1028x1024.Slices ![3, 0] S1024x1024
  slices_S1028x1024_o4_0_S1024x1024 : S1028x1024.Slices ![4, 0] S1024x1024
  slices_S1024x1024_o0_2_S1024x1 : S1024x1024.Slices ![0, 2] S1024x1
  slices_S1024x1024_o0_1_S1024x1 : S1024x1024.Slices ![0, 1] S1024x1
  concatenates_S1024x1_S1024x1_S1024x2_d1 : Shape.Concatenates [S1024x1, S1024x1] S1024x2 1
  slices_S1024x1024_o0_1022_S1024x1 : S1024x1024.Slices ![0, 1022] S1024x1
  slices_S1024x1024_o0_1021_S1024x1 : S1024x1024.Slices ![0, 1021] S1024x1
  concatenates_S1024x2_S1024x1024_S1024x2_S1024x1028_d1 : Shape.Concatenates [S1024x2, S1024x1024, S1024x2] S1024x1028 1
  slices_S1024x1028_o0_0_S1024x1024 : S1024x1028.Slices ![0, 0] S1024x1024
  slices_S1024x1028_o0_1_S1024x1024 : S1024x1028.Slices ![0, 1] S1024x1024
  slices_S1024x1028_o0_2_S1024x1024 : S1024x1028.Slices ![0, 2] S1024x1024
  slices_S1024x1028_o0_3_S1024x1024 : S1024x1028.Slices ![0, 3] S1024x1024
  slices_S1024x1028_o0_4_S1024x1024 : S1024x1028.Slices ![0, 4] S1024x1024
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  slices_S1024x1024_o4_0_S1x1024 : S1024x1024.Slices ![4, 0] S1x1024
  slices_S1024x1024_o3_0_S1x1024 : S1024x1024.Slices ![3, 0] S1x1024
  concatenates_S1x1024_S1x1024_S1x1024_S1x1024_S4x1024_d0 : Shape.Concatenates [S1x1024, S1x1024, S1x1024, S1x1024] S4x1024 0
  slices_S1024x1024_o1020_0_S1x1024 : S1024x1024.Slices ![1020, 0] S1x1024
  slices_S1024x1024_o1019_0_S1x1024 : S1024x1024.Slices ![1019, 0] S1x1024
  concatenates_S4x1024_S1024x1024_S4x1024_S1032x1024_d0 : Shape.Concatenates [S4x1024, S1024x1024, S4x1024] S1032x1024 0
  slices_S1032x1024_o0_0_S1024x1024 : S1032x1024.Slices ![0, 0] S1024x1024
  slices_S1032x1024_o2_0_S1024x1024 : S1032x1024.Slices ![2, 0] S1024x1024
  slices_S1032x1024_o4_0_S1024x1024 : S1032x1024.Slices ![4, 0] S1024x1024
  slices_S1032x1024_o6_0_S1024x1024 : S1032x1024.Slices ![6, 0] S1024x1024
  slices_S1032x1024_o8_0_S1024x1024 : S1032x1024.Slices ![8, 0] S1024x1024
  slices_S1024x1024_o0_4_S1024x1 : S1024x1024.Slices ![0, 4] S1024x1
  slices_S1024x1024_o0_3_S1024x1 : S1024x1024.Slices ![0, 3] S1024x1
  concatenates_S1024x1_S1024x1_S1024x1_S1024x1_S1024x4_d1 : Shape.Concatenates [S1024x1, S1024x1, S1024x1, S1024x1] S1024x4 1
  slices_S1024x1024_o0_1020_S1024x1 : S1024x1024.Slices ![0, 1020] S1024x1
  slices_S1024x1024_o0_1019_S1024x1 : S1024x1024.Slices ![0, 1019] S1024x1
  concatenates_S1024x4_S1024x1024_S1024x4_S1024x1032_d1 : Shape.Concatenates [S1024x4, S1024x1024, S1024x4] S1024x1032 1
  slices_S1024x1032_o0_0_S1024x1024 : S1024x1032.Slices ![0, 0] S1024x1024
  slices_S1024x1032_o0_2_S1024x1024 : S1024x1032.Slices ![0, 2] S1024x1024
  slices_S1024x1032_o0_4_S1024x1024 : S1024x1032.Slices ![0, 4] S1024x1024
  slices_S1024x1032_o0_6_S1024x1024 : S1024x1032.Slices ![0, 6] S1024x1024
  slices_S1024x1032_o0_8_S1024x1024 : S1024x1032.Slices ![0, 8] S1024x1024
  slices_S1024x1024_o8_0_S1x1024 : S1024x1024.Slices ![8, 0] S1x1024
  slices_S1024x1024_o7_0_S1x1024 : S1024x1024.Slices ![7, 0] S1x1024
  slices_S1024x1024_o6_0_S1x1024 : S1024x1024.Slices ![6, 0] S1x1024
  slices_S1024x1024_o5_0_S1x1024 : S1024x1024.Slices ![5, 0] S1x1024
  concatenates_S1x1024_S1x1024_S1x1024_S1x1024_S1x1024_S1x1024_S1x1024_S1x1024_S8x1024_d0 : Shape.Concatenates [S1x1024, S1x1024, S1x1024, S1x1024, S1x1024, S1x1024, S1x1024, S1x1024] S8x1024 0
  slices_S1024x1024_o1018_0_S1x1024 : S1024x1024.Slices ![1018, 0] S1x1024
  slices_S1024x1024_o1017_0_S1x1024 : S1024x1024.Slices ![1017, 0] S1x1024
  slices_S1024x1024_o1016_0_S1x1024 : S1024x1024.Slices ![1016, 0] S1x1024
  slices_S1024x1024_o1015_0_S1x1024 : S1024x1024.Slices ![1015, 0] S1x1024
  concatenates_S8x1024_S1024x1024_S8x1024_S1040x1024_d0 : Shape.Concatenates [S8x1024, S1024x1024, S8x1024] S1040x1024 0
  slices_S1040x1024_o0_0_S1024x1024 : S1040x1024.Slices ![0, 0] S1024x1024
  slices_S1040x1024_o4_0_S1024x1024 : S1040x1024.Slices ![4, 0] S1024x1024
  slices_S1040x1024_o8_0_S1024x1024 : S1040x1024.Slices ![8, 0] S1024x1024
  slices_S1040x1024_o12_0_S1024x1024 : S1040x1024.Slices ![12, 0] S1024x1024
  slices_S1040x1024_o16_0_S1024x1024 : S1040x1024.Slices ![16, 0] S1024x1024
  slices_S1024x1024_o0_8_S1024x1 : S1024x1024.Slices ![0, 8] S1024x1
  slices_S1024x1024_o0_7_S1024x1 : S1024x1024.Slices ![0, 7] S1024x1
  slices_S1024x1024_o0_6_S1024x1 : S1024x1024.Slices ![0, 6] S1024x1
  slices_S1024x1024_o0_5_S1024x1 : S1024x1024.Slices ![0, 5] S1024x1
  concatenates_S1024x1_S1024x1_S1024x1_S1024x1_S1024x1_S1024x1_S1024x1_S1024x1_S1024x8_d1 : Shape.Concatenates [S1024x1, S1024x1, S1024x1, S1024x1, S1024x1, S1024x1, S1024x1, S1024x1] S1024x8 1
  slices_S1024x1024_o0_1018_S1024x1 : S1024x1024.Slices ![0, 1018] S1024x1
  slices_S1024x1024_o0_1017_S1024x1 : S1024x1024.Slices ![0, 1017] S1024x1
  slices_S1024x1024_o0_1016_S1024x1 : S1024x1024.Slices ![0, 1016] S1024x1
  slices_S1024x1024_o0_1015_S1024x1 : S1024x1024.Slices ![0, 1015] S1024x1
  concatenates_S1024x8_S1024x1024_S1024x8_S1024x1040_d1 : Shape.Concatenates [S1024x8, S1024x1024, S1024x8] S1024x1040 1
  slices_S1024x1040_o0_0_S1024x1024 : S1024x1040.Slices ![0, 0] S1024x1024
  slices_S1024x1040_o0_4_S1024x1024 : S1024x1040.Slices ![0, 4] S1024x1024
  slices_S1024x1040_o0_8_S1024x1024 : S1024x1040.Slices ![0, 8] S1024x1024
  slices_S1024x1040_o0_12_S1024x1024 : S1024x1040.Slices ![0, 12] S1024x1024
  slices_S1024x1040_o0_16_S1024x1024 : S1024x1040.Slices ![0, 16] S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S16x4x1024x1024.size a
  hwx0_1 : ∀ i : grid0.Coords, EltTy.bits .f32 = 32 ∨ (Rect.block (s := S16x4x1024x1024) S1x1x1024x1024.size (cc0_transform_1 i) (hinb0_1 i)).WholeWords (EltTy.packing .f32)

variable [Facts₀]

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) && !(k0_cond3 i == 1#1) && !(k0_cond4 i == 1#1) && !(k0_cond5 i == 1#1) | ⟨_ + 2, h⟩ => absurd h (Nat.not_lt.2 (Nat.le_add_left _ _))

class Facts : Prop extends Facts₀ where

variable [Facts]
-- ==== ReferenceIdeal.lean ====
abbrev S16x1024x1024 : Shape := ⟨3, ![16, 1024, 1024]⟩
abbrev S5 : Shape := ⟨1, ![5]⟩
abbrev S_ : Shape := ⟨0, ![]⟩
abbrev S16x1x1024 : Shape := ⟨3, ![16, 1, 1024]⟩
abbrev S16x2x1024 : Shape := ⟨3, ![16, 2, 1024]⟩
abbrev S16x1026x1024 : Shape := ⟨3, ![16, 1026, 1024]⟩
abbrev S16x1028x1024 : Shape := ⟨3, ![16, 1028, 1024]⟩
abbrev S1 : Shape := ⟨1, ![1]⟩
abbrev S16x1024x1 : Shape := ⟨3, ![16, 1024, 1]⟩
abbrev S16x1024x2 : Shape := ⟨3, ![16, 1024, 2]⟩
abbrev S16x1024x1026 : Shape := ⟨3, ![16, 1024, 1026]⟩
abbrev S16x1024x1028 : Shape := ⟨3, ![16, 1024, 1028]⟩
abbrev S16x4x1024 : Shape := ⟨3, ![16, 4, 1024]⟩
abbrev S16x1032x1024 : Shape := ⟨3, ![16, 1032, 1024]⟩
abbrev S16x1024x4 : Shape := ⟨3, ![16, 1024, 4]⟩
abbrev S16x1024x1032 : Shape := ⟨3, ![16, 1024, 1032]⟩
abbrev S16x8x1024 : Shape := ⟨3, ![16, 8, 1024]⟩
abbrev S16x1040x1024 : Shape := ⟨3, ![16, 1040, 1024]⟩
abbrev S16x1024x8 : Shape := ⟨3, ![16, 1024, 8]⟩
abbrev S16x1024x1040 : Shape := ⟨3, ![16, 1024, 1040]⟩
abbrev S16x1x1024x1024 : Shape := ⟨4, ![16, 1, 1024, 1024]⟩
abbrev S16x4x1024x1024 : Shape := ⟨4, ![16, 4, 1024, 1024]⟩

abbrev nBuf : Space → Nat
  | .hbm => 238
  | .vmem => 0
  | .smem => 0
  | _ => 0

abbrev hbmTy0_0 (i : Nat) : BufTy := match i % 128 with
  | 0 => ⟨S16x1024x1024, .f32⟩
  | 1 => ⟨S5, .f32⟩
  | 2 => ⟨S_, .i32⟩
  | 3 => ⟨S16x1x1024, .f32⟩
  | 4 => ⟨S16x2x1024, .f32⟩
  | 5 => ⟨S16x2x1024, .f32⟩
  | 6 => ⟨S16x1026x1024, .f32⟩
  | 7 => ⟨S16x1x1024, .f32⟩
  | 8 => ⟨S16x2x1024, .f32⟩
  | 9 => ⟨S16x2x1024, .f32⟩
  | 10 => ⟨S16x1028x1024, .f32⟩
  | 11 => ⟨S1, .f32⟩
  | 12 => ⟨S_, .f32⟩
  | 13 => ⟨S16x1024x1024, .f32⟩
  | 14 => ⟨S16x1024x1024, .f32⟩
  | 15 => ⟨S16x1024x1024, .f32⟩
  | 16 => ⟨S1, .f32⟩
  | 17 => ⟨S_, .f32⟩
  | 18 => ⟨S16x1024x1024, .f32⟩
  | 19 => ⟨S16x1024x1024, .f32⟩
  | 20 => ⟨S16x1024x1024, .f32⟩
  | 21 => ⟨S16x1024x1024, .f32⟩
  | 22 => ⟨S1, .f32⟩
  | 23 => ⟨S_, .f32⟩
  | 24 => ⟨S16x1024x1024, .f32⟩
  | 25 => ⟨S16x1024x1024, .f32⟩
  | 26 => ⟨S16x1024x1024, .f32⟩
  | 27 => ⟨S16x1024x1024, .f32⟩
  | 28 => ⟨S1, .f32⟩
  | 29 => ⟨S_, .f32⟩
  | 30 => ⟨S16x1024x1024, .f32⟩
  | 31 => ⟨S16x1024x1024, .f32⟩
  | 32 => ⟨S16x1024x1024, .f32⟩
  | 33 => ⟨S16x1024x1024, .f32⟩
  | 34 => ⟨S1, .f32⟩
  | 35 => ⟨S_, .f32⟩
  | 36 => ⟨S16x1024x1024, .f32⟩
  | 37 => ⟨S16x1024x1024, .f32⟩
  | 38 => ⟨S16x1024x1024, .f32⟩
  | 39 => ⟨S16x1024x1024, .f32⟩
  | 40 => ⟨S_, .i32⟩
  | 41 => ⟨S16x1024x1, .f32⟩
  | 42 => ⟨S16x1024x2, .f32⟩
  | 43 => ⟨S16x1024x2, .f32⟩
  | 44 => ⟨S16x1024x1026, .f32⟩
  | 45 => ⟨S16x1024x1, .f32⟩
  | 46 => ⟨S16x1024x2, .f32⟩
  | 47 => ⟨S16x1024x2, .f32⟩
  | 48 => ⟨S16x1024x1028, .f32⟩
  | 49 => ⟨S1, .f32⟩
  | 50 => ⟨S_, .f32⟩
  | 51 => ⟨S16x1024x1024, .f32⟩
  | 52 => ⟨S16x1024x1024, .f32⟩
  | 53 => ⟨S16x1024x1024, .f32⟩
  | 54 => ⟨S1, .f32⟩
  | 55 => ⟨S_, .f32⟩
  | 56 => ⟨S16x1024x1024, .f32⟩
  | 57 => ⟨S16x1024x1024, .f32⟩
  | 58 => ⟨S16x1024x1024, .f32⟩
  | 59 => ⟨S16x1024x1024, .f32⟩
  | 60 => ⟨S1, .f32⟩
  | 61 => ⟨S_, .f32⟩
  | 62 => ⟨S16x1024x1024, .f32⟩
  | 63 => ⟨S16x1024x1024, .f32⟩
  | 64 => ⟨S16x1024x1024, .f32⟩
  | 65 => ⟨S16x1024x1024, .f32⟩
  | 66 => ⟨S1, .f32⟩
  | 67 => ⟨S_, .f32⟩
  | 68 => ⟨S16x1024x1024, .f32⟩
  | 69 => ⟨S16x1024x1024, .f32⟩
  | 70 => ⟨S16x1024x1024, .f32⟩
  | 71 => ⟨S16x1024x1024, .f32⟩
  | 72 => ⟨S1, .f32⟩
  | 73 => ⟨S_, .f32⟩
  | 74 => ⟨S16x1024x1024, .f32⟩
  | 75 => ⟨S16x1024x1024, .f32⟩
  | 76 => ⟨S16x1024x1024, .f32⟩
  | 77 => ⟨S16x1024x1024, .f32⟩
  | 78 => ⟨S16x1024x1024, .f32⟩
  | 79 => ⟨S_, .i32⟩
  | 80 => ⟨S16x1x1024, .f32⟩
  | 81 => ⟨S16x4x1024, .f32⟩
  | 82 => ⟨S16x4x1024, .f32⟩
  | 83 => ⟨S16x1028x1024, .f32⟩
  | 84 => ⟨S16x1x1024, .f32⟩
  | 85 => ⟨S16x4x1024, .f32⟩
  | 86 => ⟨S16x4x1024, .f32⟩
  | 87 => ⟨S16x1032x1024, .f32⟩
  | 88 => ⟨S1, .f32⟩
  | 89 => ⟨S_, .f32⟩
  | 90 => ⟨S16x1024x1024, .f32⟩
  | 91 => ⟨S16x1024x1024, .f32⟩
  | 92 => ⟨S16x1024x1024, .f32⟩
  | 93 => ⟨S1, .f32⟩
  | 94 => ⟨S_, .f32⟩
  | 95 => ⟨S16x1024x1024, .f32⟩
  | 96 => ⟨S16x1024x1024, .f32⟩
  | 97 => ⟨S16x1024x1024, .f32⟩
  | 98 => ⟨S16x1024x1024, .f32⟩
  | 99 => ⟨S1, .f32⟩
  | 100 => ⟨S_, .f32⟩
  | 101 => ⟨S16x1024x1024, .f32⟩
  | 102 => ⟨S16x1024x1024, .f32⟩
  | 103 => ⟨S16x1024x1024, .f32⟩
  | 104 => ⟨S16x1024x1024, .f32⟩
  | 105 => ⟨S1, .f32⟩
  | 106 => ⟨S_, .f32⟩
  | 107 => ⟨S16x1024x1024, .f32⟩
  | 108 => ⟨S16x1024x1024, .f32⟩
  | 109 => ⟨S16x1024x1024, .f32⟩
  | 110 => ⟨S16x1024x1024, .f32⟩
  | 111 => ⟨S1, .f32⟩
  | 112 => ⟨S_, .f32⟩
  | 113 => ⟨S16x1024x1024, .f32⟩
  | 114 => ⟨S16x1024x1024, .f32⟩
  | 115 => ⟨S16x1024x1024, .f32⟩
  | 116 => ⟨S16x1024x1024, .f32⟩
  | 117 => ⟨S_, .i32⟩
  | 118 => ⟨S16x1024x1, .f32⟩
  | 119 => ⟨S16x1024x4, .f32⟩
  | 120 => ⟨S16x1024x4, .f32⟩
  | 121 => ⟨S16x1024x1028, .f32⟩
  | 122 => ⟨S16x1024x1, .f32⟩
  | 123 => ⟨S16x1024x4, .f32⟩
  | 124 => ⟨S16x1024x4, .f32⟩
  | 125 => ⟨S16x1024x1032, .f32⟩
  | 126 => ⟨S1, .f32⟩
  | 127 => ⟨S_, .f32⟩
  | _ => ⟨S16x1024x1024, .f32⟩

abbrev hbmTy0_1 (i : Nat) : BufTy := match i % 128 with
  | 0 => ⟨S16x1024x1024, .f32⟩
  | 1 => ⟨S16x1024x1024, .f32⟩
  | 2 => ⟨S16x1024x1024, .f32⟩
  | 3 => ⟨S1, .f32⟩
  | 4 => ⟨S_, .f32⟩
  | 5 => ⟨S16x1024x1024, .f32⟩
  | 6 => ⟨S16x1024x1024, .f32⟩
  | 7 => ⟨S16x1024x1024, .f32⟩
  | 8 => ⟨S16x1024x1024, .f32⟩
  | 9 => ⟨S1, .f32⟩
  | 10 => ⟨S_, .f32⟩
  | 11 => ⟨S16x1024x1024, .f32⟩
  | 12 => ⟨S16x1024x1024, .f32⟩
  | 13 => ⟨S16x1024x1024, .f32⟩
  | 14 => ⟨S16x1024x1024, .f32⟩
  | 15 => ⟨S1, .f32⟩
  | 16 => ⟨S_, .f32⟩
  | 17 => ⟨S16x1024x1024, .f32⟩
  | 18 => ⟨S16x1024x1024, .f32⟩
  | 19 => ⟨S16x1024x1024, .f32⟩
  | 20 => ⟨S16x1024x1024, .f32⟩
  | 21 => ⟨S1, .f32⟩
  | 22 => ⟨S_, .f32⟩
  | 23 => ⟨S16x1024x1024, .f32⟩
  | 24 => ⟨S16x1024x1024, .f32⟩
  | 25 => ⟨S16x1024x1024, .f32⟩
  | 26 => ⟨S16x1024x1024, .f32⟩
  | 27 => ⟨S16x1024x1024, .f32⟩
  | 28 => ⟨S_, .i32⟩
  | 29 => ⟨S16x1x1024, .f32⟩
  | 30 => ⟨S16x8x1024, .f32⟩
  | 31 => ⟨S16x8x1024, .f32⟩
  | 32 => ⟨S16x1032x1024, .f32⟩
  | 33 => ⟨S16x1x1024, .f32⟩
  | 34 => ⟨S16x8x1024, .f32⟩
  | 35 => ⟨S16x8x1024, .f32⟩
  | 36 => ⟨S16x1040x1024, .f32⟩
  | 37 => ⟨S1, .f32⟩
  | 38 => ⟨S_, .f32⟩
  | 39 => ⟨S16x1024x1024, .f32⟩
  | 40 => ⟨S16x1024x1024, .f32⟩
  | 41 => ⟨S16x1024x1024, .f32⟩
  | 42 => ⟨S1, .f32⟩
  | 43 => ⟨S_, .f32⟩
  | 44 => ⟨S16x1024x1024, .f32⟩
  | 45 => ⟨S16x1024x1024, .f32⟩
  | 46 => ⟨S16x1024x1024, .f32⟩
  | 47 => ⟨S16x1024x1024, .f32⟩
  | 48 => ⟨S1, .f32⟩
  | 49 => ⟨S_, .f32⟩
  | 50 => ⟨S16x1024x1024, .f32⟩
  | 51 => ⟨S16x1024x1024, .f32⟩
  | 52 => ⟨S16x1024x1024, .f32⟩
  | 53 => ⟨S16x1024x1024, .f32⟩
  | 54 => ⟨S1, .f32⟩
  | 55 => ⟨S_, .f32⟩
  | 56 => ⟨S16x1024x1024, .f32⟩
  | 57 => ⟨S16x1024x1024, .f32⟩
  | 58 => ⟨S16x1024x1024, .f32⟩
  | 59 => ⟨S16x1024x1024, .f32⟩
  | 60 => ⟨S1, .f32⟩
  | 61 => ⟨S_, .f32⟩
  | 62 => ⟨S16x1024x1024, .f32⟩
  | 63 => ⟨S16x1024x1024, .f32⟩
  | 64 => ⟨S16x1024x1024, .f32⟩
  | 65 => ⟨S16x1024x1024, .f32⟩
  | 66 => ⟨S_, .i32⟩
  | 67 => ⟨S16x1024x1, .f32⟩
  | 68 => ⟨S16x1024x8, .f32⟩
  | 69 => ⟨S16x1024x8, .f32⟩
  | 70 => ⟨S16x1024x1032, .f32⟩
  | 71 => ⟨S16x1024x1, .f32⟩
  | 72 => ⟨S16x1024x8, .f32⟩
  | 73 => ⟨S16x1024x8, .f32⟩
  | 74 => ⟨S16x1024x1040, .f32⟩
  | 75 => ⟨S1, .f32⟩
  | 76 => ⟨S_, .f32⟩
  | 77 => ⟨S16x1024x1024, .f32⟩
  | 78 => ⟨S16x1024x1024, .f32⟩
  | 79 => ⟨S16x1024x1024, .f32⟩
  | 80 => ⟨S1, .f32⟩
  | 81 => ⟨S_, .f32⟩
  | 82 => ⟨S16x1024x1024, .f32⟩
  | 83 => ⟨S16x1024x1024, .f32⟩
  | 84 => ⟨S16x1024x1024, .f32⟩
  | 85 => ⟨S16x1024x1024, .f32⟩
  | 86 => ⟨S1, .f32⟩
  | 87 => ⟨S_, .f32⟩
  | 88 => ⟨S16x1024x1024, .f32⟩
  | 89 => ⟨S16x1024x1024, .f32⟩
  | 90 => ⟨S16x1024x1024, .f32⟩
  | 91 => ⟨S16x1024x1024, .f32⟩
  | 92 => ⟨S1, .f32⟩
  | 93 => ⟨S_, .f32⟩
  | 94 => ⟨S16x1024x1024, .f32⟩
  | 95 => ⟨S16x1024x1024, .f32⟩
  | 96 => ⟨S16x1024x1024, .f32⟩
  | 97 => ⟨S16x1024x1024, .f32⟩
  | 98 => ⟨S1, .f32⟩
  | 99 => ⟨S_, .f32⟩
  | 100 => ⟨S16x1024x1024, .f32⟩
  | 101 => ⟨S16x1024x1024, .f32⟩
  | 102 => ⟨S16x1024x1024, .f32⟩
  | 103 => ⟨S16x1024x1024, .f32⟩
  | 104 => ⟨S16x1024x1024, .f32⟩
  | 105 => ⟨S16x1x1024x1024, .f32⟩
  | 106 => ⟨S16x1x1024x1024, .f32⟩
  | 107 => ⟨S16x1x1024x1024, .f32⟩
  | 108 => ⟨S16x1x1024x1024, .f32⟩
  | 109 => ⟨S16x4x1024x1024, .f32⟩
  | _ => ⟨S16x1024x1024, .f32⟩

abbrev hbmTy (i : Nat) : BufTy := match i / 128 with
  | 0 => hbmTy0_0 i
  | 1 => hbmTy0_1 i
  | _ => ⟨S16x1024x1024, .f32⟩

abbrev bufTy : (tb : Table) → Fin (tcTables nBuf tb) → BufTy
  | .hbm, ⟨i, _⟩ => hbmTy i
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_1 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_2 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_v6 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_c_3 : Ref sig .tc := ⟨.hbm, 156, rfl⟩
abbrev main_call4_v0 : Ref sig .tc := ⟨.hbm, 157, rfl⟩
abbrev main_call4_v1 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_call4_v5 : Ref sig .tc := ⟨.hbm, 162, rfl⟩
abbrev main_call4_v6 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_c_4 : Ref sig .tc := ⟨.hbm, 194, rfl⟩
abbrev main_call5_v0 : Ref sig .tc := ⟨.hbm, 195, rfl⟩
abbrev main_call5_v1 : Ref sig .tc := ⟨.hbm, 196, rfl⟩
abbrev main_call5_v2 : Ref sig .tc := ⟨.hbm, 197, rfl⟩
abbrev main_call5_v3 : Ref sig .tc := ⟨.hbm, 198, rfl⟩
abbrev main_call5_v4 : Ref sig .tc := ⟨.hbm, 199, rfl⟩
abbrev main_call5_v5 : Ref sig .tc := ⟨.hbm, 200, rfl⟩
abbrev main_call5_v6 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩

abbrev nD : Nat := 1
abbrev τ : Topo := Topo.v7x

variable {F : FTy → Type} [FloatOps F]

class Facts₀ : Prop where
  slices_S16x1024x1024_S16x1x1024_0_0_0 : S16x1024x1024.Slices ![0, 0, 0] S16x1x1024
  slices_S16x1024x1024_S16x2x1024_0_1_0 : S16x1024x1024.Slices ![0, 1, 0] S16x2x1024
  concatenates_S16x2x1024_S16x1024x1024_S16x1026x1024_d1 : Shape.Concatenates [S16x2x1024, S16x1024x1024] S16x1026x1024 1
  slices_S16x1026x1024_S16x1x1024_0_1025_0 : S16x1026x1024.Slices ![0, 1025, 0] S16x1x1024
  slices_S16x1026x1024_S16x2x1024_0_1023_0 : S16x1026x1024.Slices ![0, 1023, 0] S16x2x1024
  concatenates_S16x1026x1024_S16x2x1024_S16x1028x1024_d1 : Shape.Concatenates [S16x1026x1024, S16x2x1024] S16x1028x1024 1
  slices_S5_S1_0 : S5.Slices ![0] S1
  shapeCasts_S1_S_ : S1.ShapeCasts S_
  slices_S16x1028x1024_S16x1024x1024_0_0_0 : S16x1028x1024.Slices ![0, 0, 0] S16x1024x1024
  bcast_S_S16x1024x1024 : S_.BroadcastsInDim S16x1024x1024 (![] : Fin 0 → Fin S16x1024x1024.rank)
  slices_S5_S1_1 : S5.Slices ![1] S1
  slices_S16x1028x1024_S16x1024x1024_0_1_0 : S16x1028x1024.Slices ![0, 1, 0] S16x1024x1024
  slices_S5_S1_2 : S5.Slices ![2] S1
  slices_S16x1028x1024_S16x1024x1024_0_2_0 : S16x1028x1024.Slices ![0, 2, 0] S16x1024x1024
  slices_S5_S1_3 : S5.Slices ![3] S1
  slices_S16x1028x1024_S16x1024x1024_0_3_0 : S16x1028x1024.Slices ![0, 3, 0] S16x1024x1024
  slices_S5_S1_4 : S5.Slices ![4] S1
  slices_S16x1028x1024_S16x1024x1024_0_4_0 : S16x1028x1024.Slices ![0, 4, 0] S16x1024x1024
  slices_S16x1024x1024_S16x1024x1_0_0_0 : S16x1024x1024.Slices ![0, 0, 0] S16x1024x1
  slices_S16x1024x1024_S16x1024x2_0_0_1 : S16x1024x1024.Slices ![0, 0, 1] S16x1024x2
  concatenates_S16x1024x2_S16x1024x1024_S16x1024x1026_d2 : Shape.Concatenates [S16x1024x2, S16x1024x1024] S16x1024x1026 2
  slices_S16x1024x1026_S16x1024x1_0_0_1025 : S16x1024x1026.Slices ![0, 0, 1025] S16x1024x1
  slices_S16x1024x1026_S16x1024x2_0_0_1023 : S16x1024x1026.Slices ![0, 0, 1023] S16x1024x2
  concatenates_S16x1024x1026_S16x1024x2_S16x1024x1028_d2 : Shape.Concatenates [S16x1024x1026, S16x1024x2] S16x1024x1028 2
  slices_S16x1024x1028_S16x1024x1024_0_0_0 : S16x1024x1028.Slices ![0, 0, 0] S16x1024x1024
  slices_S16x1024x1028_S16x1024x1024_0_0_1 : S16x1024x1028.Slices ![0, 0, 1] S16x1024x1024
  slices_S16x1024x1028_S16x1024x1024_0_0_2 : S16x1024x1028.Slices ![0, 0, 2] S16x1024x1024
  slices_S16x1024x1028_S16x1024x1024_0_0_3 : S16x1024x1028.Slices ![0, 0, 3] S16x1024x1024
  slices_S16x1024x1028_S16x1024x1024_0_0_4 : S16x1024x1028.Slices ![0, 0, 4] S16x1024x1024
  slices_S16x1024x1024_S16x4x1024_0_1_0 : S16x1024x1024.Slices ![0, 1, 0] S16x4x1024
  concatenates_S16x4x1024_S16x1024x1024_S16x1028x1024_d1 : Shape.Concatenates [S16x4x1024, S16x1024x1024] S16x1028x1024 1
  slices_S16x1028x1024_S16x1x1024_0_1027_0 : S16x1028x1024.Slices ![0, 1027, 0] S16x1x1024
  slices_S16x1028x1024_S16x4x1024_0_1023_0 : S16x1028x1024.Slices ![0, 1023, 0] S16x4x1024
  concatenates_S16x1028x1024_S16x4x1024_S16x1032x1024_d1 : Shape.Concatenates [S16x1028x1024, S16x4x1024] S16x1032x1024 1
  slices_S16x1032x1024_S16x1024x1024_0_0_0 : S16x1032x1024.Slices ![0, 0, 0] S16x1024x1024
  slices_S16x1032x1024_S16x1024x1024_0_2_0 : S16x1032x1024.Slices ![0, 2, 0] S16x1024x1024
  slices_S16x1032x1024_S16x1024x1024_0_4_0 : S16x1032x1024.Slices ![0, 4, 0] S16x1024x1024
  slices_S16x1032x1024_S16x1024x1024_0_6_0 : S16x1032x1024.Slices ![0, 6, 0] S16x1024x1024
  slices_S16x1032x1024_S16x1024x1024_0_8_0 : S16x1032x1024.Slices ![0, 8, 0] S16x1024x1024
  slices_S16x1024x1024_S16x1024x4_0_0_1 : S16x1024x1024.Slices ![0, 0, 1] S16x1024x4
  concatenates_S16x1024x4_S16x1024x1024_S16x1024x1028_d2 : Shape.Concatenates [S16x1024x4, S16x1024x1024] S16x1024x1028 2
  slices_S16x1024x1028_S16x1024x1_0_0_1027 : S16x1024x1028.Slices ![0, 0, 1027] S16x1024x1
  slices_S16x1024x1028_S16x1024x4_0_0_1023 : S16x1024x1028.Slices ![0, 0, 1023] S16x1024x4
  concatenates_S16x1024x1028_S16x1024x4_S16x1024x1032_d2 : Shape.Concatenates [S16x1024x1028, S16x1024x4] S16x1024x1032 2
  slices_S16x1024x1032_S16x1024x1024_0_0_0 : S16x1024x1032.Slices ![0, 0, 0] S16x1024x1024
  slices_S16x1024x1032_S16x1024x1024_0_0_2 : S16x1024x1032.Slices ![0, 0, 2] S16x1024x1024
  slices_S16x1024x1032_S16x1024x1024_0_0_4 : S16x1024x1032.Slices ![0, 0, 4] S16x1024x1024
  slices_S16x1024x1032_S16x1024x1024_0_0_6 : S16x1024x1032.Slices ![0, 0, 6] S16x1024x1024
  slices_S16x1024x1032_S16x1024x1024_0_0_8 : S16x1024x1032.Slices ![0, 0, 8] S16x1024x1024
  slices_S16x1024x1024_S16x8x1024_0_1_0 : S16x1024x1024.Slices ![0, 1, 0] S16x8x1024
  concatenates_S16x8x1024_S16x1024x1024_S16x1032x1024_d1 : Shape.Concatenates [S16x8x1024, S16x1024x1024] S16x1032x1024 1
  slices_S16x1032x1024_S16x1x1024_0_1031_0 : S16x1032x1024.Slices ![0, 1031, 0] S16x1x1024
  slices_S16x1032x1024_S16x8x1024_0_1023_0 : S16x1032x1024.Slices ![0, 1023, 0] S16x8x1024
  concatenates_S16x1032x1024_S16x8x1024_S16x1040x1024_d1 : Shape.Concatenates [S16x1032x1024, S16x8x1024] S16x1040x1024 1
  slices_S16x1040x1024_S16x1024x1024_0_0_0 : S16x1040x1024.Slices ![0, 0, 0] S16x1024x1024
  slices_S16x1040x1024_S16x1024x1024_0_4_0 : S16x1040x1024.Slices ![0, 4, 0] S16x1024x1024
  slices_S16x1040x1024_S16x1024x1024_0_8_0 : S16x1040x1024.Slices ![0, 8, 0] S16x1024x1024
  slices_S16x1040x1024_S16x1024x1024_0_12_0 : S16x1040x1024.Slices ![0, 12, 0] S16x1024x1024
  slices_S16x1040x1024_S16x1024x1024_0_16_0 : S16x1040x1024.Slices ![0, 16, 0] S16x1024x1024
  slices_S16x1024x1024_S16x1024x8_0_0_1 : S16x1024x1024.Slices ![0, 0, 1] S16x1024x8
  concatenates_S16x1024x8_S16x1024x1024_S16x1024x1032_d2 : Shape.Concatenates [S16x1024x8, S16x1024x1024] S16x1024x1032 2
  slices_S16x1024x1032_S16x1024x1_0_0_1031 : S16x1024x1032.Slices ![0, 0, 1031] S16x1024x1
  slices_S16x1024x1032_S16x1024x8_0_0_1023 : S16x1024x1032.Slices ![0, 0, 1023] S16x1024x8
  concatenates_S16x1024x1032_S16x1024x8_S16x1024x1040_d2 : Shape.Concatenates [S16x1024x1032, S16x1024x8] S16x1024x1040 2
  slices_S16x1024x1040_S16x1024x1024_0_0_0 : S16x1024x1040.Slices ![0, 0, 0] S16x1024x1024
  slices_S16x1024x1040_S16x1024x1024_0_0_4 : S16x1024x1040.Slices ![0, 0, 4] S16x1024x1024
  slices_S16x1024x1040_S16x1024x1024_0_0_8 : S16x1024x1040.Slices ![0, 0, 8] S16x1024x1024
  slices_S16x1024x1040_S16x1024x1024_0_0_12 : S16x1024x1040.Slices ![0, 0, 12] S16x1024x1024
  slices_S16x1024x1040_S16x1024x1024_0_0_16 : S16x1024x1040.Slices ![0, 0, 16] S16x1024x1024
  bcast_S16x1024x1024_S16x1x1024x1024_0_2_3 : S16x1024x1024.BroadcastsInDim S16x1x1024x1024 (![0, 2, 3] : Fin 3 → Fin S16x1x1024x1024.rank)
  concatenates_S16x1x1024x1024_S16x1x1024x1024_S16x1x1024x1024_S16x1x1024x1024_S16x4x1024x1024_d1 : Shape.Concatenates [S16x1x1024x1024, S16x1x1024x1024, S16x1x1024x1024, S16x1x1024x1024] S16x4x1024x1024 1

variable [Facts₀]

class Facts : Prop extends Facts₀ where

variable [Facts]
-- ==== Proof.KernelPieces.lean ====
/-
  What one grid point of the wavelet kernel leaves behind, case by case, as pure functions of what it loaded.

  A point with level index 0 loads its image block, keeps it as the carried image and runs the first level on it;
  points with level index 1 and 2 run the second and third level on the carried image the point before left; the
  point with level index 3 copies the carried image out. Each level leaves the smoothed image in the carried scratch
  and the detail (the image it started from less the smoothed one) in the output block.
-/
import proofs.«148597_j34797825032657_1_alg».proof.Proof.Gen.KernelIdeal.Value

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The four cases as functions of the loads -/

/-- The image a level-0 point starts from: its one-image input block without the unit axis. -/
def seed (x0 : Vec F S1x1024x1024 .f32) : Vec F S1024x1024 .f32 := k0_pay1 x0

/-- First level: the smoothed image, and the detail block. -/
def smooth1 (y : Vec F S1024x1024 .f32) : Vec F S1024x1024 .f32 := k0_pay3 (k0_pay12 y) (k0_pay13 y)
def detail1 (y : Vec F S1024x1024 .f32) : Vec F S1x1x1024x1024 .f32 := k0_pay4 y (k0_pay12 y) (k0_pay13 y)

/-- Second level. -/
def smooth2 (y : Vec F S1024x1024 .f32) : Vec F S1024x1024 .f32 :=
  k0_pay6 (k0_pay14 y) (k0_pay15 y) (k0_pay16 y) (FloatOps.ofBits .f32 0x3EC00000#32)
def detail2 (y : Vec F S1024x1024 .f32) : Vec F S1x1x1024x1024 .f32 :=
  k0_pay7 y (k0_pay14 y) (k0_pay15 y) (k0_pay16 y) (FloatOps.ofBits .f32 0x3EC00000#32)

/-- Third level. -/
def smooth4 (y : Vec F S1024x1024 .f32) : Vec F S1024x1024 .f32 :=
  k0_pay9 (k0_pay17 y) (k0_pay18 y) (k0_pay19 y) (k0_pay20 y) (k0_pay21 y) (k0_pay22 y) (k0_pay23 y)
def detail4 (y : Vec F S1024x1024 .f32) : Vec F S1x1x1024x1024 .f32 :=
  k0_pay10 y (k0_pay17 y) (k0_pay18 y) (k0_pay19 y) (k0_pay20 y) (k0_pay21 y) (k0_pay22 y) (k0_pay23 y)

/-- The last point's block: the carried image with two unit axes in front. -/
def copyOut (y : Vec F S1024x1024 .f32) : Vec F S1x1x1024x1024 .f32 := k0_pay11 y

/-! ## What each case's run found is those functions -/

/-- Level index 0: the carried image ends at the first level's smoothing of the seeded block (the seed is stored,
    read back, smoothed and stored again: the later store covers). -/
theorem scratch_A (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : cond0_0 i) (hc1 : cond0_1 i) (hc2 : ¬cond0_2 i) (hc3 : ¬cond0_3 i) (hc4 : ¬cond0_4 i)
    (x0 : Vec F S1x1024x1024 .f32) :
    sout0_A_0 c i arg2 harg2 arg3 harg3 arg4 harg4 hc0 hc1 hc2 hc3 hc4 x0 = smooth1 (seed x0) := by
  unfold sout0_A_0
  rw [View.read_writes_eq_canon _ _ _ (scover0_A_0 c i arg2 harg2 arg3 harg3 arg4 harg4 hc0 hc1 hc2 hc3 hc4 x0)]
  unfold kernelRun0_A
  dsimp only
  sl_unfold_words
  rw [View.canon_cons_unit_zero (S := S1024x1024) hz2]
  simp only [View.readCov_unit_zero (S := S1024x1024) _ hz2, View.readAt_eq_ld, harg2.read_unread,
    View.ld_unit_zero (S := S1x1024x1024) hz3]
  rfl

/-- Level index 0: the output block ends at the first level's detail of the seeded block. -/
theorem block_A (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : cond0_0 i) (hc1 : cond0_1 i) (hc2 : ¬cond0_2 i) (hc3 : ¬cond0_3 i) (hc4 : ¬cond0_4 i)
    (x0 : Vec F S1x1024x1024 .f32) :
    out0_A_1 c i arg2 harg2 arg3 harg3 arg4 harg4 hc0 hc1 hc2 hc3 hc4 x0 = detail1 (seed x0) := by
  unfold out0_A_1
  rw [View.read_writes_eq_canon _ _ _ (cover0_A_1 c i arg2 harg2 arg3 harg3 arg4 harg4 hc0 hc1 hc2 hc3 hc4 x0)]
  unfold kernelRun0_A
  dsimp only
  sl_unfold_words
  rw [View.canon_unit_zero (S := S1x1x1024x1024) hz4]
  simp only [View.readCov_unit_zero (S := S1024x1024) _ hz2, View.readAt_eq_ld, harg2.read_unread,
    View.ld_unit_zero (S := S1x1024x1024) hz3]
  rfl

/-- Level index 1: the carried image ends at the second level's smoothing of what the point before left. -/
theorem scratch_B (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : ¬cond0_0 i) (hc1 : ¬cond0_1 i) (hc2 : cond0_2 i) (hc3 : ¬cond0_3 i) (hc4 : ¬cond0_4 i)
    (x0 : Vec F S1x1024x1024 .f32) (xs0 : Vec F S1024x1024 .f32) :
    sout0_B_0 c i arg2 harg2 arg3 harg3 arg4 harg4 hc0 hc1 hc2 hc3 hc4 x0 xs0 = smooth2 xs0 := by
  unfold sout0_B_0
  rw [View.read_writes_eq_canon _ _ _ (scover0_B_0 c i arg2 harg2 arg3 harg3 arg4 harg4 hc0 hc1 hc2 hc3 hc4 x0 xs0)]
  unfold kernelRun0_B
  dsimp only
  sl_unfold_words
  rw [View.canon_unit_zero (S := S1024x1024) hz2]
  simp only [View.readAt_eq_ld, harg4.read_unread, View.ld_unit_zero (S := S1024x1024) hz2]
  rfl

/-- Level index 1: the output block ends at the second level's detail. -/
theorem block_B (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : ¬cond0_0 i) (hc1 : ¬cond0_1 i) (hc2 : cond0_2 i) (hc3 : ¬cond0_3 i) (hc4 : ¬cond0_4 i)
    (x0 : Vec F S1x1024x1024 .f32) (xs0 : Vec F S1024x1024 .f32) :
    out0_B_1 c i arg2 harg2 arg3 harg3 arg4 harg4 hc0 hc1 hc2 hc3 hc4 x0 xs0 = detail2 xs0 := by
  unfold out0_B_1
  rw [View.read_writes_eq_canon _ _ _ (cover0_B_1 c i arg2 harg2 arg3 harg3 arg4 harg4 hc0 hc1 hc2 hc3 hc4 x0 xs0)]
  unfold kernelRun0_B
  dsimp only
  sl_unfold_words
  rw [View.canon_unit_zero (S := S1x1x1024x1024) hz4]
  simp only [View.readAt_eq_ld, harg4.read_unread, View.ld_unit_zero (S := S1024x1024) hz2]
  rfl

/-- Level index 2: the carried image ends at the third level's smoothing of what the point before left. -/
theorem scratch_C (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : ¬cond0_0 i) (hc1 : ¬cond0_1 i) (hc2 : ¬cond0_2 i) (hc3 : cond0_3 i) (hc4 : ¬cond0_4 i)
    (x0 : Vec F S1x1024x1024 .f32) (xs0 : Vec F S1024x1024 .f32) :
    sout0_C_0 c i arg2 harg2 arg3 harg3 arg4 harg4 hc0 hc1 hc2 hc3 hc4 x0 xs0 = smooth4 xs0 := by
  unfold sout0_C_0
  rw [View.read_writes_eq_canon _ _ _ (scover0_C_0 c i arg2 harg2 arg3 harg3 arg4 harg4 hc0 hc1 hc2 hc3 hc4 x0 xs0)]
  unfold kernelRun0_C
  dsimp only
  sl_unfold_words
  rw [View.canon_unit_zero (S := S1024x1024) hz2]
  simp only [View.readAt_eq_ld, harg4.read_unread, View.ld_unit_zero (S := S1024x1024) hz2]
  rfl

/-- Level index 2: the output block ends at the third level's detail. -/
theorem block_C (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : ¬cond0_0 i) (hc1 : ¬cond0_1 i) (hc2 : ¬cond0_2 i) (hc3 : cond0_3 i) (hc4 : ¬cond0_4 i)
    (x0 : Vec F S1x1024x1024 .f32) (xs0 : Vec F S1024x1024 .f32) :
    out0_C_1 c i arg2 harg2 arg3 harg3 arg4 harg4 hc0 hc1 hc2 hc3 hc4 x0 xs0 = detail4 xs0 := by
  unfold out0_C_1
  rw [View.read_writes_eq_canon _ _ _ (cover0_C_1 c i arg2 harg2 arg3 harg3 arg4 harg4 hc0 hc1 hc2 hc3 hc4 x0 xs0)]
  unfold kernelRun0_C
  dsimp only
  sl_unfold_words
  rw [View.canon_unit_zero (S := S1x1x1024x1024) hz4]
  simp only [View.readAt_eq_ld, harg4.read_unread, View.ld_unit_zero (S := S1024x1024) hz2]
  rfl

/-- Level index 3: the output block ends at the carried image. -/
theorem block_D (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : ¬cond0_0 i) (hc1 : ¬cond0_1 i) (hc2 : ¬cond0_2 i) (hc3 : ¬cond0_3 i) (hc4 : cond0_4 i)
    (x0 : Vec F S1x1024x1024 .f32) (xs0 : Vec F S1024x1024 .f32) :
    out0_D_1 c i arg2 harg2 arg3 harg3 arg4 harg4 hc0 hc1 hc2 hc3 hc4 x0 xs0 = copyOut xs0 := by
  unfold out0_D_1
  rw [View.read_writes_eq_canon _ _ _ (cover0_D_1 c i arg2 harg2 arg3 harg3 arg4 harg4 hc0 hc1 hc2 hc3 hc4 x0 xs0)]
  unfold kernelRun0_D
  dsimp only
  sl_unfold_words
  rw [View.canon_unit_zero (S := S1x1x1024x1024) hz4]
  simp only [View.readAt_eq_ld, harg4.read_unread, View.ld_unit_zero (S := S1024x1024) hz2]
  rfl

end Cert.KernelIdeal.Pieces

end
-- ==== Proof.Spline.lean ====
/-
  The à-trous B3-spline wavelet transform of a 1024 × 1024 image, as plain functions of row and column.

  One smoothing level with dilation `d` filters first down the rows, then along the columns, with the five taps
  1/16, 1/4, 3/8, 1/4, 1/16 at distances 0, d, 2d, 3d, 4d into an axis that has been mirrored about its two end
  entries by 2d positions on each side (the end entry itself is not repeated). Three levels, with dilations 1, 2
  and 4, give the approximations A₁, A₂, A₃ of the image A₀; the transform's four bands are the details
  A₀ − A₁, A₁ − A₂, A₂ − A₃ and the last approximation A₃.

  Everything here is stated for any float instance: the sum is folded from the left with each weight as the left
  factor, exactly as both programs compute it, so no law of arithmetic is needed to compare them.
-/
import Idealize.ShloMosaic.PureOps
import Idealize.ShloMosaic.Lib.ValueIdx

noncomputable section

namespace Cert.Spline

open Idealize.ShloMosaic

variable {F : FTy → Type} [FloatOps F]

/-- Position `i` of an axis of length 1024 mirrored by `2 d` on each side reads the original entry `src d i`:
    the left margin counts down from entry `2 d` to entry 1, the middle is the axis itself, the right margin
    counts down from entry 1022. -/
def src (d i : ℕ) : ℕ :=
  if i < 2 * d then 2 * d - i else if i < 2 * d + 1024 then i - 2 * d else 2046 + 2 * d - i

/-- A natural number as a coordinate of the length-1024 axis (numbers past the end are sent to the last entry, so
    that the function is total; no use below ever leaves the axis). -/
def at1024 (n : ℕ) : Fin 1024 := ⟨min n 1023, by omega⟩

theorem at1024_val (n : ℕ) (h : n < 1024) : (at1024 n).val = n := by
  show min n 1023 = n; omega

/-- The mirrored axis stays inside the original one for the three dilations in use. -/
theorem src_lt (d i : ℕ) (hd : 1 ≤ d) (hd4 : d ≤ 4) (hi : i < 1024 + 4 * d) : src d i < 1024 := by
  unfold src; split_ifs <;> omega

/-- The coordinate the tap at distance `k · d` from position `p` reads. -/
def tapAt (d p : ℕ) (k : Fin 5) : Fin 1024 := at1024 (src d (p + k.val * d))

theorem tapAt_val (d p : ℕ) (k : Fin 5) (hd : 1 ≤ d) (hd4 : d ≤ 4) (hp : p < 1024) :
    (tapAt d p k).val = src d (p + k.val * d) := by
  have hk := k.isLt
  exact at1024_val _ (src_lt d _ hd hd4 (by nlinarith))

/-- The five-tap weighted sum, folded from the left, each weight the left factor:
    1/16 · a₀ + 1/4 · a₁ + 3/8 · a₂ + 1/4 · a₃ + 1/16 · a₄ (the weights as their binary32 words). -/
def tap5 (a : Fin 5 → F .f32) : F .f32 :=
  FloatOps.addf (FloatOps.addf (FloatOps.addf (FloatOps.addf
    (FloatOps.mulf (FloatOps.ofBits .f32 0x3D800000#32) (a 0))
    (FloatOps.mulf (FloatOps.ofBits .f32 0x3E800000#32) (a 1)))
    (FloatOps.mulf (FloatOps.ofBits .f32 0x3EC00000#32) (a 2)))
    (FloatOps.mulf (FloatOps.ofBits .f32 0x3E800000#32) (a 3)))
    (FloatOps.mulf (FloatOps.ofBits .f32 0x3D800000#32) (a 4))

/-- An image by row and column. -/
abbrev Img (F : FTy → Type) : Type := Fin 1024 → Fin 1024 → F .f32

/-- The filter down the rows: entry (r, q) from the five mirrored rows r, r + d, …, r + 4d of column q. -/
def smoothRows (d : ℕ) (y : Img F) : Img F := fun r q => tap5 fun k => y (tapAt d r.val k) q

/-- The filter along the columns: entry (r, q) from the five mirrored columns q, q + d, …, q + 4d of row r. -/
def smoothCols (d : ℕ) (y : Img F) : Img F := fun r q => tap5 fun k => y r (tapAt d q.val k)

/-- One smoothing level: rows first, then columns. -/
def level (d : ℕ) (y : Img F) : Img F := smoothCols d (smoothRows d y)

/-- The three approximations. -/
def approx1 (x : Img F) : Img F := level 1 x
def approx2 (x : Img F) : Img F := level 2 (approx1 x)
def approx3 (x : Img F) : Img F := level 4 (approx2 x)

/-- What a level takes away from an image: the detail `y − level d y`. -/
def detail (d : ℕ) (y : Img F) : Img F := fun r q => FloatOps.subf (y r q) (level d y r q)

/-- The four bands of the transform: three details, then the coarsest approximation. -/
def band (x : Img F) : Fin 4 → Img F
  | ⟨0, _⟩ => detail 1 x
  | ⟨1, _⟩ => detail 2 (approx1 x)
  | ⟨2, _⟩ => detail 4 (approx2 x)
  | ⟨_ + 3, _⟩ => approx3 x

/-- A rank-2 array of the image's extents as an image. -/
def img2 (y : (⟨2, ![1024, 1024]⟩ : Shape).Idx → F .f32) : Img F := fun r q => y (ValueIdx.ix2 r q)

/-- Image `b` of a batch of sixteen. -/
def img3 (x : (⟨3, ![16, 1024, 1024]⟩ : Shape).Idx → F .f32) (b : Fin 16) : Img F :=
  fun r q => x (ValueIdx.ix3 b r q)

/-- The whole transform of a batch: entry (b, c, r, q) is band `c` of image `b` at (r, q). -/
def transform (x : (⟨3, ![16, 1024, 1024]⟩ : Shape).Idx → F .f32) :
    (⟨4, ![16, 4, 1024, 1024]⟩ : Shape).Idx → F .f32 :=
  fun j => band (img3 x (j 0)) (j 1) (j 2) (j 3)

theorem transform_apply (x : (⟨3, ![16, 1024, 1024]⟩ : Shape).Idx → F .f32) (b : Fin 16) (c : Fin 4) (r q : Fin 1024) :
    transform x (ValueIdx.ix4 b c r q) = band (img3 x b) c r q := rfl

end Cert.Spline

end
-- ==== Proof.KernelLevel1.lean ====
/-
  The kernel's first level (dilation 1), read entry by entry: the value it stores to the carried image is the
  rows-then-columns filter of the image it loaded, and the value it stores to the output block is the detail.
-/
import proofs.«148597_j34797825032657_1_alg».proof.Proof.Gen.KernelIdeal.Skeleton
import proofs.«148597_j34797825032657_1_alg».proof.Proof.Spline
import Idealize.ShloMosaic.Lib.Pipeline.Value
import Idealize.ShloMosaic.Lib.ValueIdx
import Idealize.ShloMosaic.Lib.ValueLayout

noncomputable section

namespace Cert.KernelIdeal.Levels

open Idealize.ShloMosaic Idealize.ShloMosaic.ValueIdx Cert.KernelIdeal Cert.KernelIdeal.Gen Cert.Spline

variable {F : FTy → Type} [FloatOps F]

/-- Two single rows `a`, `b` of an image stacked: row 0 is row `a`, row 1 is row `b`. -/
private theorem rows2_apply {α : Type} (y : S1024x1024.Idx → α) (a b : Nat)
    (ha : S1024x1024.Slices ![a, 0] S1x1024) (hb : S1024x1024.Slices ![b, 0] S1x1024)
    (i : Fin 2) (q : Fin 1024) (r : Fin 1024) (hr : r.val = if i.val = 0 then a else b) :
    concatenate S2x1024 0 [⟨S1x1024, extractStridedSlice S1x1024 ![a, 0] y ha⟩,
      ⟨S1x1024, extractStridedSlice S1x1024 ![b, 0] y hb⟩] concatenates_S1x1024_S1x1024_S2x1024_d0 (ix2 i q)
      = y (ix2 r q) := by
  have hi := i.isLt
  by_cases h0 : i.val = 0
  · rw [if_pos h0] at hr
    refine (concatenate_pair_apply_left (s₁ := S1x1024) (s₂ := S1x1024) 0 _ _ _ (ix2 i q) rfl (ix2 (0 : Fin 1) q)
      (fun c => match c with
        | ⟨0, _⟩ => by show (0 : Nat) = i.val; omega
        | ⟨1, _⟩ => rfl)).trans ?_
    exact extractStridedSlice_apply _ _ _ _ (ix2 r q) (fun c => match c with
        | ⟨0, _⟩ => by show r.val = a + 0; omega
        | ⟨1, _⟩ => by show q.val = 0 + q.val; omega)
  · rw [if_neg h0] at hr
    refine (concatenate_pair_apply_right (s₁ := S1x1024) (s₂ := S1x1024) 0 _ _ _ (ix2 i q) rfl rfl (ix2 (0 : Fin 1) q)
      (fun c hc => match c with
        | ⟨0, _⟩ => absurd rfl hc
        | ⟨1, _⟩ => rfl)
      (by show 0 + 1 = i.val; omega)).trans ?_
    exact extractStridedSlice_apply _ _ _ _ (ix2 r q) (fun c => match c with
        | ⟨0, _⟩ => by show r.val = b + 0; omega
        | ⟨1, _⟩ => by show q.val = 0 + q.val; omega)

/-- Two single columns `a`, `b` of an image side by side: column 0 is column `a`, column 1 is column `b`. -/
private theorem cols2_apply {α : Type} (y : S1024x1024.Idx → α) (a b : Nat)
    (ha : S1024x1024.Slices ![0, a] S1024x1) (hb : S1024x1024.Slices ![0, b] S1024x1)
    (r : Fin 1024) (i : Fin 2) (q : Fin 1024) (hq : q.val = if i.val = 0 then a else b) :
    concatenate S1024x2 1 [⟨S1024x1, extractStridedSlice S1024x1 ![0, a] y ha⟩,
      ⟨S1024x1, extractStridedSlice S1024x1 ![0, b] y hb⟩] concatenates_S1024x1_S1024x1_S1024x2_d1 (ix2 r i)
      = y (ix2 r q) := by
  have hi := i.isLt
  by_cases h0 : i.val = 0
  · rw [if_pos h0] at hq
    refine (concatenate_pair_apply_left (s₁ := S1024x1) (s₂ := S1024x1) 1 _ _ _ (ix2 r i) rfl (ix2 r (0 : Fin 1))
      (fun c => match c with
        | ⟨0, _⟩ => rfl
        | ⟨1, _⟩ => by show (0 : Nat) = i.val; omega)).trans ?_
    exact extractStridedSlice_apply _ _ _ _ (ix2 r q) (fun c => match c with
        | ⟨0, _⟩ => by show r.val = 0 + r.val; omega
        | ⟨1, _⟩ => by show q.val = a + 0; omega)
  · rw [if_neg h0] at hq
    refine (concatenate_pair_apply_right (s₁ := S1024x1) (s₂ := S1024x1) 1 _ _ _ (ix2 r i) rfl rfl (ix2 r (0 : Fin 1))
      (fun c hc => match c with
        | ⟨0, _⟩ => rfl
        | ⟨1, _⟩ => absurd rfl hc)
      (by show 0 + 1 = i.val; omega)).trans ?_
    exact extractStridedSlice_apply _ _ _ _ (ix2 r q) (fun c => match c with
        | ⟨0, _⟩ => by show r.val = 0 + r.val; omega
        | ⟨1, _⟩ => by show q.val = b + 0; omega)

/-- An image with two mirrored rows attached above (rows 2, 1) and below (rows 1022, 1021). -/
private def padRows {α : Type} (y : S1024x1024.Idx → α) : S1028x1024.Idx → α :=
  concatenate S1028x1024 0
    [⟨S2x1024, concatenate S2x1024 0
        [⟨S1x1024, extractStridedSlice S1x1024 ![2, 0] y slices_S1024x1024_o2_0_S1x1024⟩,
         ⟨S1x1024, extractStridedSlice S1x1024 ![1, 0] y slices_S1024x1024_o1_0_S1x1024⟩]
        concatenates_S1x1024_S1x1024_S2x1024_d0⟩,
     ⟨S1024x1024, y⟩,
     ⟨S2x1024, concatenate S2x1024 0
        [⟨S1x1024, extractStridedSlice S1x1024 ![1022, 0] y slices_S1024x1024_o1022_0_S1x1024⟩,
         ⟨S1x1024, extractStridedSlice S1x1024 ![1021, 0] y slices_S1024x1024_o1021_0_S1x1024⟩]
        concatenates_S1x1024_S1x1024_S2x1024_d0⟩]
    concatenates_S2x1024_S1024x1024_S2x1024_S1028x1024_d0

/-- Row `i` of the row-padded image is row `src 1 i` of the image. -/
private theorem padRows_apply {α : Type} (y : S1024x1024.Idx → α) (i : Fin 1028) (q : Fin 1024) :
    padRows y (ix2 i q) = y (ix2 (at1024 (src 1 i.val)) q) := by
  have hi := i.isLt
  have hs : (at1024 (src 1 i.val)).val = src 1 i.val := at1024_val _ (src_lt 1 _ (by omega) (by omega) (by omega))
  have hsrc : src 1 i.val = if i.val < 2 then 2 - i.val else if i.val < 1026 then i.val - 2 else 2048 - i.val := by
    unfold src; split_ifs <;> omega
  generalize src 1 i.val = s at hs hsrc
  unfold padRows
  by_cases h1 : i.val < 2
  · rw [if_pos h1] at hsrc
    refine (concatenate_apply_piece 0 _ _ (ix2 i q) 0 (by simp) S2x1024 _ rfl rfl 0 rfl (ix2 (⟨i.val, h1⟩ : Fin 2) q)
      (fun c hc => match c with
        | ⟨0, _⟩ => absurd rfl hc
        | ⟨1, _⟩ => rfl)
      (by show 0 + i.val = i.val; omega)).trans ?_
    exact rows2_apply y 2 1 _ _ _ q _ (by
      show (at1024 s).val = if i.val = 0 then 2 else 1
      split_ifs <;> omega)
  · by_cases h2 : i.val < 1026
    · rw [if_neg h1, if_pos h2] at hsrc
      exact concatenate_apply_piece 0 _ _ (ix2 i q) 1 (by simp) S1024x1024 y rfl rfl 2 rfl
        (ix2 (at1024 s) q)
        (fun c hc => match c with
          | ⟨0, _⟩ => absurd rfl hc
          | ⟨1, _⟩ => rfl)
        (by show 2 + (at1024 s).val = i.val; omega)
    · rw [if_neg h1, if_neg h2] at hsrc
      refine (concatenate_apply_piece 0 _ _ (ix2 i q) 2 (by simp) S2x1024 _ rfl rfl 1026 rfl
        (ix2 (⟨i.val - 1026, by omega⟩ : Fin 2) q)
        (fun c hc => match c with
          | ⟨0, _⟩ => absurd rfl hc
          | ⟨1, _⟩ => rfl)
        (by show 1026 + (i.val - 1026) = i.val; omega)).trans ?_
      exact rows2_apply y 1022 1021 _ _ _ q _ (by
        show (at1024 s).val = if i.val - 1026 = 0 then 1022 else 1021
        split_ifs <;> omega)

/-- An image with two mirrored columns attached left (columns 2, 1) and right (columns 1022, 1021). -/
private def padCols {α : Type} (z : S1024x1024.Idx → α) : S1024x1028.Idx → α :=
  concatenate S1024x1028 1
    [⟨S1024x2, concatenate S1024x2 1
        [⟨S1024x1, extractStridedSlice S1024x1 ![0, 2] z slices_S1024x1024_o0_2_S1024x1⟩,
         ⟨S1024x1, extractStridedSlice S1024x1 ![0, 1] z slices_S1024x1024_o0_1_S1024x1⟩]
        concatenates_S1024x1_S1024x1_S1024x2_d1⟩,
     ⟨S1024x1024, z⟩,
     ⟨S1024x2, concatenate S1024x2 1
        [⟨S1024x1, extractStridedSlice S1024x1 ![0, 1022] z slices_S1024x1024_o0_1022_S1024x1⟩,
         ⟨S1024x1, extractStridedSlice S1024x1 ![0, 1021] z slices_S1024x1024_o0_1021_S1024x1⟩]
        concatenates_S1024x1_S1024x1_S1024x2_d1⟩]
    concatenates_S1024x2_S1024x1024_S1024x2_S1024x1028_d1

/-- Column `i` of the column-padded image is column `src 1 i` of the image. -/
private theorem padCols_apply {α : Type} (z : S1024x1024.Idx → α) (r : Fin 1024) (i : Fin 1028) :
    padCols z (ix2 r i) = z (ix2 r (at1024 (src 1 i.val))) := by
  have hi := i.isLt
  have hs : (at1024 (src 1 i.val)).val = src 1 i.val := at1024_val _ (src_lt 1 _ (by omega) (by omega) (by omega))
  have hsrc : src 1 i.val = if i.val < 2 then 2 - i.val else if i.val < 1026 then i.val - 2 else 2048 - i.val := by
    unfold src; split_ifs <;> omega
  generalize src 1 i.val = s at hs hsrc
  unfold padCols
  by_cases h1 : i.val < 2
  · rw [if_pos h1] at hsrc
    refine (concatenate_apply_piece 1 _ _ (ix2 r i) 0 (by simp) S1024x2 _ rfl rfl 0 rfl (ix2 r (⟨i.val, h1⟩ : Fin 2))
      (fun c hc => match c with
        | ⟨0, _⟩ => rfl
        | ⟨1, _⟩ => absurd rfl hc)
      (by show 0 + i.val = i.val; omega)).trans ?_
    exact cols2_apply z 2 1 _ _ r _ _ (by
      show (at1024 s).val = if i.val = 0 then 2 else 1
      split_ifs <;> omega)
  · by_cases h2 : i.val < 1026
    · rw [if_neg h1, if_pos h2] at hsrc
      exact concatenate_apply_piece 1 _ _ (ix2 r i) 1 (by simp) S1024x1024 z rfl rfl 2 rfl
        (ix2 r (at1024 s))
        (fun c hc => match c with
          | ⟨0, _⟩ => rfl
          | ⟨1, _⟩ => absurd rfl hc)
        (by show 2 + (at1024 s).val = i.val; omega)
    · rw [if_neg h1, if_neg h2] at hsrc
      refine (concatenate_apply_piece 1 _ _ (ix2 r i) 2 (by simp) S1024x2 _ rfl rfl 1026 rfl
        (ix2 r (⟨i.val - 1026, by omega⟩ : Fin 2))
        (fun c hc => match c with
          | ⟨0, _⟩ => rfl
          | ⟨1, _⟩ => absurd rfl hc)
        (by show 1026 + (i.val - 1026) = i.val; omega)).trans ?_
      exact cols2_apply z 1022 1021 _ _ r _ _ (by
        show (at1024 s).val = if i.val - 1026 = 0 then 1022 else 1021
        split_ifs <;> omega)

/-- The 1024 rows from row `o` on of a 1028-row array, at row `r`: row `o + r`. -/
private theorem rowSlice_apply {α : Type} (P : S1028x1024.Idx → α) (o : Nat) (h : S1028x1024.Slices ![o, 0] S1024x1024)
    (r q : Fin 1024) (i : Fin 1028) (hi : i.val = o + r.val) :
    extractStridedSlice S1024x1024 ![o, 0] P h (ix2 r q) = P (ix2 i q) :=
  extractStridedSlice_apply _ _ _ _ (ix2 i q) (fun c => match c with
    | ⟨0, _⟩ => hi
    | ⟨1, _⟩ => by show q.val = 0 + q.val; omega)

/-- The 1024 columns from column `o` on of a 1028-column array, at column `q`: column `o + q`. -/
private theorem colSlice_apply {α : Type} (Q : S1024x1028.Idx → α) (o : Nat) (h : S1024x1028.Slices ![0, o] S1024x1024)
    (r q : Fin 1024) (i : Fin 1028) (hi : i.val = o + q.val) :
    extractStridedSlice S1024x1024 ![0, o] Q h (ix2 r q) = Q (ix2 r i) :=
  extractStridedSlice_apply _ _ _ _ (ix2 r i) (fun c => match c with
    | ⟨0, _⟩ => by show r.val = 0 + r.val; omega
    | ⟨1, _⟩ => hi)

/-- The five-tap sum down the rows of a row-padded array. -/
private def filtRows (P : FVec F S1028x1024 .f32) : FVec F S1024x1024 .f32 :=
  addf (addf (addf (addf
    (mulf (broadcast S1024x1024 (Scalar.ofBits .f32 0x3D800000#32)) (extractStridedSlice S1024x1024 ![0, 0] P slices_S1028x1024_o0_0_S1024x1024))
    (mulf (broadcast S1024x1024 (Scalar.ofBits .f32 0x3E800000#32)) (extractStridedSlice S1024x1024 ![1, 0] P slices_S1028x1024_o1_0_S1024x1024)))
    (mulf (broadcast S1024x1024 (Scalar.ofBits .f32 0x3EC00000#32)) (extractStridedSlice S1024x1024 ![2, 0] P slices_S1028x1024_o2_0_S1024x1024)))
    (mulf (broadcast S1024x1024 (Scalar.ofBits .f32 0x3E800000#32)) (extractStridedSlice S1024x1024 ![3, 0] P slices_S1028x1024_o3_0_S1024x1024)))
    (mulf (broadcast S1024x1024 (Scalar.ofBits .f32 0x3D800000#32)) (extractStridedSlice S1024x1024 ![4, 0] P slices_S1028x1024_o4_0_S1024x1024))

/-- The five-tap sum along the columns of a column-padded array. -/
private def filtCols (Q : FVec F S1024x1028 .f32) : FVec F S1024x1024 .f32 :=
  addf (addf (addf (addf
    (mulf (broadcast S1024x1024 (Scalar.ofBits .f32 0x3D800000#32)) (extractStridedSlice S1024x1024 ![0, 0] Q slices_S1024x1028_o0_0_S1024x1024))
    (mulf (broadcast S1024x1024 (Scalar.ofBits .f32 0x3E800000#32)) (extractStridedSlice S1024x1024 ![0, 1] Q slices_S1024x1028_o0_1_S1024x1024)))
    (mulf (broadcast S1024x1024 (Scalar.ofBits .f32 0x3EC00000#32)) (extractStridedSlice S1024x1024 ![0, 2] Q slices_S1024x1028_o0_2_S1024x1024)))
    (mulf (broadcast S1024x1024 (Scalar.ofBits .f32 0x3E800000#32)) (extractStridedSlice S1024x1024 ![0, 3] Q slices_S1024x1028_o0_3_S1024x1024)))
    (mulf (broadcast S1024x1024 (Scalar.ofBits .f32 0x3D800000#32)) (extractStridedSlice S1024x1024 ![0, 4] Q slices_S1024x1028_o0_4_S1024x1024))

/-- Row `r + k` of a 1028-row array, for a tap `k`. -/
private def rowAt (r : Fin 1024) (k : Fin 5) : Fin 1028 := ⟨r.val + k.val, by have := r.isLt; have := k.isLt; omega⟩

private theorem filtRows_apply (P : FVec F S1028x1024 .f32) (r q : Fin 1024) :
    filtRows P (ix2 r q) = tap5 fun k => P (ix2 (rowAt r k) q) := by
  show FloatOps.addf (FloatOps.addf (FloatOps.addf (FloatOps.addf
      (FloatOps.mulf _ (extractStridedSlice S1024x1024 ![0, 0] P _ (ix2 r q)))
      (FloatOps.mulf _ (extractStridedSlice S1024x1024 ![1, 0] P _ (ix2 r q))))
      (FloatOps.mulf _ (extractStridedSlice S1024x1024 ![2, 0] P _ (ix2 r q))))
      (FloatOps.mulf _ (extractStridedSlice S1024x1024 ![3, 0] P _ (ix2 r q))))
      (FloatOps.mulf _ (extractStridedSlice S1024x1024 ![4, 0] P _ (ix2 r q))) = _
  rw [rowSlice_apply P 0 _ r q (rowAt r 0) (by show r.val + 0 = 0 + r.val; omega),
    rowSlice_apply P 1 _ r q (rowAt r 1) (by show r.val + 1 = 1 + r.val; omega),
    rowSlice_apply P 2 _ r q (rowAt r 2) (by show r.val + 2 = 2 + r.val; omega),
    rowSlice_apply P 3 _ r q (rowAt r 3) (by show r.val + 3 = 3 + r.val; omega),
    rowSlice_apply P 4 _ r q (rowAt r 4) (by show r.val + 4 = 4 + r.val; omega)]
  rfl

private theorem filtCols_apply (Q : FVec F S1024x1028 .f32) (r q : Fin 1024) :
    filtCols Q (ix2 r q) = tap5 fun k => Q (ix2 r (rowAt q k)) := by
  show FloatOps.addf (FloatOps.addf (FloatOps.addf (FloatOps.addf
      (FloatOps.mulf _ (extractStridedSlice S1024x1024 ![0, 0] Q _ (ix2 r q)))
      (FloatOps.mulf _ (extractStridedSlice S1024x1024 ![0, 1] Q _ (ix2 r q))))
      (FloatOps.mulf _ (extractStridedSlice S1024x1024 ![0, 2] Q _ (ix2 r q))))
      (FloatOps.mulf _ (extractStridedSlice S1024x1024 ![0, 3] Q _ (ix2 r q))))
      (FloatOps.mulf _ (extractStridedSlice S1024x1024 ![0, 4] Q _ (ix2 r q))) = _
  rw [colSlice_apply Q 0 _ r q (rowAt q 0) (by show q.val + 0 = 0 + q.val; omega),
    colSlice_apply Q 1 _ r q (rowAt q 1) (by show q.val + 1 = 1 + q.val; omega),
    colSlice_apply Q 2 _ r q (rowAt q 2) (by show q.val + 2 = 2 + q.val; omega),
    colSlice_apply Q 3 _ r q (rowAt q 3) (by show q.val + 3 = 3 + q.val; omega),
    colSlice_apply Q 4 _ r q (rowAt q 4) (by show q.val + 4 = 4 + q.val; omega)]
  rfl

/-- The tap a row of the padded array reads. -/
private theorem at1024_rowAt (p : Fin 1024) (k : Fin 5) : at1024 (src 1 (rowAt p k).val) = tapAt 1 p.val k := by
  show at1024 (src 1 (p.val + k.val)) = at1024 (src 1 (p.val + k.val * 1))
  rw [Nat.mul_one]

/-- The row filter of the row-padded image is the filter down the rows. -/
private theorem filtRows_padRows (y : Vec F S1024x1024 .f32) (r q : Fin 1024) :
    filtRows (padRows y) (ix2 r q) = smoothRows 1 (img2 y) r q := by
  rw [filtRows_apply]
  refine congrArg (tap5 (F := F)) (funext fun k => ?_)
  rw [padRows_apply, at1024_rowAt]
  rfl

/-- The column filter of the column-padded row-filtered image is the first level. -/
private theorem filtCols_padCols (y : Vec F S1024x1024 .f32) (r q : Fin 1024) :
    filtCols (padCols (filtRows (padRows y))) (ix2 r q) = level 1 (img2 y) r q := by
  rw [filtCols_apply]
  show _ = tap5 fun k => smoothRows 1 (img2 y) r (tapAt 1 q.val k)
  refine congrArg (tap5 (F := F)) (funext fun k => ?_)
  rw [padCols_apply, at1024_rowAt, filtRows_padRows]

/-- The payloads are these terms. -/
private theorem pay12_eq (y : Vec F S1024x1024 .f32) : k0_pay12 y = padCols (filtRows (padRows y)) := rfl

private theorem pay2_eq (y : Vec F S1024x1024 .f32) :
    k0_pay2 (k0_pay12 y) (k0_pay13 y) = filtCols (k0_pay12 y) := rfl

private theorem pay2_apply (y : Vec F S1024x1024 .f32) (r q : Fin 1024) :
    k0_pay2 (k0_pay12 y) (k0_pay13 y) (ix2 r q) = level 1 (img2 y) r q := by
  rw [pay2_eq, pay12_eq, filtCols_padCols]

/-- The smoothed image the first level leaves, at row `r` and column `q`. -/
theorem level1_apply (y : Vec F S1024x1024 .f32) (r q : Fin 1024) :
    k0_pay3 (k0_pay12 y) (k0_pay13 y) (ix2 r q) = level 1 (img2 y) r q := by
  show shapeCast S1024x1024 (k0_pay2 (k0_pay12 y) (k0_pay13 y)) shapeCasts_S1024x1024_S1024x1024 (ix2 r q) = _
  rw [shapeCast_self, pay2_apply]

/-- The detail the first level writes out, at row `r` and column `q` of its one-image block. -/
theorem detail1_apply (y : Vec F S1024x1024 .f32) (r q : Fin 1024) :
    k0_pay4 y (k0_pay12 y) (k0_pay13 y) (ix4 (0 : Fin 1) (0 : Fin 1) r q) = detail 1 (img2 y) r q := by
  show shapeCast S1x1x1024x1024 (subf y (k0_pay2 (k0_pay12 y) (k0_pay13 y))) shapeCasts_S1024x1024_S1x1x1024x1024
    (ix4 (0 : Fin 1) (0 : Fin 1) r q) = _
  refine (shapeCast_apply _ _ _ (ix2 r q) (by
    rw [Shape.rowMajor_val_two, Shape.rowMajor_val_four]
    show r.val * 1024 + q.val = ((0 * 1 + 0) * 1024 + r.val) * 1024 + q.val
    omega)).trans ?_
  show FloatOps.subf (y (ix2 r q)) (k0_pay2 (k0_pay12 y) (k0_pay13 y) (ix2 r q)) = _
  rw [pay2_apply]
  rfl

end Cert.KernelIdeal.Levels

end
-- ==== Proof.KernelLevel2.lean ====
/-
  The kernel's second level (dilation 2), read entry by entry.
-/
import proofs.«148597_j34797825032657_1_alg».proof.Proof.Gen.KernelIdeal.Skeleton
import proofs.«148597_j34797825032657_1_alg».proof.Proof.Spline
import Idealize.ShloMosaic.Lib.Pipeline.Value
import Idealize.ShloMosaic.Lib.ValueIdx
import Idealize.ShloMosaic.Lib.ValueLayout

noncomputable section

namespace Cert.KernelIdeal.Levels

open Idealize.ShloMosaic Idealize.ShloMosaic.ValueIdx Cert.KernelIdeal Cert.KernelIdeal.Gen Cert.Spline

variable {F : FTy → Type} [FloatOps F]

/-! ## Single rows and columns of an image -/

section Layout
variable {α : Type}

/-- The single row `o` of an image, read at column `q`. -/
private theorem rowSlice_apply (x : S1024x1024.Idx → α) (o : Nat) (ho : o < 1024) (h : S1024x1024.Slices ![o, 0] S1x1024)
    (q : Fin 1024) : extractStridedSlice S1x1024 ![o, 0] x h (ix2 (0 : Fin 1) q) = x (ix2 ⟨o, ho⟩ q) :=
  extractStridedSlice_apply _ x h _ _ fun a => match a with
    | ⟨0, _⟩ => by show o = o + 0; omega
    | ⟨1, _⟩ => by show q.val = 0 + q.val; omega

/-- The single column `o` of an image, read at row `r`. -/
private theorem colSlice_apply (x : S1024x1024.Idx → α) (o : Nat) (ho : o < 1024) (h : S1024x1024.Slices ![0, o] S1024x1)
    (r : Fin 1024) : extractStridedSlice S1024x1 ![0, o] x h (ix2 r (0 : Fin 1)) = x (ix2 r ⟨o, ho⟩) :=
  extractStridedSlice_apply _ x h _ _ fun a => match a with
    | ⟨0, _⟩ => by show r.val = 0 + r.val; omega
    | ⟨1, _⟩ => by show o = o + 0; omega

/-- Four single rows laid one under another: row `i` is the `i`-th of them. -/
private theorem rows4_apply (x0 x1 x2 x3 : S1x1024.Idx → α)
    (h : Shape.Concatenates (([⟨S1x1024, x0⟩, ⟨S1x1024, x1⟩, ⟨S1x1024, x2⟩, ⟨S1x1024, x3⟩] :
      List ((s : Shape) × (s.Idx → α))).map (·.1)) S4x1024 0) (i : Fin 4) (q : Fin 1024) :
    concatenate S4x1024 0 [⟨S1x1024, x0⟩, ⟨S1x1024, x1⟩, ⟨S1x1024, x2⟩, ⟨S1x1024, x3⟩] h (ix2 i q)
      = (match i with | ⟨0, _⟩ => x0 | ⟨1, _⟩ => x1 | ⟨2, _⟩ => x2 | ⟨3, _⟩ => x3) (ix2 (0 : Fin 1) q) := by
  match i with
  | ⟨0, _⟩ =>
    exact concatenate_apply_piece 0 _ h _ 0 (by simp) S1x1024 x0 rfl rfl 0 rfl (ix2 (0 : Fin 1) q)
      (fun b hb => match b with | ⟨0, _⟩ => absurd rfl hb | ⟨1, _⟩ => rfl) rfl
  | ⟨1, _⟩ =>
    exact concatenate_apply_piece 0 _ h _ 1 (by simp) S1x1024 x1 rfl rfl 1 rfl (ix2 (0 : Fin 1) q)
      (fun b hb => match b with | ⟨0, _⟩ => absurd rfl hb | ⟨1, _⟩ => rfl) rfl
  | ⟨2, _⟩ =>
    exact concatenate_apply_piece 0 _ h _ 2 (by simp) S1x1024 x2 rfl rfl 2 rfl (ix2 (0 : Fin 1) q)
      (fun b hb => match b with | ⟨0, _⟩ => absurd rfl hb | ⟨1, _⟩ => rfl) rfl
  | ⟨3, _⟩ =>
    exact concatenate_apply_piece 0 _ h _ 3 (by simp) S1x1024 x3 rfl rfl 3 rfl (ix2 (0 : Fin 1) q)
      (fun b hb => match b with | ⟨0, _⟩ => absurd rfl hb | ⟨1, _⟩ => rfl) rfl

end Layout

section Layout2
variable {α : Type}

/-- Four single columns laid side by side: column `i` is the `i`-th of them. -/
private theorem cols4_apply (x0 x1 x2 x3 : S1024x1.Idx → α)
    (h : Shape.Concatenates (([⟨S1024x1, x0⟩, ⟨S1024x1, x1⟩, ⟨S1024x1, x2⟩, ⟨S1024x1, x3⟩] :
      List ((s : Shape) × (s.Idx → α))).map (·.1)) S1024x4 1) (r : Fin 1024) (i : Fin 4) :
    concatenate S1024x4 1 [⟨S1024x1, x0⟩, ⟨S1024x1, x1⟩, ⟨S1024x1, x2⟩, ⟨S1024x1, x3⟩] h (ix2 r i)
      = (match i with | ⟨0, _⟩ => x0 | ⟨1, _⟩ => x1 | ⟨2, _⟩ => x2 | ⟨3, _⟩ => x3) (ix2 r (0 : Fin 1)) := by
  match i with
  | ⟨0, _⟩ =>
    exact concatenate_apply_piece 1 _ h _ 0 (by simp) S1024x1 x0 rfl rfl 0 rfl (ix2 r (0 : Fin 1))
      (fun b hb => match b with | ⟨0, _⟩ => rfl | ⟨1, _⟩ => absurd rfl hb) rfl
  | ⟨1, _⟩ =>
    exact concatenate_apply_piece 1 _ h _ 1 (by simp) S1024x1 x1 rfl rfl 1 rfl (ix2 r (0 : Fin 1))
      (fun b hb => match b with | ⟨0, _⟩ => rfl | ⟨1, _⟩ => absurd rfl hb) rfl
  | ⟨2, _⟩ =>
    exact concatenate_apply_piece 1 _ h _ 2 (by simp) S1024x1 x2 rfl rfl 2 rfl (ix2 r (0 : Fin 1))
      (fun b hb => match b with | ⟨0, _⟩ => rfl | ⟨1, _⟩ => absurd rfl hb) rfl
  | ⟨3, _⟩ =>
    exact concatenate_apply_piece 1 _ h _ 3 (by simp) S1024x1 x3 rfl rfl 3 rfl (ix2 r (0 : Fin 1))
      (fun b hb => match b with | ⟨0, _⟩ => rfl | ⟨1, _⟩ => absurd rfl hb) rfl

/-- Rows `o`, `o - 1`, `o - 2`, `o - 3` of an image laid one under another: row `i` of the four is row `o - i`. -/
private theorem mirrorRows_apply (x : S1024x1024.Idx → α) (o : Nat) (ho : 3 ≤ o) (ho' : o < 1024)
    (h0 : S1024x1024.Slices ![o, 0] S1x1024) (h1 : S1024x1024.Slices ![o - 1, 0] S1x1024)
    (h2 : S1024x1024.Slices ![o - 2, 0] S1x1024) (h3 : S1024x1024.Slices ![o - 3, 0] S1x1024)
    (hc : Shape.Concatenates [S1x1024, S1x1024, S1x1024, S1x1024] S4x1024 0) (i : Fin 4) (q : Fin 1024) :
    concatenate S4x1024 0
      [⟨S1x1024, extractStridedSlice S1x1024 ![o, 0] x h0⟩, ⟨S1x1024, extractStridedSlice S1x1024 ![o - 1, 0] x h1⟩,
       ⟨S1x1024, extractStridedSlice S1x1024 ![o - 2, 0] x h2⟩, ⟨S1x1024, extractStridedSlice S1x1024 ![o - 3, 0] x h3⟩] hc (ix2 i q)
      = x (ix2 ⟨o - i.val, by omega⟩ q) := by
  refine (rows4_apply _ _ _ _ hc i q).trans ?_
  match i with
  | ⟨0, _⟩ => exact rowSlice_apply x o (by omega) h0 q
  | ⟨1, _⟩ => exact rowSlice_apply x (o - 1) (by omega) h1 q
  | ⟨2, _⟩ => exact rowSlice_apply x (o - 2) (by omega) h2 q
  | ⟨3, _⟩ => exact rowSlice_apply x (o - 3) (by omega) h3 q

/-- Columns `o`, `o - 1`, `o - 2`, `o - 3` of an image laid side by side: column `i` of the four is column `o - i`. -/
private theorem mirrorCols_apply (x : S1024x1024.Idx → α) (o : Nat) (ho : 3 ≤ o) (ho' : o < 1024)
    (h0 : S1024x1024.Slices ![0, o] S1024x1) (h1 : S1024x1024.Slices ![0, o - 1] S1024x1)
    (h2 : S1024x1024.Slices ![0, o - 2] S1024x1) (h3 : S1024x1024.Slices ![0, o - 3] S1024x1)
    (hc : Shape.Concatenates [S1024x1, S1024x1, S1024x1, S1024x1] S1024x4 1) (r : Fin 1024) (i : Fin 4) :
    concatenate S1024x4 1
      [⟨S1024x1, extractStridedSlice S1024x1 ![0, o] x h0⟩, ⟨S1024x1, extractStridedSlice S1024x1 ![0, o - 1] x h1⟩,
       ⟨S1024x1, extractStridedSlice S1024x1 ![0, o - 2] x h2⟩, ⟨S1024x1, extractStridedSlice S1024x1 ![0, o - 3] x h3⟩] hc (ix2 r i)
      = x (ix2 r ⟨o - i.val, by omega⟩) := by
  refine (cols4_apply _ _ _ _ hc r i).trans ?_
  match i with
  | ⟨0, _⟩ => exact colSlice_apply x o (by omega) h0 r
  | ⟨1, _⟩ => exact colSlice_apply x (o - 1) (by omega) h1 r
  | ⟨2, _⟩ => exact colSlice_apply x (o - 2) (by omega) h2 r
  | ⟨3, _⟩ => exact colSlice_apply x (o - 3) (by omega) h3 r

end Layout2

/-! ## The two margins -/

section Margins
variable {α : Type}

/-- Four rows, an image, four rows, laid one under another: row `i` falls in the piece whose span holds it. -/
private theorem rows3_apply (x0 : S4x1024.Idx → α) (x1 : S1024x1024.Idx → α) (x2 : S4x1024.Idx → α)
    (h : Shape.Concatenates (([⟨S4x1024, x0⟩, ⟨S1024x1024, x1⟩, ⟨S4x1024, x2⟩] :
      List ((s : Shape) × (s.Idx → α))).map (·.1)) S1032x1024 0) (i : Fin 1032) (q : Fin 1024) :
    concatenate S1032x1024 0 [⟨S4x1024, x0⟩, ⟨S1024x1024, x1⟩, ⟨S4x1024, x2⟩] h (ix2 i q)
      = if h1 : i.val < 4 then x0 (ix2 ⟨i.val, h1⟩ q)
        else if h2 : i.val < 1028 then x1 (ix2 ⟨i.val - 4, by omega⟩ q)
        else x2 (ix2 ⟨i.val - 1028, by have := i.isLt; omega⟩ q) := by
  have hi := i.isLt
  split_ifs with h1 h2
  · exact concatenate_apply_piece 0 _ h (ix2 i q) 0 (by simp) S4x1024 x0 rfl rfl 0 rfl (ix2 (⟨i.val, h1⟩ : Fin 4) q)
      (fun b hb => match b with | ⟨0, _⟩ => absurd rfl hb | ⟨1, _⟩ => rfl) (by show 0 + i.val = i.val; omega)
  · exact concatenate_apply_piece 0 _ h (ix2 i q) 1 (by simp) S1024x1024 x1 rfl rfl 4 rfl (ix2 (⟨i.val - 4, by omega⟩ : Fin 1024) q)
      (fun b hb => match b with | ⟨0, _⟩ => absurd rfl hb | ⟨1, _⟩ => rfl) (by show 4 + (i.val - 4) = i.val; omega)
  · exact concatenate_apply_piece 0 _ h (ix2 i q) 2 (by simp) S4x1024 x2 rfl rfl 1028 rfl (ix2 (⟨i.val - 1028, by omega⟩ : Fin 4) q)
      (fun b hb => match b with | ⟨0, _⟩ => absurd rfl hb | ⟨1, _⟩ => rfl) (by show 1028 + (i.val - 1028) = i.val; omega)

end Margins

section Margins2
variable {α : Type}

/-- Four columns, an image, four columns, laid side by side: column `i` falls in the piece whose span holds it. -/
private theorem cols3_apply (x0 : S1024x4.Idx → α) (x1 : S1024x1024.Idx → α) (x2 : S1024x4.Idx → α)
    (h : Shape.Concatenates (([⟨S1024x4, x0⟩, ⟨S1024x1024, x1⟩, ⟨S1024x4, x2⟩] :
      List ((s : Shape) × (s.Idx → α))).map (·.1)) S1024x1032 1) (r : Fin 1024) (i : Fin 1032) :
    concatenate S1024x1032 1 [⟨S1024x4, x0⟩, ⟨S1024x1024, x1⟩, ⟨S1024x4, x2⟩] h (ix2 r i)
      = if h1 : i.val < 4 then x0 (ix2 r ⟨i.val, h1⟩)
        else if h2 : i.val < 1028 then x1 (ix2 r ⟨i.val - 4, by omega⟩)
        else x2 (ix2 r ⟨i.val - 1028, by have := i.isLt; omega⟩) := by
  have hi := i.isLt
  split_ifs with h1 h2
  · exact concatenate_apply_piece 1 _ h (ix2 r i) 0 (by simp) S1024x4 x0 rfl rfl 0 rfl (ix2 r (⟨i.val, h1⟩ : Fin 4))
      (fun b hb => match b with | ⟨0, _⟩ => rfl | ⟨1, _⟩ => absurd rfl hb) (by show 0 + i.val = i.val; omega)
  · exact concatenate_apply_piece 1 _ h (ix2 r i) 1 (by simp) S1024x1024 x1 rfl rfl 4 rfl (ix2 r (⟨i.val - 4, by omega⟩ : Fin 1024))
      (fun b hb => match b with | ⟨0, _⟩ => rfl | ⟨1, _⟩ => absurd rfl hb) (by show 4 + (i.val - 4) = i.val; omega)
  · exact concatenate_apply_piece 1 _ h (ix2 r i) 2 (by simp) S1024x4 x2 rfl rfl 1028 rfl (ix2 r (⟨i.val - 1028, by omega⟩ : Fin 4))
      (fun b hb => match b with | ⟨0, _⟩ => rfl | ⟨1, _⟩ => absurd rfl hb) (by show 1028 + (i.val - 1028) = i.val; omega)

/-- An image with its row margin for dilation 2: rows 4, 3, 2, 1 above it and rows 1022, 1021, 1020, 1019 below. -/
private def padRows (x : S1024x1024.Idx → α) : S1032x1024.Idx → α :=
  concatenate S1032x1024 0
    [⟨S4x1024, concatenate S4x1024 0
        [⟨S1x1024, extractStridedSlice S1x1024 ![4, 0] x slices_S1024x1024_o4_0_S1x1024⟩,
         ⟨S1x1024, extractStridedSlice S1x1024 ![3, 0] x slices_S1024x1024_o3_0_S1x1024⟩,
         ⟨S1x1024, extractStridedSlice S1x1024 ![2, 0] x slices_S1024x1024_o2_0_S1x1024⟩,
         ⟨S1x1024, extractStridedSlice S1x1024 ![1, 0] x slices_S1024x1024_o1_0_S1x1024⟩]
        concatenates_S1x1024_S1x1024_S1x1024_S1x1024_S4x1024_d0⟩,
     ⟨S1024x1024, x⟩,
     ⟨S4x1024, concatenate S4x1024 0
        [⟨S1x1024, extractStridedSlice S1x1024 ![1022, 0] x slices_S1024x1024_o1022_0_S1x1024⟩,
         ⟨S1x1024, extractStridedSlice S1x1024 ![1021, 0] x slices_S1024x1024_o1021_0_S1x1024⟩,
         ⟨S1x1024, extractStridedSlice S1x1024 ![1020, 0] x slices_S1024x1024_o1020_0_S1x1024⟩,
         ⟨S1x1024, extractStridedSlice S1x1024 ![1019, 0] x slices_S1024x1024_o1019_0_S1x1024⟩]
        concatenates_S1x1024_S1x1024_S1x1024_S1x1024_S4x1024_d0⟩]
    concatenates_S4x1024_S1024x1024_S4x1024_S1032x1024_d0

/-- Row `i` of the image with its row margin is the row of the image the mirrored axis names. -/
private theorem padRows_apply (x : S1024x1024.Idx → α) (i : Fin 1032) (q : Fin 1024) :
    padRows x (ix2 i q) = x (ix2 (at1024 (src 2 i.val)) q) := by
  have hi := i.isLt
  unfold padRows
  refine (rows3_apply _ x _ _ i q).trans ?_
  split_ifs with h1 h2
  · refine (mirrorRows_apply x 4 (by omega) (by omega) _ _ _ _ _ ⟨i.val, h1⟩ q).trans ?_
    refine congrArg (fun r => x (ix2 r q)) (Fin.ext ?_)
    show 4 - i.val = min (src 2 i.val) 1023
    unfold src; split_ifs <;> omega
  · refine congrArg (fun r => x (ix2 r q)) (Fin.ext ?_)
    show i.val - 4 = min (src 2 i.val) 1023
    unfold src; split_ifs <;> omega
  · refine (mirrorRows_apply x 1022 (by omega) (by omega) _ _ _ _ _ ⟨i.val - 1028, by omega⟩ q).trans ?_
    refine congrArg (fun r => x (ix2 r q)) (Fin.ext ?_)
    show 1022 - (i.val - 1028) = min (src 2 i.val) 1023
    unfold src; split_ifs <;> omega

/-- An image with its column margin for dilation 2: columns 4, 3, 2, 1 before it and columns 1022, 1021, 1020, 1019
    after. -/
private def padCols (x : S1024x1024.Idx → α) : S1024x1032.Idx → α :=
  concatenate S1024x1032 1
    [⟨S1024x4, concatenate S1024x4 1
        [⟨S1024x1, extractStridedSlice S1024x1 ![0, 4] x slices_S1024x1024_o0_4_S1024x1⟩,
         ⟨S1024x1, extractStridedSlice S1024x1 ![0, 3] x slices_S1024x1024_o0_3_S1024x1⟩,
         ⟨S1024x1, extractStridedSlice S1024x1 ![0, 2] x slices_S1024x1024_o0_2_S1024x1⟩,
         ⟨S1024x1, extractStridedSlice S1024x1 ![0, 1] x slices_S1024x1024_o0_1_S1024x1⟩]
        concatenates_S1024x1_S1024x1_S1024x1_S1024x1_S1024x4_d1⟩,
     ⟨S1024x1024, x⟩,
     ⟨S1024x4, concatenate S1024x4 1
        [⟨S1024x1, extractStridedSlice S1024x1 ![0, 1022] x slices_S1024x1024_o0_1022_S1024x1⟩,
         ⟨S1024x1, extractStridedSlice S1024x1 ![0, 1021] x slices_S1024x1024_o0_1021_S1024x1⟩,
         ⟨S1024x1, extractStridedSlice S1024x1 ![0, 1020] x slices_S1024x1024_o0_1020_S1024x1⟩,
         ⟨S1024x1, extractStridedSlice S1024x1 ![0, 1019] x slices_S1024x1024_o0_1019_S1024x1⟩]
        concatenates_S1024x1_S1024x1_S1024x1_S1024x1_S1024x4_d1⟩]
    concatenates_S1024x4_S1024x1024_S1024x4_S1024x1032_d1

/-- Column `i` of the image with its column margin is the column of the image the mirrored axis names. -/
private theorem padCols_apply (x : S1024x1024.Idx → α) (r : Fin 1024) (i : Fin 1032) :
    padCols x (ix2 r i) = x (ix2 r (at1024 (src 2 i.val))) := by
  have hi := i.isLt
  unfold padCols
  refine (cols3_apply _ x _ _ r i).trans ?_
  split_ifs with h1 h2
  · refine (mirrorCols_apply x 4 (by omega) (by omega) _ _ _ _ _ r ⟨i.val, h1⟩).trans ?_
    refine congrArg (fun c => x (ix2 r c)) (Fin.ext ?_)
    show 4 - i.val = min (src 2 i.val) 1023
    unfold src; split_ifs <;> omega
  · refine congrArg (fun c => x (ix2 r c)) (Fin.ext ?_)
    show i.val - 4 = min (src 2 i.val) 1023
    unfold src; split_ifs <;> omega
  · refine (mirrorCols_apply x 1022 (by omega) (by omega) _ _ _ _ _ r ⟨i.val - 1028, by omega⟩).trans ?_
    refine congrArg (fun c => x (ix2 r c)) (Fin.ext ?_)
    show 1022 - (i.val - 1028) = min (src 2 i.val) 1023
    unfold src; split_ifs <;> omega

end Margins2

/-! ## The five-tap sum along each axis -/

/-- Five weighted arrays added from the left, read at an index. -/
private theorem fold5_apply (w0 w1 w2 w3 w4 : F .f32) (s0 s1 s2 s3 s4 : FVec F S1024x1024 .f32) (j : S1024x1024.Idx) :
    addf (addf (addf (addf (mulf (broadcast S1024x1024 w0) s0) (mulf (broadcast S1024x1024 w1) s1))
      (mulf (broadcast S1024x1024 w2) s2)) (mulf (broadcast S1024x1024 w3) s3)) (mulf (broadcast S1024x1024 w4) s4) j
    = FloatOps.addf (FloatOps.addf (FloatOps.addf (FloatOps.addf (FloatOps.mulf w0 (s0 j)) (FloatOps.mulf w1 (s1 j)))
        (FloatOps.mulf w2 (s2 j))) (FloatOps.mulf w3 (s3 j))) (FloatOps.mulf w4 (s4 j)) := rfl

/-- The filter down the rows of an image that already carries its row margin. -/
private def rowFilter (P : FVec F S1032x1024 .f32) : FVec F S1024x1024 .f32 :=
  addf (addf (addf (addf
    (mulf (broadcast S1024x1024 (Scalar.ofBits .f32 0x3D800000#32)) (extractStridedSlice S1024x1024 ![0, 0] P slices_S1032x1024_o0_0_S1024x1024))
    (mulf (broadcast S1024x1024 (Scalar.ofBits .f32 0x3E800000#32)) (extractStridedSlice S1024x1024 ![2, 0] P slices_S1032x1024_o2_0_S1024x1024)))
    (mulf (broadcast S1024x1024 (Scalar.ofBits .f32 0x3EC00000#32)) (extractStridedSlice S1024x1024 ![4, 0] P slices_S1032x1024_o4_0_S1024x1024)))
    (mulf (broadcast S1024x1024 (Scalar.ofBits .f32 0x3E800000#32)) (extractStridedSlice S1024x1024 ![6, 0] P slices_S1032x1024_o6_0_S1024x1024)))
    (mulf (broadcast S1024x1024 (Scalar.ofBits .f32 0x3D800000#32)) (extractStridedSlice S1024x1024 ![8, 0] P slices_S1032x1024_o8_0_S1024x1024))

/-- The filter along the columns of an image that already carries its column margin. -/
private def colFilter (Q : FVec F S1024x1032 .f32) : FVec F S1024x1024 .f32 :=
  addf (addf (addf (addf
    (mulf (broadcast S1024x1024 (Scalar.ofBits .f32 0x3D800000#32)) (extractStridedSlice S1024x1024 ![0, 0] Q slices_S1024x1032_o0_0_S1024x1024))
    (mulf (broadcast S1024x1024 (Scalar.ofBits .f32 0x3E800000#32)) (extractStridedSlice S1024x1024 ![0, 2] Q slices_S1024x1032_o0_2_S1024x1024)))
    (mulf (broadcast S1024x1024 (Scalar.ofBits .f32 0x3EC00000#32)) (extractStridedSlice S1024x1024 ![0, 4] Q slices_S1024x1032_o0_4_S1024x1024)))
    (mulf (broadcast S1024x1024 (Scalar.ofBits .f32 0x3E800000#32)) (extractStridedSlice S1024x1024 ![0, 6] Q slices_S1024x1032_o0_6_S1024x1024)))
    (mulf (broadcast S1024x1024 (Scalar.ofBits .f32 0x3D800000#32)) (extractStridedSlice S1024x1024 ![0, 8] Q slices_S1024x1032_o0_8_S1024x1024))

section Taps
variable {α : Type}

/-- The slice of the row-margined image at row offset `2 k` reads, at row `r`, the row tap `k` names. -/
private theorem rowTap (x : S1024x1024.Idx → α) (o : Nat) (k : Fin 5) (hk : o = k.val * 2)
    (h : S1032x1024.Slices ![o, 0] S1024x1024) (r q : Fin 1024) :
    extractStridedSlice S1024x1024 ![o, 0] (padRows x) h (ix2 r q) = x (ix2 (tapAt 2 r.val k) q) := by
  have hk5 := k.isLt
  have hr := r.isLt
  subst hk
  refine (extractStridedSlice_apply _ _ h _ (ix2 (⟨r.val + k.val * 2, by omega⟩ : Fin 1032) q) fun a => match a with
    | ⟨0, _⟩ => by show r.val + k.val * 2 = k.val * 2 + r.val; omega
    | ⟨1, _⟩ => by show q.val = 0 + q.val; omega).trans ?_
  exact padRows_apply x _ q

/-- The slice of the column-margined image at column offset `2 k` reads, at column `q`, the column tap `k` names. -/
private theorem colTap (x : S1024x1024.Idx → α) (o : Nat) (k : Fin 5) (hk : o = k.val * 2)
    (h : S1024x1032.Slices ![0, o] S1024x1024) (r q : Fin 1024) :
    extractStridedSlice S1024x1024 ![0, o] (padCols x) h (ix2 r q) = x (ix2 r (tapAt 2 q.val k)) := by
  have hk5 := k.isLt
  have hq := q.isLt
  subst hk
  refine (extractStridedSlice_apply _ _ h _ (ix2 r (⟨q.val + k.val * 2, by omega⟩ : Fin 1032)) fun a => match a with
    | ⟨0, _⟩ => by show r.val = 0 + r.val; omega
    | ⟨1, _⟩ => by show q.val + k.val * 2 = k.val * 2 + q.val; omega).trans ?_
  exact padCols_apply x r _

end Taps

/-- The row filter of the row-margined image is the specification's filter down the rows. -/
private theorem rowFilter_pad (y : FVec F S1024x1024 .f32) (r q : Fin 1024) :
    rowFilter (padRows y) (ix2 r q) = smoothRows 2 (img2 y) r q := by
  unfold rowFilter
  refine (fold5_apply _ _ _ _ _ _ _ _ _ _ _).trans ?_
  rw [rowTap y 0 0 rfl, rowTap y 2 1 rfl, rowTap y 4 2 rfl, rowTap y 6 3 rfl, rowTap y 8 4 rfl]
  rfl

/-- The column filter of the column-margined image is the specification's filter along the columns. -/
private theorem colFilter_pad (z : FVec F S1024x1024 .f32) (r q : Fin 1024) :
    colFilter (padCols z) (ix2 r q) = smoothCols 2 (img2 z) r q := by
  unfold colFilter
  refine (fold5_apply _ _ _ _ _ _ _ _ _ _ _).trans ?_
  rw [colTap z 0 0 rfl, colTap z 2 1 rfl, colTap z 4 2 rfl, colTap z 6 3 rfl, colTap z 8 4 rfl]
  rfl

/-! ## The payloads -/

/-- The kernel's row-filtered image with its column margin. -/
private theorem pay14_eq (y : Vec F S1024x1024 .f32) : k0_pay14 y = padCols (rowFilter (padRows y)) := rfl

/-- The five-term column sum, put together from the two-term partial sum, the middle slice and the last two taps. -/
private theorem pay5_eq (y : Vec F S1024x1024 .f32) :
    k0_pay5 (k0_pay14 y) (k0_pay15 y) (k0_pay16 y) (FloatOps.ofBits .f32 0x3EC00000#32) = colFilter (k0_pay14 y) := rfl

/-- The second level's smoothed image before the closing shape cast. -/
private theorem level2_core (y : Vec F S1024x1024 .f32) (r q : Fin 1024) :
    k0_pay5 (k0_pay14 y) (k0_pay15 y) (k0_pay16 y) (FloatOps.ofBits .f32 0x3EC00000#32) (ix2 r q) = level 2 (img2 y) r q := by
  rw [pay5_eq, pay14_eq]
  refine (colFilter_pad _ r q).trans ?_
  have e : img2 (rowFilter (padRows y)) = smoothRows 2 (img2 y) := funext fun r => funext fun q => rowFilter_pad y r q
  show smoothCols 2 (img2 (rowFilter (padRows y))) r q = smoothCols 2 (smoothRows 2 (img2 y)) r q
  rw [e]

/-- The smoothed image the second level leaves, at row `r` and column `q`. -/
theorem level2_apply (y : Vec F S1024x1024 .f32) (r q : Fin 1024) :
    k0_pay6 (k0_pay14 y) (k0_pay15 y) (k0_pay16 y) (FloatOps.ofBits .f32 0x3EC00000#32) (ix2 r q) = level 2 (img2 y) r q := by
  unfold k0_pay6
  exact (congrFun (shapeCast_self _ _) (ix2 r q)).trans (level2_core y r q)

/-- The detail the second level writes out, at row `r` and column `q` of its one-image block. -/
theorem detail2_apply (y : Vec F S1024x1024 .f32) (r q : Fin 1024) :
    k0_pay7 y (k0_pay14 y) (k0_pay15 y) (k0_pay16 y) (FloatOps.ofBits .f32 0x3EC00000#32) (ix4 (0 : Fin 1) (0 : Fin 1) r q)
      = detail 2 (img2 y) r q := by
  unfold k0_pay7
  refine (shapeCast_apply _ _ _ (ix2 r q) ?_).trans ?_
  · rw [Shape.rowMajor_val_two, Shape.rowMajor_val_four]
    show r.val * 1024 + q.val = ((0 * 1 + 0) * 1024 + r.val) * 1024 + q.val
    omega
  · show FloatOps.subf (y (ix2 r q))
        (k0_pay5 (k0_pay14 y) (k0_pay15 y) (k0_pay16 y) (FloatOps.ofBits .f32 0x3EC00000#32) (ix2 r q))
      = FloatOps.subf (img2 y r q) (level 2 (img2 y) r q)
    rw [level2_core]
    rfl

end Cert.KernelIdeal.Levels

end
-- ==== Proof.KernelLevel4.lean ====
/-
  The kernel's third level (dilation 4), read entry by entry.

  The row filter pads the image with the rows 8, …, 1 above and 1022, …, 1015 below, so that row `i` of the padded
  image is row `src 4 i` of the image, and sums five slices of it at row offsets 0, 4, 8, 12, 16: entry (r, q) is
  the five-tap sum over the rows `src 4 (r + 4 k)`, the specification's `smoothRows 4`. The column filter does the
  same along the columns of that result, which gives `level 4`; the detail subtracts it from the image.
-/
import proofs.«148597_j34797825032657_1_alg».proof.Proof.Gen.KernelIdeal.Skeleton
import proofs.«148597_j34797825032657_1_alg».proof.Proof.Spline
import Idealize.ShloMosaic.Lib.Pipeline.Value
import Idealize.ShloMosaic.Lib.ValueIdx
import Idealize.ShloMosaic.Lib.ValueLayout

noncomputable section

namespace Cert.KernelIdeal.Levels

open Idealize.ShloMosaic Idealize.ShloMosaic.ValueIdx Cert.KernelIdeal Cert.KernelIdeal.Gen Cert.Spline

variable {F : FTy → Type} [FloatOps F]

/-- Eight arrays of one shape, as the list of pieces a concatenation takes. -/
private abbrev pieces8 {α : Type} (s : Shape) (f : Fin 8 → (s.Idx → α)) : List ((s : Shape) × (s.Idx → α)) :=
  [⟨s, f 0⟩, ⟨s, f 1⟩, ⟨s, f 2⟩, ⟨s, f 3⟩, ⟨s, f 4⟩, ⟨s, f 5⟩, ⟨s, f 6⟩, ⟨s, f 7⟩]

/-- Eight single rows laid one under the other: row `i` of the result is the one row of piece `i`. -/
private theorem cat8_rows {α : Type} (f : Fin 8 → (S1x1024.Idx → α))
    (h : Shape.Concatenates ((pieces8 S1x1024 f).map (·.1)) S8x1024 0)
    (i : Fin 8) (q : Fin 1024) :
    concatenate S8x1024 0 (pieces8 S1x1024 f) h (ix2 i q) = f i (ix2 0 q) :=
  concatenate_ofFn_unit_apply (t := S8x1024) (s₁ := S1x1024) (0 : Fin 2) f h rfl rfl (ix2 i q) i rfl (ix2 0 q)
    (fun b hb => match b with
        | ⟨0, _⟩ => absurd rfl hb
        | ⟨1, _⟩ => rfl)

/-- Eight single columns laid side by side: column `i` of the result is the one column of piece `i`. -/
private theorem cat8_cols {α : Type} (f : Fin 8 → (S1024x1.Idx → α))
    (h : Shape.Concatenates ((pieces8 S1024x1 f).map (·.1)) S1024x8 1)
    (r : Fin 1024) (i : Fin 8) :
    concatenate S1024x8 1 (pieces8 S1024x1 f) h (ix2 r i) = f i (ix2 r 0) :=
  concatenate_ofFn_unit_apply (t := S1024x8) (s₁ := S1024x1) (1 : Fin 2) f h rfl rfl (ix2 r i) i rfl (ix2 r 0)
    (fun b hb => match b with
        | ⟨0, _⟩ => rfl
        | ⟨1, _⟩ => absurd rfl hb)

/-! ## The rows -/

private theorem hRowL : ∀ n : Fin 8, S1024x1024.Slices ![8 - n.val, 0] S1x1024 := by decide
private theorem hRowR : ∀ n : Fin 8, S1024x1024.Slices ![1022 - n.val, 0] S1x1024 := by decide
private theorem hRowS : ∀ k : Fin 5, S1040x1024.Slices ![k.val * 4, 0] S1024x1024 := by decide

/-- The rows 8, 7, …, 1 of an image, one under the other (the upper margin). -/
private def rowL (y : FVec F S1024x1024 .f32) : FVec F S8x1024 .f32 :=
  concatenate S8x1024 0 (pieces8 S1x1024 fun n => extractStridedSlice S1x1024 ![8 - n.val, 0] y (hRowL n))
    concatenates_S1x1024_S1x1024_S1x1024_S1x1024_S1x1024_S1x1024_S1x1024_S1x1024_S8x1024_d0

private theorem rowL_apply (y : FVec F S1024x1024 .f32) (i : Fin 8) (q : Fin 1024) :
    rowL y (ix2 i q) = y (ix2 ⟨8 - i.val, by omega⟩ q) :=
  (cat8_rows _ _ i q).trans (slice2_axis0_apply _ y _ 0 q _ rfl)

/-- The rows 1022, 1021, …, 1015 of an image, one under the other (the lower margin). -/
private def rowR (y : FVec F S1024x1024 .f32) : FVec F S8x1024 .f32 :=
  concatenate S8x1024 0 (pieces8 S1x1024 fun n => extractStridedSlice S1x1024 ![1022 - n.val, 0] y (hRowR n))
    concatenates_S1x1024_S1x1024_S1x1024_S1x1024_S1x1024_S1x1024_S1x1024_S1x1024_S8x1024_d0

private theorem rowR_apply (y : FVec F S1024x1024 .f32) (i : Fin 8) (q : Fin 1024) :
    rowR y (ix2 i q) = y (ix2 ⟨1022 - i.val, by omega⟩ q) :=
  (cat8_rows _ _ i q).trans (slice2_axis0_apply _ y _ 0 q _ rfl)

/-- The image with its two row margins: 1040 rows. -/
private def rowPad (y : FVec F S1024x1024 .f32) : FVec F S1040x1024 .f32 :=
  concatenate S1040x1024 0 [⟨S8x1024, rowL y⟩, ⟨S1024x1024, y⟩, ⟨S8x1024, rowR y⟩]
    concatenates_S8x1024_S1024x1024_S8x1024_S1040x1024_d0

/-- Row `i` of the padded image is row `src 4 i` of the image. -/
private theorem rowPad_apply (y : FVec F S1024x1024 .f32) (i : Fin 1040) (q : Fin 1024) :
    rowPad y (ix2 i q) = y (ix2 (at1024 (src 4 i.val)) q) := by
  have hi := i.isLt
  have side : ∀ (n : Nat) (c : Fin n) (b : Fin 2), b ≠ (0 : Fin 2) →
      ((ix2 c q : (⟨2, ![n, 1024]⟩ : Shape).Idx) b).val = ((ix2 i q : S1040x1024.Idx) b).val :=
    fun n c b hb => match b with
      | ⟨0, _⟩ => absurd rfl hb
      | ⟨1, _⟩ => rfl
  by_cases h1 : i.val < 8
  · refine (concatenate_apply_piece (t := S1040x1024) (0 : Fin 2)
      [⟨S8x1024, rowL y⟩, ⟨S1024x1024, y⟩, ⟨S8x1024, rowR y⟩] _ (ix2 i q) 0 (show 0 < 3 by omega) S8x1024 (rowL y) rfl rfl
      0 rfl (ix2 ⟨i.val, h1⟩ q) (side 8 _) (Nat.zero_add _)).trans ?_
    refine (rowL_apply y _ q).trans (congrArg (fun c => y (ix2 c q)) (Fin.ext ?_))
    show 8 - i.val = min (src 4 i.val) 1023
    unfold src; split_ifs <;> omega
  · by_cases h2 : i.val < 1032
    · refine (concatenate_apply_piece (t := S1040x1024) (0 : Fin 2)
        [⟨S8x1024, rowL y⟩, ⟨S1024x1024, y⟩, ⟨S8x1024, rowR y⟩] _ (ix2 i q) 1 (show 1 < 3 by omega) S1024x1024 y rfl rfl
        8 rfl (ix2 ⟨i.val - 8, by omega⟩ q) (side 1024 _) (by show 8 + (i.val - 8) = i.val; omega)).trans ?_
      refine congrArg (fun c => y (ix2 c q)) (Fin.ext ?_)
      show i.val - 8 = min (src 4 i.val) 1023
      unfold src; split_ifs <;> omega
    · refine (concatenate_apply_piece (t := S1040x1024) (0 : Fin 2)
        [⟨S8x1024, rowL y⟩, ⟨S1024x1024, y⟩, ⟨S8x1024, rowR y⟩] _ (ix2 i q) 2 (show 2 < 3 by omega) S8x1024 (rowR y) rfl rfl
        1032 rfl (ix2 ⟨i.val - 1032, by omega⟩ q) (side 8 _) (by show 1032 + (i.val - 1032) = i.val; omega)).trans ?_
      refine (rowR_apply y _ q).trans (congrArg (fun c => y (ix2 c q)) (Fin.ext ?_))
      show 1022 - (i.val - 1032) = min (src 4 i.val) 1023
      unfold src; split_ifs <;> omega

/-- The five-tap sum down the rows of a padded image, as the program writes it. -/
private def rowFilt (P : FVec F S1040x1024 .f32) : FVec F S1024x1024 .f32 :=
  addf (addf (addf (addf
    (mulf (broadcast S1024x1024 (Scalar.ofBits .f32 0x3D800000#32))
      (extractStridedSlice S1024x1024 ![0, 0] P slices_S1040x1024_o0_0_S1024x1024))
    (mulf (broadcast S1024x1024 (Scalar.ofBits .f32 0x3E800000#32))
      (extractStridedSlice S1024x1024 ![4, 0] P slices_S1040x1024_o4_0_S1024x1024)))
    (mulf (broadcast S1024x1024 (Scalar.ofBits .f32 0x3EC00000#32))
      (extractStridedSlice S1024x1024 ![8, 0] P slices_S1040x1024_o8_0_S1024x1024)))
    (mulf (broadcast S1024x1024 (Scalar.ofBits .f32 0x3E800000#32))
      (extractStridedSlice S1024x1024 ![12, 0] P slices_S1040x1024_o12_0_S1024x1024)))
    (mulf (broadcast S1024x1024 (Scalar.ofBits .f32 0x3D800000#32))
      (extractStridedSlice S1024x1024 ![16, 0] P slices_S1040x1024_o16_0_S1024x1024))

/-- Entry (r, q) of the row filter: the five taps at rows r, r + 4, …, r + 16 of the padded image. -/
private theorem rowFilt_apply (P : FVec F S1040x1024 .f32) (r q : Fin 1024) :
    rowFilt P (ix2 r q)
      = tap5 fun k => P (ix2 ⟨r.val + k.val * 4, by have := k.isLt; have := r.isLt; omega⟩ q) :=
  (show rowFilt P (ix2 r q)
      = tap5 fun k => extractStridedSlice S1024x1024 ![k.val * 4, 0] P (hRowS k) (ix2 r q) from rfl).trans
    (congrArg tap5 (funext fun k => slice2_axis0_apply _ P _ r q _ (Nat.add_comm _ _)))

private theorem pay17_eq (y : Vec F S1024x1024 .f32) : k0_pay17 y = rowFilt (rowPad y) := rfl

/-- The row filter's result is the specification's. -/
private theorem pay17_apply (y : Vec F S1024x1024 .f32) (r q : Fin 1024) :
    k0_pay17 y (ix2 r q) = smoothRows 4 (img2 y) r q := by
  rw [pay17_eq]
  refine (rowFilt_apply _ r q).trans (congrArg tap5 (funext fun k => ?_))
  exact rowPad_apply y _ q

/-! ## The columns -/

private theorem hColL : ∀ n : Fin 8, S1024x1024.Slices ![0, 8 - n.val] S1024x1 := by decide
private theorem hColR : ∀ n : Fin 8, S1024x1024.Slices ![0, 1022 - n.val] S1024x1 := by decide
private theorem hColS : ∀ k : Fin 5, S1024x1040.Slices ![0, k.val * 4] S1024x1024 := by decide

/-- The columns 8, 7, …, 1 of an image, side by side (the left margin). -/
private def colL (v : FVec F S1024x1024 .f32) : FVec F S1024x8 .f32 :=
  concatenate S1024x8 1 (pieces8 S1024x1 fun n => extractStridedSlice S1024x1 ![0, 8 - n.val] v (hColL n))
    concatenates_S1024x1_S1024x1_S1024x1_S1024x1_S1024x1_S1024x1_S1024x1_S1024x1_S1024x8_d1

private theorem colL_apply (v : FVec F S1024x1024 .f32) (r : Fin 1024) (i : Fin 8) :
    colL v (ix2 r i) = v (ix2 r ⟨8 - i.val, by omega⟩) :=
  (cat8_cols _ _ r i).trans (slice2_axis1_apply _ v _ r 0 _ rfl)

/-- The columns 1022, 1021, …, 1015 of an image, side by side (the right margin). -/
private def colR (v : FVec F S1024x1024 .f32) : FVec F S1024x8 .f32 :=
  concatenate S1024x8 1 (pieces8 S1024x1 fun n => extractStridedSlice S1024x1 ![0, 1022 - n.val] v (hColR n))
    concatenates_S1024x1_S1024x1_S1024x1_S1024x1_S1024x1_S1024x1_S1024x1_S1024x1_S1024x8_d1

private theorem colR_apply (v : FVec F S1024x1024 .f32) (r : Fin 1024) (i : Fin 8) :
    colR v (ix2 r i) = v (ix2 r ⟨1022 - i.val, by omega⟩) :=
  (cat8_cols _ _ r i).trans (slice2_axis1_apply _ v _ r 0 _ rfl)

/-- The image with its two column margins: 1040 columns. -/
private def colPad (v : FVec F S1024x1024 .f32) : FVec F S1024x1040 .f32 :=
  concatenate S1024x1040 1 [⟨S1024x8, colL v⟩, ⟨S1024x1024, v⟩, ⟨S1024x8, colR v⟩]
    concatenates_S1024x8_S1024x1024_S1024x8_S1024x1040_d1

/-- Column `i` of the padded image is column `src 4 i` of the image. -/
private theorem colPad_apply (v : FVec F S1024x1024 .f32) (r : Fin 1024) (i : Fin 1040) :
    colPad v (ix2 r i) = v (ix2 r (at1024 (src 4 i.val))) := by
  have hi := i.isLt
  have side : ∀ (n : Nat) (c : Fin n) (b : Fin 2), b ≠ (1 : Fin 2) →
      ((ix2 r c : (⟨2, ![1024, n]⟩ : Shape).Idx) b).val = ((ix2 r i : S1024x1040.Idx) b).val :=
    fun n c b hb => match b with
      | ⟨0, _⟩ => rfl
      | ⟨1, _⟩ => absurd rfl hb
  by_cases h1 : i.val < 8
  · refine (concatenate_apply_piece (t := S1024x1040) (1 : Fin 2)
      [⟨S1024x8, colL v⟩, ⟨S1024x1024, v⟩, ⟨S1024x8, colR v⟩] _ (ix2 r i) 0 (show 0 < 3 by omega) S1024x8 (colL v) rfl rfl
      0 rfl (ix2 r ⟨i.val, h1⟩) (side 8 _) (Nat.zero_add _)).trans ?_
    refine (colL_apply v r _).trans (congrArg (fun c => v (ix2 r c)) (Fin.ext ?_))
    show 8 - i.val = min (src 4 i.val) 1023
    unfold src; split_ifs <;> omega
  · by_cases h2 : i.val < 1032
    · refine (concatenate_apply_piece (t := S1024x1040) (1 : Fin 2)
        [⟨S1024x8, colL v⟩, ⟨S1024x1024, v⟩, ⟨S1024x8, colR v⟩] _ (ix2 r i) 1 (show 1 < 3 by omega) S1024x1024 v rfl rfl
        8 rfl (ix2 r ⟨i.val - 8, by omega⟩) (side 1024 _) (by show 8 + (i.val - 8) = i.val; omega)).trans ?_
      refine congrArg (fun c => v (ix2 r c)) (Fin.ext ?_)
      show i.val - 8 = min (src 4 i.val) 1023
      unfold src; split_ifs <;> omega
    · refine (concatenate_apply_piece (t := S1024x1040) (1 : Fin 2)
        [⟨S1024x8, colL v⟩, ⟨S1024x1024, v⟩, ⟨S1024x8, colR v⟩] _ (ix2 r i) 2 (show 2 < 3 by omega) S1024x8 (colR v) rfl rfl
        1032 rfl (ix2 r ⟨i.val - 1032, by omega⟩) (side 8 _) (by show 1032 + (i.val - 1032) = i.val; omega)).trans ?_
      refine (colR_apply v r _).trans (congrArg (fun c => v (ix2 r c)) (Fin.ext ?_))
      show 1022 - (i.val - 1032) = min (src 4 i.val) 1023
      unfold src; split_ifs <;> omega

/-- The five-tap sum along the columns of a padded image, as the program writes it. -/
private def colFilt (P : FVec F S1024x1040 .f32) : FVec F S1024x1024 .f32 :=
  addf (addf (addf (addf
    (mulf (broadcast S1024x1024 (Scalar.ofBits .f32 0x3D800000#32))
      (extractStridedSlice S1024x1024 ![0, 0] P slices_S1024x1040_o0_0_S1024x1024))
    (mulf (broadcast S1024x1024 (Scalar.ofBits .f32 0x3E800000#32))
      (extractStridedSlice S1024x1024 ![0, 4] P slices_S1024x1040_o0_4_S1024x1024)))
    (mulf (broadcast S1024x1024 (Scalar.ofBits .f32 0x3EC00000#32))
      (extractStridedSlice S1024x1024 ![0, 8] P slices_S1024x1040_o0_8_S1024x1024)))
    (mulf (broadcast S1024x1024 (Scalar.ofBits .f32 0x3E800000#32))
      (extractStridedSlice S1024x1024 ![0, 12] P slices_S1024x1040_o0_12_S1024x1024)))
    (mulf (broadcast S1024x1024 (Scalar.ofBits .f32 0x3D800000#32))
      (extractStridedSlice S1024x1024 ![0, 16] P slices_S1024x1040_o0_16_S1024x1024))

/-- Entry (r, q) of the column filter: the five taps at columns q, q + 4, …, q + 16 of the padded image. -/
private theorem colFilt_apply (P : FVec F S1024x1040 .f32) (r q : Fin 1024) :
    colFilt P (ix2 r q)
      = tap5 fun k => P (ix2 r ⟨q.val + k.val * 4, by have := k.isLt; have := q.isLt; omega⟩) :=
  (show colFilt P (ix2 r q)
      = tap5 fun k => extractStridedSlice S1024x1024 ![0, k.val * 4] P (hColS k) (ix2 r q) from rfl).trans
    (congrArg tap5 (funext fun k => slice2_axis1_apply _ P _ r q _ (Nat.add_comm _ _)))

/-- The column filter of the program, over the row filter's result and the pieces of its margins it is handed. -/
private theorem pay8_eq (y : Vec F S1024x1024 .f32) :
    k0_pay8 (k0_pay17 y) (k0_pay18 y) (k0_pay19 y) (k0_pay20 y) (k0_pay21 y) (k0_pay22 y) (k0_pay23 y)
      = colFilt (colPad (k0_pay17 y)) := rfl

/-- The column filter of the row filter's result is the specification's level. -/
private theorem pay8_apply (y : Vec F S1024x1024 .f32) (r q : Fin 1024) :
    k0_pay8 (k0_pay17 y) (k0_pay18 y) (k0_pay19 y) (k0_pay20 y) (k0_pay21 y) (k0_pay22 y) (k0_pay23 y) (ix2 r q)
      = level 4 (img2 y) r q := by
  rw [pay8_eq]
  show _ = tap5 fun k => smoothRows 4 (img2 y) r (tapAt 4 q.val k)
  refine (colFilt_apply _ r q).trans (congrArg tap5 (funext fun k => ?_))
  exact (colPad_apply _ r _).trans (pay17_apply y r _)

/-- The smoothed image the third level leaves, at row `r` and column `q`. -/
theorem level4_apply (y : Vec F S1024x1024 .f32) (r q : Fin 1024) :
    k0_pay9 (k0_pay17 y) (k0_pay18 y) (k0_pay19 y) (k0_pay20 y) (k0_pay21 y) (k0_pay22 y) (k0_pay23 y) (ix2 r q)
      = level 4 (img2 y) r q := by
  show shapeCast S1024x1024
      (k0_pay8 (k0_pay17 y) (k0_pay18 y) (k0_pay19 y) (k0_pay20 y) (k0_pay21 y) (k0_pay22 y) (k0_pay23 y))
      shapeCasts_S1024x1024_S1024x1024 (ix2 r q) = _
  rw [shapeCast_self]
  exact pay8_apply y r q

/-- The detail the third level writes out, at row `r` and column `q` of its one-image block. -/
theorem detail4_apply (y : Vec F S1024x1024 .f32) (r q : Fin 1024) :
    k0_pay10 y (k0_pay17 y) (k0_pay18 y) (k0_pay19 y) (k0_pay20 y) (k0_pay21 y) (k0_pay22 y) (k0_pay23 y)
        (ix4 (0 : Fin 1) (0 : Fin 1) r q)
      = detail 4 (img2 y) r q := by
  refine (shapeCast_apply
    (subf y (k0_pay8 (k0_pay17 y) (k0_pay18 y) (k0_pay19 y) (k0_pay20 y) (k0_pay21 y) (k0_pay22 y) (k0_pay23 y)))
    shapeCasts_S1024x1024_S1x1x1024x1024 (ix4 (0 : Fin 1) (0 : Fin 1) r q) (ix2 r q) ?_).trans ?_
  · rw [Shape.rowMajor_val_two, Shape.rowMajor_val_four]
    show r.val * 1024 + q.val = ((0 * 1 + 0) * 1024 + r.val) * 1024 + q.val
    omega
  · show FloatOps.subf (y (ix2 r q)) _ = FloatOps.subf (y (ix2 r q)) (level 4 (img2 y) r q)
    exact congrArg (FloatOps.subf (y (ix2 r q))) (pay8_apply y r q)

end Cert.KernelIdeal.Levels

end
-- ==== Proof.KernelValue.lean ====
/-
  The wavelet kernel's result array, entry by entry.

  The grid's 64 points run in the order t = 4 b + l (image b, level index l). The carried image after point 4 b + l
  is the approximation A₁, A₂, A₃, A₃ of image b for l = 0, 1, 2, 3, because point 4 b seeds it from image b and
  every later point of the group smooths what the point before left. The block written back at point 4 b + l is band
  l of image b, and the 64 blocks tile the result array; so the array ends at the whole transform of the argument.
-/
import proofs.«148597_j34797825032657_1_alg».proof.Proof.Gen.KernelIdeal.Value
import proofs.«148597_j34797825032657_1_alg».proof.Proof.KernelPieces
import proofs.«148597_j34797825032657_1_alg».proof.Proof.KernelLevel1
import proofs.«148597_j34797825032657_1_alg».proof.Proof.KernelLevel2
import proofs.«148597_j34797825032657_1_alg».proof.Proof.KernelLevel4
import proofs.«148597_j34797825032657_1_alg».proof.Proof.Spline

set_option maxRecDepth 16384

noncomputable section

namespace Cert.KernelIdeal.Wavelet

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pieces Cert.KernelIdeal.Levels Cert.Spline

variable {F : FTy → Type} [FloatOps F]
variable (m : (ℓ : Loc nD τ sig) → Buf (Elt F) ℓ) (ρ : Dev nD → PrngReg)

/-- The argument array as the region finds it, at its literal type. -/
abbrev arg (c : Dev nD) : (⟨3, ![16, 1024, 1024]⟩ : Shape).Idx → F .f32 := V m c main_arg0

/-- An image as a rank-2 array. -/
def vec2 (I : Img F) : Vec F S1024x1024 .f32 := fun j => I (j 0) (j 1)

theorem img2_vec2 (I : Img F) : img2 (vec2 I) = I := rfl

theorem vec2_ext {y : Vec F S1024x1024 .f32} {I : Img F} (h : ∀ r q : Fin 1024, y (ix2 r q) = I r q) : y = vec2 I := by
  funext j
  rw [eq_ix2 j]
  exact h (j 0) (j 1)

/-! ## The index maps over the grid -/

/-- Point t reads image t / 4 whole and writes band t % 4 of image t / 4 whole. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 4) = t.val / 4 ∧ win0_1.index t (1 : Fin 4) = t.val % 4
    ∧ win0_1.index t (2 : Fin 4) = 0 ∧ win0_1.index t (3 : Fin 4) = 0 :=
  (by decide +kernel : ∀ t : Fin grid0.N, _)

/-- Every (image, band) pair is some point's. -/
theorem idx_onto : ∀ (b : Fin 16) (l : Fin 4), ∃ t : Fin cfg0.N, t.val = 4 * b.val + l.val :=
  (by decide +kernel : ∀ (b : Fin 16) (l : Fin 4), ∃ t : Fin grid0.N, t.val = 4 * b.val + l.val)

/-! ## The seeded image -/

/-- The input block of point t, without its unit axis, is image t / 4 of the argument. -/
theorem seed_eq (c : Dev nD) (t : Fin cfg0.N) (b : Fin 16) (hb : t.val / 4 = b.val) :
    seed (iblk m c 0 t) = vec2 (img3 (arg m c) b) := by
  apply vec2_ext
  intro r q
  obtain ⟨e0, e1, e2, -⟩ := idx_facts t
  unfold seed k0_pay1
  rw [shapeCast_self]
  refine (shapeCast_dropUnit_apply ![1024, 1024] _ _ (ix2 r q)).trans ?_
  show V m c main_arg0 (((cfg0.win 0).blk t).view.emb (Fin.cons ⟨0, Nat.one_pos⟩ (ix2 r q))) = V m c main_arg0 (ix3 b r q)
  congr 1
  funext a
  apply Fin.ext
  match a with
  | ⟨0, _⟩ => show win0_0.index t (0 : Fin 3) * 1 + 1 * 0 = b.val; omega
  | ⟨1, _⟩ => show win0_0.index t (1 : Fin 3) * 1024 + 1 * r.val = r.val; omega
  | ⟨2, _⟩ => show win0_0.index t (2 : Fin 3) * 1024 + 1 * q.val = q.val; omega

/-! ## The carried image after each point -/

theorem smooth1_eq (y : Vec F S1024x1024 .f32) : smooth1 y = vec2 (level 1 (img2 y)) :=
  vec2_ext fun r q => level1_apply y r q
theorem smooth2_eq (y : Vec F S1024x1024 .f32) : smooth2 y = vec2 (level 2 (img2 y)) :=
  vec2_ext fun r q => level2_apply y r q
theorem smooth4_eq (y : Vec F S1024x1024 .f32) : smooth4 y = vec2 (level 4 (img2 y)) :=
  vec2_ext fun r q => level4_apply y r q

/-- After a point with level index 0 the carried image is the first approximation of the point's image. -/
theorem carried0 (c : Dev nD) (n : ℕ) (hn : n < cfg0.N) (b : Fin 16) (hb : n / 4 = b.val) (h : n % 4 = 0) :
    (outsAt0 m c n hn).2 = vec2 (approx1 (img3 (arg m c) b)) := by
  have e := outsAt0_A m c ⟨n, hn⟩ h h (by show ¬ n % 4 = 1; omega) (by show ¬ n % 4 = 2; omega) (by show ¬ n % 4 = 3; omega)
  change outsAt0 m c n hn = _ at e
  rw [e]
  dsimp only
  rw [scratch_A, seed_eq m c ⟨n, hn⟩ b hb, smooth1_eq, img2_vec2]
  rfl

/-- After a point with level index 1 it is the second approximation. -/
theorem carried1 (c : Dev nD) (n : ℕ) (hn : n < cfg0.N) (b : Fin 16) (hb : n / 4 = b.val) (h : n % 4 = 1) :
    (outsAt0 m c n hn).2 = vec2 (approx2 (img3 (arg m c) b)) := by
  have e := outsAt0_B m c ⟨n, hn⟩ (by show ¬ n % 4 = 0; omega) (by show ¬ n % 4 = 0; omega) h (by show ¬ n % 4 = 2; omega) (by show ¬ n % 4 = 3; omega)
  change outsAt0 m c n hn = _ at e
  rw [e]
  dsimp only
  rw [scratch_B]
  have p := carried0 m c (n - 1) (Nat.lt_of_le_of_lt (Nat.sub_le _ _) hn) b (by omega) (by omega)
  change (outsAt0 m c ((⟨n, hn⟩ : Fin cfg0.N).val - 1) _).2 = _ at p
  rw [p, smooth2_eq, img2_vec2]
  rfl

/-- After a point with level index 2 it is the third approximation. -/
theorem carried2 (c : Dev nD) (n : ℕ) (hn : n < cfg0.N) (b : Fin 16) (hb : n / 4 = b.val) (h : n % 4 = 2) :
    (outsAt0 m c n hn).2 = vec2 (approx3 (img3 (arg m c) b)) := by
  have e := outsAt0_C m c ⟨n, hn⟩ (by show ¬ n % 4 = 0; omega) (by show ¬ n % 4 = 0; omega) (by show ¬ n % 4 = 1; omega) h (by show ¬ n % 4 = 3; omega)
  change outsAt0 m c n hn = _ at e
  rw [e]
  dsimp only
  rw [scratch_C]
  have p := carried1 m c (n - 1) (Nat.lt_of_le_of_lt (Nat.sub_le _ _) hn) b (by omega) (by omega)
  change (outsAt0 m c ((⟨n, hn⟩ : Fin cfg0.N).val - 1) _).2 = _ at p
  rw [p, smooth4_eq, img2_vec2]
  rfl

/-! ## The band each point writes -/

/-- The copied-out block at (0, 0, r, q) is the carried image at (r, q): the cast only puts two unit axes in front. -/
theorem copyOut_apply (y : Vec F S1024x1024 .f32) (r q : Fin 1024) :
    copyOut y (ix4 (0 : Fin 1) (0 : Fin 1) r q) = y (ix2 r q) := by
  unfold copyOut k0_pay11
  refine shapeCast_apply _ _ _ (ix2 r q) ?_
  rw [Shape.rowMajor_val_two, Shape.rowMajor_val_four]
  show r.val * 1024 + q.val = ((0 * 1 + 0) * 1024 + r.val) * 1024 + q.val
  omega

/-- The output block after point 4 b + l, at (0, 0, r, q), is band l of image b at (r, q). -/
theorem block_at (c : Dev nD) (n : ℕ) (hn : n < cfg0.N) (b : Fin 16) (l : Fin 4) (hb : n / 4 = b.val) (hl : n % 4 = l.val)
    (r q : Fin 1024) :
    (outsAt0 m c n hn).1 (ix4 (0 : Fin 1) (0 : Fin 1) r q) = band (img3 (arg m c) b) l r q := by
  match l, hl with
  | ⟨0, _⟩, hl =>
    have h : n % 4 = 0 := hl
    have e := outsAt0_A m c ⟨n, hn⟩ h h (by show ¬ n % 4 = 1; omega) (by show ¬ n % 4 = 2; omega) (by show ¬ n % 4 = 3; omega)
    change outsAt0 m c n hn = _ at e
    rw [e]
    dsimp only
    rw [block_A]
    refine (detail1_apply _ r q).trans ?_
    rw [seed_eq m c ⟨n, hn⟩ b hb, img2_vec2]
    rfl
  | ⟨1, _⟩, hl =>
    have h : n % 4 = 1 := hl
    have e := outsAt0_B m c ⟨n, hn⟩ (by show ¬ n % 4 = 0; omega) (by show ¬ n % 4 = 0; omega) h (by show ¬ n % 4 = 2; omega) (by show ¬ n % 4 = 3; omega)
    change outsAt0 m c n hn = _ at e
    rw [e]
    dsimp only
    rw [block_B]
    have p := carried0 m c (n - 1) (Nat.lt_of_le_of_lt (Nat.sub_le _ _) hn) b (by omega) (by omega)
    change (outsAt0 m c ((⟨n, hn⟩ : Fin cfg0.N).val - 1) _).2 = _ at p
    rw [p]
    refine (detail2_apply _ r q).trans ?_
    rw [img2_vec2]
    rfl
  | ⟨2, _⟩, hl =>
    have h : n % 4 = 2 := hl
    have e := outsAt0_C m c ⟨n, hn⟩ (by show ¬ n % 4 = 0; omega) (by show ¬ n % 4 = 0; omega) (by show ¬ n % 4 = 1; omega) h (by show ¬ n % 4 = 3; omega)
    change outsAt0 m c n hn = _ at e
    rw [e]
    dsimp only
    rw [block_C]
    have p := carried1 m c (n - 1) (Nat.lt_of_le_of_lt (Nat.sub_le _ _) hn) b (by omega) (by omega)
    change (outsAt0 m c ((⟨n, hn⟩ : Fin cfg0.N).val - 1) _).2 = _ at p
    rw [p]
    refine (detail4_apply _ r q).trans ?_
    rw [img2_vec2]
    rfl
  | ⟨3, _⟩, hl =>
    have h : n % 4 = 3 := hl
    have e := outsAt0_D m c ⟨n, hn⟩ (by show ¬ n % 4 = 0; omega) (by show ¬ n % 4 = 0; omega) (by show ¬ n % 4 = 1; omega) (by show ¬ n % 4 = 2; omega) h
    change outsAt0 m c n hn = _ at e
    rw [e]
    dsimp only
    rw [block_D]
    have p := carried2 m c (n - 1) (Nat.lt_of_le_of_lt (Nat.sub_le _ _) hn) b (by omega) (by omega)
    change (outsAt0 m c ((⟨n, hn⟩ : Fin cfg0.N).val - 1) _).2 = _ at p
    rw [p]
    refine (copyOut_apply _ r q).trans ?_
    rfl

/-! ## From the blocks to the array -/

/-- What point t writes back is block t of the transform of the argument. -/
theorem flushed_eq (c : Dev nD) (t : Fin cfg0.N) :
    (dats m 0 c).flushed 1 t = ((cfg0.win 1).blk t).view.read (Elt F) (transform (arg m c)) := by
  rw [Value.flushed1]
  have hN : t.val < 64 := lt_of_lt_of_eq t.isLt (show cfg0.N = 64 from N_0)
  obtain ⟨-, -, -, e3, e4, e5, e6⟩ := idx_facts t
  funext j
  have hj0 : (j 0).val < 1 := (j 0).isLt
  have hj1 : (j 1).val < 1 := (j 1).isLt
  obtain ⟨r, q, rfl⟩ : ∃ (r q : Fin 1024), j = ix4 (0 : Fin 1) (0 : Fin 1) r q := ⟨j 2, j 3, by
    funext a
    match a with
    | ⟨0, _⟩ => exact Fin.ext (by show (j 0).val = 0; omega)
    | ⟨1, _⟩ => exact Fin.ext (by show (j 1).val = 0; omega)
    | ⟨2, _⟩ => rfl
    | ⟨3, _⟩ => rfl⟩
  show (outsAt0 m c t.val t.isLt).1 (ix4 (0 : Fin 1) (0 : Fin 1) r q)
      = transform (arg m c) (((cfg0.win 1).blk t).view.emb (ix4 (0 : Fin 1) (0 : Fin 1) r q))
  have hemb : ((cfg0.win 1).blk t).view.emb (ix4 (0 : Fin 1) (0 : Fin 1) r q)
      = ix4 (⟨t.val / 4, by omega⟩ : Fin 16) (⟨t.val % 4, by omega⟩ : Fin 4) r q := by
    funext a
    apply Fin.ext
    match a with
    | ⟨0, _⟩ => show win0_1.index t (0 : Fin 4) * 1 + 1 * 0 = t.val / 4; omega
    | ⟨1, _⟩ => show win0_1.index t (1 : Fin 4) * 1 + 1 * 0 = t.val % 4; omega
    | ⟨2, _⟩ => show win0_1.index t (2 : Fin 4) * 1024 + 1 * r.val = r.val; omega
    | ⟨3, _⟩ => show win0_1.index t (3 : Fin 4) * 1024 + 1 * q.val = q.val; omega
  rw [hemb, transform_apply]
  exact block_at m c t.val t.isLt ⟨t.val / 4, by omega⟩ ⟨t.val % 4, by omega⟩ rfl rfl r q

/-- An index of the result array is in point t's block iff each coordinate is in the block's range on its axis. -/
theorem mem_blk (t : Fin cfg0.N) (i : S16x4x1024x1024.Idx) :
    i ∈ ((cfg0.win 1).blk t).view.set ↔ ∀ a : Fin 4, win0_1.index t a * S1x1x1024x1024.size a ≤ (i a).val
      ∧ (i a).val < win0_1.index t a * S1x1x1024x1024.size a + S1x1x1024x1024.size a := by
  show i ∈ ((View.whole main_v0).slice (win0_1.rect t)).set ↔ _
  rw [View.set_slice_whole, Rect.mem_set_unit]
  exact Iff.rfl

/-- The 64 blocks cover the result array: entry (b, l, r, q) lies in the block of point 4 b + l. -/
theorem cover (i : S16x4x1024x1024.Idx) :
    ∃ t : Fin cfg0.N, (cfg0.win 1).flush t = true ∧ i ∈ ((cfg0.win 1).blk t).view.set := by
  have hi0 : (i 0).val < 16 := (i 0).isLt
  have hi1 : (i 1).val < 4 := (i 1).isLt
  have hi2 : (i 2).val < 1024 := (i 2).isLt
  have hi3 : (i 3).val < 1024 := (i 3).isLt
  obtain ⟨t, ht⟩ := idx_onto ⟨(i 0).val, hi0⟩ ⟨(i 1).val, hi1⟩
  have ht' : t.val = 4 * (i 0).val + (i 1).val := ht
  obtain ⟨-, -, -, e3, e4, e5, e6⟩ := idx_facts t
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 1 ≤ (i 1).val ∧ (i 1).val < win0_1.index t (1 : Fin 4) * 1 + 1; omega
  | ⟨2, _⟩ => show win0_1.index t (2 : Fin 4) * 1024 ≤ (i 2).val ∧ (i 2).val < win0_1.index t (2 : Fin 4) * 1024 + 1024; omega
  | ⟨3, _⟩ => show win0_1.index t (3 : Fin 4) * 1024 ≤ (i 3).val ∧ (i 3).val < win0_1.index t (3 : Fin 4) * 1024 + 1024; omega

/-- The result array after the run is the transform of the argument. -/
theorem final (c : Dev nD) : (dats m 0 c).arrAt 1 cfg0.N = transform (arg m c) :=
  (dats m 0 c).arrAt_eq_of_cover 1 (transform (arg m c)) (fun t _ => flushed_eq m c t) (cover)

/-- The kernel's run: the result buffer ends at the transform of the argument's launch contents, the argument
    unchanged. -/
theorem run : θ_run defs (onTc (τ := τ) (main (F := F))) ⟨m, fun _ => 0, ρ⟩ fun r => ∀ c : Dev nD,
      r.2.mem ((c : Thread nD τ).loc main_v0) = transform (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Wavelet

end
-- ==== Proof.RefStages.lean ====
/-
  The reference transform as pure functions of the batch of images, one definition per stage of its text.

  A mirrored margin is built the way `jnp.pad(mode = reflect)` lowers: the 2d entries after the first are cut out,
  reversed and put in front; then, of that longer array, the 2d entries before the last are cut out, reversed and put
  behind. A filter is the five unit-stride windows of the padded array at offsets 0, d, 2d, 3d, 4d, each multiplied
  from the left by its weight (one entry of the five-entry weight table, broadcast) and summed from the left. A level
  filters the rows (axis 1 of the batch) and then the columns (axis 2). The result stacks the three details and the
  last approximation along a new axis 1.
-/
import proofs.«148597_j34797825032657_1_alg».proof.Proof.Gen.ReferenceIdeal

noncomputable section

namespace Cert.ReferenceIdeal.Stages

open Idealize.ShloMosaic Cert.ReferenceIdeal Cert.ReferenceIdeal.Gen

variable {F : FTy → Type} [FloatOps F]

/-- A batch of sixteen images, and one with its rows or columns mirrored. -/
abbrev Batch (F : FTy → Type) : Type := FVec F S16x1024x1024 .f32

/-- The table of the five weights, as the program's dense constant holds it. -/
def weights : FVec F S5 .f32 := fun i => FloatOps.ofBits .f32 (lit0 (S5.rowMajor i))

/-- Weight `k` of the table, spread over a whole batch. -/
def wgt0 : Batch F := broadcastInDim S16x1024x1024 ![] bcast_S_S16x1024x1024 (shapeCast S_ (extractStridedSlice S1 ![0] (weights (F := F)) slices_S5_S1_0) shapeCasts_S1_S_)
def wgt1 : Batch F := broadcastInDim S16x1024x1024 ![] bcast_S_S16x1024x1024 (shapeCast S_ (extractStridedSlice S1 ![1] (weights (F := F)) slices_S5_S1_1) shapeCasts_S1_S_)
def wgt2 : Batch F := broadcastInDim S16x1024x1024 ![] bcast_S_S16x1024x1024 (shapeCast S_ (extractStridedSlice S1 ![2] (weights (F := F)) slices_S5_S1_2) shapeCasts_S1_S_)
def wgt3 : Batch F := broadcastInDim S16x1024x1024 ![] bcast_S_S16x1024x1024 (shapeCast S_ (extractStridedSlice S1 ![3] (weights (F := F)) slices_S5_S1_3) shapeCasts_S1_S_)
def wgt4 : Batch F := broadcastInDim S16x1024x1024 ![] bcast_S_S16x1024x1024 (shapeCast S_ (extractStridedSlice S1 ![4] (weights (F := F)) slices_S5_S1_4) shapeCasts_S1_S_)

/-- The weighted sum of five windows, folded from the left, each weight the left factor. -/
def fold5 (s0 s1 s2 s3 s4 : Batch F) : Batch F :=
  addf (addf (addf (addf (mulf wgt0 s0) (mulf wgt1 s1)) (mulf wgt2 s2)) (mulf wgt3 s3)) (mulf wgt4 s4)

/-! ## Dilation 1 -/

/-- Rows mirrored by 2 on each side. -/
def padRows1 (x : Batch F) : FVec F S16x1028x1024 .f32 :=
  let front : FVec F S16x1026x1024 .f32 :=
    concatenate S16x1026x1024 1 [⟨S16x2x1024, Host.reverse [1] (extractStridedSlice S16x2x1024 ![0, 1, 0] x slices_S16x1024x1024_S16x2x1024_0_1_0)⟩, ⟨S16x1024x1024, x⟩] concatenates_S16x2x1024_S16x1024x1024_S16x1026x1024_d1
  concatenate S16x1028x1024 1 [⟨S16x1026x1024, front⟩, ⟨S16x2x1024, Host.reverse [1] (extractStridedSlice S16x2x1024 ![0, 1023, 0] front slices_S16x1026x1024_S16x2x1024_0_1023_0)⟩] concatenates_S16x1026x1024_S16x2x1024_S16x1028x1024_d1

/-- The filter down the rows at dilation 1. -/
def rows1 (x : Batch F) : Batch F :=
  fold5 (extractStridedSlice S16x1024x1024 ![0, 0, 0] (padRows1 x) slices_S16x1028x1024_S16x1024x1024_0_0_0)
    (extractStridedSlice S16x1024x1024 ![0, 1, 0] (padRows1 x) slices_S16x1028x1024_S16x1024x1024_0_1_0)
    (extractStridedSlice S16x1024x1024 ![0, 2, 0] (padRows1 x) slices_S16x1028x1024_S16x1024x1024_0_2_0)
    (extractStridedSlice S16x1024x1024 ![0, 3, 0] (padRows1 x) slices_S16x1028x1024_S16x1024x1024_0_3_0)
    (extractStridedSlice S16x1024x1024 ![0, 4, 0] (padRows1 x) slices_S16x1028x1024_S16x1024x1024_0_4_0)

/-- Columns mirrored by 2 on each side. -/
def padCols1 (x : Batch F) : FVec F S16x1024x1028 .f32 :=
  let front : FVec F S16x1024x1026 .f32 :=
    concatenate S16x1024x1026 2 [⟨S16x1024x2, Host.reverse [2] (extractStridedSlice S16x1024x2 ![0, 0, 1] x slices_S16x1024x1024_S16x1024x2_0_0_1)⟩, ⟨S16x1024x1024, x⟩] concatenates_S16x1024x2_S16x1024x1024_S16x1024x1026_d2
  concatenate S16x1024x1028 2 [⟨S16x1024x1026, front⟩, ⟨S16x1024x2, Host.reverse [2] (extractStridedSlice S16x1024x2 ![0, 0, 1023] front slices_S16x1024x1026_S16x1024x2_0_0_1023)⟩] concatenates_S16x1024x1026_S16x1024x2_S16x1024x1028_d2

/-- The filter along the columns at dilation 1. -/
def cols1 (x : Batch F) : Batch F :=
  fold5 (extractStridedSlice S16x1024x1024 ![0, 0, 0] (padCols1 x) slices_S16x1024x1028_S16x1024x1024_0_0_0)
    (extractStridedSlice S16x1024x1024 ![0, 0, 1] (padCols1 x) slices_S16x1024x1028_S16x1024x1024_0_0_1)
    (extractStridedSlice S16x1024x1024 ![0, 0, 2] (padCols1 x) slices_S16x1024x1028_S16x1024x1024_0_0_2)
    (extractStridedSlice S16x1024x1024 ![0, 0, 3] (padCols1 x) slices_S16x1024x1028_S16x1024x1024_0_0_3)
    (extractStridedSlice S16x1024x1024 ![0, 0, 4] (padCols1 x) slices_S16x1024x1028_S16x1024x1024_0_0_4)

/-- Level 1: rows, then columns. -/
def level1 (x : Batch F) : Batch F := cols1 (rows1 x)

/-! ## Dilation 2 -/

/-- Rows mirrored by 4 on each side. -/
def padRows2 (x : Batch F) : FVec F S16x1032x1024 .f32 :=
  let front : FVec F S16x1028x1024 .f32 :=
    concatenate S16x1028x1024 1 [⟨S16x4x1024, Host.reverse [1] (extractStridedSlice S16x4x1024 ![0, 1, 0] x slices_S16x1024x1024_S16x4x1024_0_1_0)⟩, ⟨S16x1024x1024, x⟩] concatenates_S16x4x1024_S16x1024x1024_S16x1028x1024_d1
  concatenate S16x1032x1024 1 [⟨S16x1028x1024, front⟩, ⟨S16x4x1024, Host.reverse [1] (extractStridedSlice S16x4x1024 ![0, 1023, 0] front slices_S16x1028x1024_S16x4x1024_0_1023_0)⟩] concatenates_S16x1028x1024_S16x4x1024_S16x1032x1024_d1

/-- The filter down the rows at dilation 2. -/
def rows2 (x : Batch F) : Batch F :=
  fold5 (extractStridedSlice S16x1024x1024 ![0, 0, 0] (padRows2 x) slices_S16x1032x1024_S16x1024x1024_0_0_0)
    (extractStridedSlice S16x1024x1024 ![0, 2, 0] (padRows2 x) slices_S16x1032x1024_S16x1024x1024_0_2_0)
    (extractStridedSlice S16x1024x1024 ![0, 4, 0] (padRows2 x) slices_S16x1032x1024_S16x1024x1024_0_4_0)
    (extractStridedSlice S16x1024x1024 ![0, 6, 0] (padRows2 x) slices_S16x1032x1024_S16x1024x1024_0_6_0)
    (extractStridedSlice S16x1024x1024 ![0, 8, 0] (padRows2 x) slices_S16x1032x1024_S16x1024x1024_0_8_0)

/-- Columns mirrored by 4 on each side. -/
def padCols2 (x : Batch F) : FVec F S16x1024x1032 .f32 :=
  let front : FVec F S16x1024x1028 .f32 :=
    concatenate S16x1024x1028 2 [⟨S16x1024x4, Host.reverse [2] (extractStridedSlice S16x1024x4 ![0, 0, 1] x slices_S16x1024x1024_S16x1024x4_0_0_1)⟩, ⟨S16x1024x1024, x⟩] concatenates_S16x1024x4_S16x1024x1024_S16x1024x1028_d2
  concatenate S16x1024x1032 2 [⟨S16x1024x1028, front⟩, ⟨S16x1024x4, Host.reverse [2] (extractStridedSlice S16x1024x4 ![0, 0, 1023] front slices_S16x1024x1028_S16x1024x4_0_0_1023)⟩] concatenates_S16x1024x1028_S16x1024x4_S16x1024x1032_d2

/-- The filter along the columns at dilation 2. -/
def cols2 (x : Batch F) : Batch F :=
  fold5 (extractStridedSlice S16x1024x1024 ![0, 0, 0] (padCols2 x) slices_S16x1024x1032_S16x1024x1024_0_0_0)
    (extractStridedSlice S16x1024x1024 ![0, 0, 2] (padCols2 x) slices_S16x1024x1032_S16x1024x1024_0_0_2)
    (extractStridedSlice S16x1024x1024 ![0, 0, 4] (padCols2 x) slices_S16x1024x1032_S16x1024x1024_0_0_4)
    (extractStridedSlice S16x1024x1024 ![0, 0, 6] (padCols2 x) slices_S16x1024x1032_S16x1024x1024_0_0_6)
    (extractStridedSlice S16x1024x1024 ![0, 0, 8] (padCols2 x) slices_S16x1024x1032_S16x1024x1024_0_0_8)

/-- Level 2: rows, then columns. -/
def level2 (x : Batch F) : Batch F := cols2 (rows2 x)

/-! ## Dilation 4 -/

/-- Rows mirrored by 8 on each side. -/
def padRows4 (x : Batch F) : FVec F S16x1040x1024 .f32 :=
  let front : FVec F S16x1032x1024 .f32 :=
    concatenate S16x1032x1024 1 [⟨S16x8x1024, Host.reverse [1] (extractStridedSlice S16x8x1024 ![0, 1, 0] x slices_S16x1024x1024_S16x8x1024_0_1_0)⟩, ⟨S16x1024x1024, x⟩] concatenates_S16x8x1024_S16x1024x1024_S16x1032x1024_d1
  concatenate S16x1040x1024 1 [⟨S16x1032x1024, front⟩, ⟨S16x8x1024, Host.reverse [1] (extractStridedSlice S16x8x1024 ![0, 1023, 0] front slices_S16x1032x1024_S16x8x1024_0_1023_0)⟩] concatenates_S16x1032x1024_S16x8x1024_S16x1040x1024_d1

/-- The filter down the rows at dilation 4. -/
def rows4 (x : Batch F) : Batch F :=
  fold5 (extractStridedSlice S16x1024x1024 ![0, 0, 0] (padRows4 x) slices_S16x1040x1024_S16x1024x1024_0_0_0)
    (extractStridedSlice S16x1024x1024 ![0, 4, 0] (padRows4 x) slices_S16x1040x1024_S16x1024x1024_0_4_0)
    (extractStridedSlice S16x1024x1024 ![0, 8, 0] (padRows4 x) slices_S16x1040x1024_S16x1024x1024_0_8_0)
    (extractStridedSlice S16x1024x1024 ![0, 12, 0] (padRows4 x) slices_S16x1040x1024_S16x1024x1024_0_12_0)
    (extractStridedSlice S16x1024x1024 ![0, 16, 0] (padRows4 x) slices_S16x1040x1024_S16x1024x1024_0_16_0)

/-- Columns mirrored by 8 on each side. -/
def padCols4 (x : Batch F) : FVec F S16x1024x1040 .f32 :=
  let front : FVec F S16x1024x1032 .f32 :=
    concatenate S16x1024x1032 2 [⟨S16x1024x8, Host.reverse [2] (extractStridedSlice S16x1024x8 ![0, 0, 1] x slices_S16x1024x1024_S16x1024x8_0_0_1)⟩, ⟨S16x1024x1024, x⟩] concatenates_S16x1024x8_S16x1024x1024_S16x1024x1032_d2
  concatenate S16x1024x1040 2 [⟨S16x1024x1032, front⟩, ⟨S16x1024x8, Host.reverse [2] (extractStridedSlice S16x1024x8 ![0, 0, 1023] front slices_S16x1024x1032_S16x1024x8_0_0_1023)⟩] concatenates_S16x1024x1032_S16x1024x8_S16x1024x1040_d2

/-- The filter along the columns at dilation 4. -/
def cols4 (x : Batch F) : Batch F :=
  fold5 (extractStridedSlice S16x1024x1024 ![0, 0, 0] (padCols4 x) slices_S16x1024x1040_S16x1024x1024_0_0_0)
    (extractStridedSlice S16x1024x1024 ![0, 0, 4] (padCols4 x) slices_S16x1024x1040_S16x1024x1024_0_0_4)
    (extractStridedSlice S16x1024x1024 ![0, 0, 8] (padCols4 x) slices_S16x1024x1040_S16x1024x1024_0_0_8)
    (extractStridedSlice S16x1024x1024 ![0, 0, 12] (padCols4 x) slices_S16x1024x1040_S16x1024x1024_0_0_12)
    (extractStridedSlice S16x1024x1024 ![0, 0, 16] (padCols4 x) slices_S16x1024x1040_S16x1024x1024_0_0_16)

/-- Level 4: rows, then columns. -/
def level4 (x : Batch F) : Batch F := cols4 (rows4 x)

/-! ## The four bands, stacked -/

/-- A batch with a new unit axis after the first. -/
def asBand (y : Batch F) : FVec F S16x1x1024x1024 .f32 :=
  broadcastInDim S16x1x1024x1024 ![0, 2, 3] bcast_S16x1024x1024_S16x1x1024x1024_0_2_3 y

/-- The transform: the details x − A₁, A₁ − A₂, A₂ − A₃ and the approximation A₃ (A₁ = level1 x, A₂ = level2 A₁,
    A₃ = level4 A₂), stacked along axis 1. -/
def out (x : Batch F) : FVec F S16x4x1024x1024 .f32 :=
  concatenate S16x4x1024x1024 1
    [⟨S16x1x1024x1024, asBand (subf x (level1 x))⟩,
     ⟨S16x1x1024x1024, asBand (subf (level1 x) (level2 (level1 x)))⟩,
     ⟨S16x1x1024x1024, asBand (subf (level2 (level1 x)) (level4 (level2 (level1 x))))⟩,
     ⟨S16x1x1024x1024, asBand (level4 (level2 (level1 x)))⟩]
    concatenates_S16x1x1024x1024_S16x1x1024x1024_S16x1x1024x1024_S16x1x1024x1024_S16x4x1024x1024_d1

end Cert.ReferenceIdeal.Stages

end
-- ==== Proof.RefRun.lean ====
/-
  The reference program's run: every weakly fair execution ends with the result buffer at the transform of the
  argument (the stages of RefStages composed), the argument unchanged.

  The program is a straight line of tensor operations. Its list is cut into ten consecutive pieces so that each
  stage of the transform (a mirrored margin followed by a five-tap filter, a detail, the final stacking) is one
  piece or two; what a piece leaves in the buffers a later piece reads is stated for ANY contents before it, with
  the stage functions kept folded, and the pieces are then chained.
-/
import proofs.«148597_j34797825032657_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations -/
/-- Two arrays joined along an axis, the two operands as plain arguments. -/
def cat2 (S : Shape) (k : Fin S.rank) (s₁ s₂ : Shape) (h : Shape.Concatenates [s₁, s₂] S k) (a : FVec F s₁ .f32) (b : FVec F s₂ .f32) :
    FVec F S .f32 :=
  concatenate S k [⟨s₁, a⟩, ⟨s₂, b⟩] h

/-- The weight table, then the rows mirrored by 2 and the five-tap sum down the rows at dilation 1. -/
abbrev a0 : List (HloOp τ sig (Elt F)) :=
  [ nullary main_cst (fun i => FloatOps.ofBits .f32 (lit0 (S5.rowMajor i))),
    nullary main_c (constantI S_ 32 0#32),
    TRef.unary (.of main_arg0 : TRef sig ⟨S16x1024x1024, .f32⟩) main_call0.v0 (extractStridedSlice S16x1x1024 ![0, 0, 0] · slices_S16x1024x1024_S16x1x1024_0_0_0),
    TRef.unary (.of main_arg0 : TRef sig ⟨S16x1024x1024, .f32⟩) main_call0.v1 (extractStridedSlice S16x2x1024 ![0, 1, 0] · slices_S16x1024x1024_S16x2x1024_0_1_0),
    TRef.unary main_call0.v1 main_call0.call0.v0 (Host.reverse [1]),
    TRef.binary main_call0.call0.v0 (.of main_arg0 : TRef sig ⟨S16x1024x1024, .f32⟩) main_call0.v3 (cat2 S16x1026x1024 1 S16x2x1024 S16x1024x1024 concatenates_S16x2x1024_S16x1024x1024_S16x1026x1024_d1),
    TRef.unary main_call0.v3 main_call0.v4 (extractStridedSlice S16x1x1024 ![0, 1025, 0] · slices_S16x1026x1024_S16x1x1024_0_1025_0),
    TRef.unary main_call0.v3 main_call0.v5 (extractStridedSlice S16x2x1024 ![0, 1023, 0] · slices_S16x1026x1024_S16x2x1024_0_1023_0),
    TRef.unary main_call0.v5 main_call0.call1.v0 (Host.reverse [1]),
    TRef.binary main_call0.v3 main_call0.call1.v0 main_call0.v7 (cat2 S16x1028x1024 1 S16x1026x1024 S16x2x1024 concatenates_S16x1026x1024_S16x2x1024_S16x1028x1024_d1),
    unary main_cst main_v1 ((extractStridedSlice S1 ![0] · slices_S5_S1_0) : (⟨S5, .f32⟩ : BufTy).Contents (Elt F) → (⟨S1, .f32⟩ : BufTy).Contents (Elt F)),
    reshape main_v1 main_v2 rfl shapeCasts_S1_S_,
    unary main_v0 main_v3 ((extractStridedSlice S16x1024x1024 ![0, 0, 0] · slices_S16x1028x1024_S16x1024x1024_0_0_0) : (⟨S16x1028x1024, .f32⟩ : BufTy).Contents (Elt F) → (⟨S16x1024x1024, .f32⟩ : BufTy).Contents (Elt F)),
    unary main_v2 main_v4 (broadcastInDim S16x1024x1024 ![] bcast_S_S16x1024x1024 : (⟨S_, .f32⟩ : BufTy).Contents (Elt F) → (⟨S16x1024x1024, .f32⟩ : BufTy).Contents (Elt F)),
    binary main_v4 main_v3 main_v5 (mulf : (⟨S16x1024x1024, .f32⟩ : BufTy).Contents (Elt F) → (⟨S16x1024x1024, .f32⟩ : BufTy).Contents (Elt F) → (⟨S16x1024x1024, .f32⟩ : BufTy).Contents (Elt F)),
    unary main_cst main_v6 ((extractStridedSlice S1 ![1] · slices_S5_S1_1) : (⟨S5, .f32⟩ : BufTy).Contents (Elt F) → (⟨S1, .f32⟩ : BufTy).Contents (Elt F)),
    reshape main_v6 main_v7 rfl shapeCasts_S1_S_,
    unary main_v0 main_v8 ((extractStridedSlice S16x1024x1024 ![0, 1, 0] · slices_S16x1028x1024_S16x1024x1024_0_1_0) : (⟨S16x1028x1024, .f32⟩ : BufTy).Contents (Elt F) → (⟨S16x1024x1024, .f32⟩ : BufTy).Contents (Elt F)),
    unary main_v7 main_v9 (broadcastInDim S16x1024x1024 ![] bcast_S_S16x1024x1024 : (⟨S_, .f32⟩ : BufTy).Contents (Elt F) → (⟨S16x1024x1024, .f32⟩ : BufTy).Contents (Elt F)),
    binary main_v9 main_v8 main_v10 (mulf : (⟨S16x1024x1024, .f32⟩ : BufTy).Contents (Elt F) → (⟨S16x1024x1024, .f32⟩ : BufTy).Contents (Elt F) → (⟨S16x1024x1024, .f32⟩ : BufTy).Contents (Elt F)),
    binary main_v5 main_v10 main_v11 (addf : (⟨S16x1024x1024, .f32⟩ : BufTy).Contents (Elt F) → (⟨S16x1024x1024, .f32⟩ : BufTy).Contents (Elt F) → (⟨S16x1024x1024, .f32⟩ : BufTy).Contents (Elt F)),
    unary main_cst main_v12 ((extractStridedSlice S1 ![2] · slices_S5_S1_2) : (⟨S5, .f32⟩ : BufTy).Contents (Elt F) → (⟨S1, .f32⟩ : BufTy).Contents (Elt F)),
    reshape main_v12 main_v13 rfl shapeCasts_S1_S_,
    unary main_v0 main_v14 ((extractStridedSlice S16x1024x1024 ![0, 2, 0] · slices_S16x1028x1024_S16x1024x1024_0_2_0) : (⟨S16x1028x1024, .f32⟩ : BufTy).Contents (Elt F) → (⟨S16x1024x1024, .f32⟩ : BufTy).Contents (Elt F)),
    unary main_v13 main_v15 (broadcastInDim S16x1024x1024 ![] bcast_S_S16x1024x1024 : (⟨S_, .f32⟩ : BufTy).Contents (Elt F) → (⟨S16x1024x1024, .f32⟩ : BufTy).Contents (Elt F)),
    binary main_v15 main_v14 main_v16 (mulf : (⟨S16x1024x1024, .f32⟩ : BufTy).Contents (Elt F) → (⟨S16x1024x1024, .f32⟩ : BufTy).Contents (Elt F) → (⟨S16x1024x1024, .f32⟩ : BufTy).Contents (Elt F)),
    binary main_v11 main_v16 main_v17 (addf : (⟨S16x1024x1024, .f32⟩ : BufTy).Contents (Elt F) → (⟨S16x1024x1024, .f32⟩ : BufTy).Contents (Elt F) → (⟨S16x1024x1024, .f32⟩ : BufTy).Contents (Elt F)),
    unary main_cst main_v18 ((extractStridedSlice S1 ![3] · slices_S5_S1_3) : (⟨S5, .f32⟩ : BufTy).Contents (Elt F) → (⟨S1, .f32⟩ : BufTy).Contents (Elt F)),
    reshape main_v18 main_v19 rfl shapeCasts_S1_S_,
    unary main_v0 main_v20 ((extractStridedSlice S16x1024x1024 ![0, 3, 0] · slices_S16x1028x1024_S16x1024x1024_0_3_0) : (⟨S16x1028x1024, .f32⟩ : BufTy).Contents (Elt F) → (⟨S16x1024x1024, .f32⟩ : BufTy).Contents (Elt F)),
    unary main_v19 main_v21 (broadcastInDim S16x1024x1024 ![] bcast_S_S16x1024x1024 : (⟨S_, .f32⟩ : BufTy).Contents (Elt F) → (⟨S16x1024x1024, .f32⟩ : BufTy).Contents (Elt F)),
    binary main_v21 main_v20 main_v22 (mulf : (⟨S16x1024x1024, .f32⟩ : BufTy).Contents (Elt F) → (⟨S16x1024x1024, .f32⟩ : BufTy).Contents (Elt F) → (⟨S16x1024x1024, .f32⟩ : BufTy).Contents (Elt F)),
    binary main_v17 main_v22 main_v23 (addf : (⟨S16x1024x1024, .f32⟩ : BufTy).Contents (Elt F) → (⟨S16x1024x1024, .f32⟩ : BufTy).Contents (Elt F) → (⟨S16x1024x1024, .f32⟩ : BufTy).Contents (Elt F)),
    unary main_cst main_v24 ((extractStridedSlice S1 ![4] · slices_S5_S1_4) : (⟨S5, .f32⟩ : BufTy).Contents (Elt F) → (⟨S1, .f32⟩ : BufTy).Contents (Elt F)),
    reshape main_v24 main_v25 rfl shapeCasts_S1_S_,
    unary main_v0 main_v26 ((extractStridedSlice S16x1024x1024 ![0, 4, 0] · slices_S16x1028x1024_S16x1024x1024_0_4_0) : (⟨S16x1028x1024, .f32⟩ : BufTy).Contents (Elt F) → (⟨S16x1024x1024, .f32⟩ : BufTy).Contents (Elt F)),
    unary main_v25 main_v27 (broadcastInDim S16x1024x1024 ![] bcast_S_S16x1024x1024 : (⟨S_, .f32⟩ : BufTy).Contents (Elt F) → (⟨S16x1024x1024, .f32⟩ : BufTy).Contents (Elt F)),
    binary main_v27 main_v26 main_v28 (mulf : (⟨S16x1024x1024, .f32⟩ : BufTy).Contents (Elt F) → (⟨S16x1024x1024, .f32⟩ : BufTy).Contents (Elt F) → (⟨S16x1024x1024, .f32⟩ : BufTy).Contents (Elt F)),
    binary main_v23 main_v28 main_v29 (addf : (⟨S16x1024x1024, .f32⟩ : BufTy).Contents (Elt F) → (⟨S16x1024x1024, .f32⟩ : BufTy).Contents (Elt F) → (⟨S16x1024x1024, .f32⟩ : BufTy).Contents (Elt F)) ]

/-- The columns mirrored by 2 and the first four and a half taps of the sum along the columns at dilation 1. -/
abbrev a1 : List (HloOp τ sig (Elt F)) :=
  [ nullary main_c_0 (constantI S_ 32 0#32),
    TRef.unary (.of main_v29 : TRef sig ⟨S16x1024x1024, .f32⟩) main_call1.v0 (extractStridedSlice S16x1024x1 ![0, 0, 0] · slices_S16x1024x1024_S16x1024x1_0_0_0),
    TRef.unary (.of main_v29 : TRef sig ⟨S16x1024x1024, .f32⟩) main_call1.v1 (extractStridedSlice S16x1024x2 ![0, 0, 1] · slices_S16x1024x1024_S16x1024x2_0_0_1),
    TRef.unary main_call1.v1 main_call1.call0.v0 (Host.reverse [2]),
    TRef.binary main_call1.call0.v0 (.of main_v29 : TRef sig ⟨S16x1024x1024, .f32⟩) main_call1.v3 (cat2 S16x1024x1026 2 S16x1024x2 S16x1024x1024 concatenates_S16x1024x2_S16x1024x1024_S16x1024x1026_d2),
    TRef.unary main_call1.v3 main_call1.v4 (extractStridedSlice S16x1024x1 ![0, 0, 1025] · slices_S16x1024x1026_S16x1024x1_0_0_1025),
    TRef.unary main_call1.v3 main_call1.v5 (extractStridedSlice S16x1024x2 ![0, 0, 1023] · slices_S16x1024x1026_S16x1024x2_0_0_1023),
    TRef.unary main_call1.v5 main_call1.call1.v0 (Host.reverse [2]),
    TRef.binary main_call1.v3 main_call1.call1.v0 main_call1.v7 (cat2 S16x1024x1028 2 S16x1024x1026 S16x1024x2 concatenates_S16x1024x1026_S16x1024x2_S16x1024x1028_d2),
    unary main_cst main_v31 ((extractStridedSlice S1 ![0] · slices_S5_S1_0) : (⟨S5, .f32⟩ : BufTy).Contents (Elt F) → (⟨S1, .f32⟩ : BufTy).Contents (Elt F)),
    reshape main_v31 main_v32 rfl shapeCasts_S1_S_,
    unary main_v30 main_v33 ((extractStridedSlice S16x1024x1024 ![0, 0, 0] · slices_S16x1024x1028_S16x1024x1024_0_0_0) : (⟨S16x1024x1028, .f32⟩ : BufTy).Contents (Elt F) → (⟨S16x1024x1024, .f32⟩ : BufTy).Contents (Elt F)),
    unary main_v32 main_v34 (broadcastInDim S16x1024x1024 ![] bcast_S_S16x1024x1024 : (⟨S_, .f32⟩ : BufTy).Contents (Elt F) → (⟨S16x1024x1024, .f32⟩ : BufTy).Contents (Elt F)),
    binary main_v34 main_v33 main_v35 (mulf : (⟨S16x1024x1024, .f32⟩ : BufTy).Contents (Elt F) → (⟨S16x1024x1024, .f32⟩ : BufTy).Contents (Elt F) → (⟨S16x1024x1024, .f32⟩ : BufTy).Contents (Elt F)),
    unary main_cst main_v36 ((extractStridedSlice S1 ![1] · slices_S5_S1_1) : (⟨S5, .f32⟩ : BufTy).Contents (Elt F) → (⟨S1, .f32⟩ : BufTy).Contents (Elt F)),
    reshape main_v36 main_v37 rfl shapeCasts_S1_S_,
    unary main_v30 main_v38 ((extractStridedSlice S16x1024x1024 ![0, 0, 1] · slices_S16x1024x1028_S16x1024x1024_0_0_1) : (⟨S16x1024x1028, .f32⟩ : BufTy).Contents (Elt F) → (⟨S16x1024x1024, .f32⟩ : BufTy).Contents (Elt F)),
    unary main_v37 main_v39 (broadcastInDim S16x1024x1024 ![] bcast_S_S16x1024x1024 : (⟨S_, .f32⟩ : BufTy).Contents (Elt F) → (⟨S16x1024x1024, .f32⟩ : BufTy).Contents (Elt F)),
    binary main_v39 main_v38 main_v40 (mulf : (⟨S16x1024x1024, .f32⟩ : BufTy).Contents (Elt F) → (⟨S16x1024x1024, .f32⟩ : BufTy).Contents (Elt F) → (⟨S16x1024x1024, .f32⟩ : BufTy).Contents (Elt F)),
    binary main_v35 main_v40 main_v41 (addf : (⟨S16x1024x1024, .f32⟩ : BufTy).Contents (Elt F) → (⟨S16x1024x1024, .f32⟩ : BufTy).Contents (Elt F) → (⟨S16x1024x1024, .f32⟩ : BufTy).Contents (Elt F)),
    unary main_cst main_v42 ((extractStridedSlice S1 ![2] · slices_S5_S1_2) : (⟨S5, .f32⟩ : BufTy).Contents (Elt F) → (⟨S1, .f32⟩ : BufTy).Contents (Elt F)),
    reshape main_v42 main_v43 rfl shapeCasts_S1_S_,
    unary main_v30 main_v44 ((extractStridedSlice S16x1024x1024 ![0, 0, 2] · slices_S16x1024x1028_S16x1024x1024_0_0_2) : (⟨S16x1024x1028, .f32⟩ : BufTy).Contents (Elt F) → (⟨S16x1024x1024, .f32⟩ : BufTy).Contents (Elt F)),
    unary main_v43 main_v45 (broadcastInDim S16x1024x1024 ![] bcast_S_S16x1024x1024 : (⟨S_, .f32⟩ : BufTy).Contents (Elt F) → (⟨S16x1024x1024, .f32⟩ : BufTy).Contents (Elt F)),
    binary main_v45 main_v44 main_v46 (mulf : (⟨S16x1024x1024, .f32⟩ : BufTy).Contents (Elt F) → (⟨S16x1024x1024, .f32⟩ : BufTy).Contents (Elt F) → (⟨S16x1024x1024, .f32⟩ : BufTy).Contents (Elt F)),
    binary main_v41 main_v46 main_v47 (addf : (⟨S16x1024x1024, .f32⟩ : BufTy).Contents (Elt F) → (⟨S16x1024x1024, .f32⟩ : BufTy).Contents (Elt F) → (⟨S16x1024x1024, .f32⟩ : BufTy).Contents (Elt F)),
    unary main_cst main_v48 ((extractStridedSlice S1 ![3] · slices_S5_S1_3) : (⟨S5, .f32⟩ : BufTy).Contents (Elt F) → (⟨S1, .f32⟩ : BufTy).Contents (Elt F)),
    reshape main_v48 main_v49 rfl shapeCasts_S1_S_,
    unary main_v30 main_v50 ((extractStridedSlice S16x1024x1024 ![0, 0, 3] · slices_S16x1024x1028_S16x1024x1024_0_0_3) : (⟨S16x1024x1028, .f32⟩ : BufTy).Contents (Elt F) → (⟨S16x1024x1024, .f32⟩ : BufTy).Contents (Elt F)),
    unary main_v49 main_v51 (broadcastInDim S16x1024x1024 ![] bcast_S_S16x1024x1024 : (⟨S_, .f32⟩ : BufTy).Contents (Elt F) → (⟨S16x1024x1024, .f32⟩ : BufTy).Contents (Elt F)),
    binary main_v51 main_v50 main_v52 (mulf : (⟨S16x1024x1024, .f32⟩ : BufTy).Contents (Elt F) → (⟨S16x1024x1024, .f32⟩ : BufTy).Contents (Elt F) → (⟨S16x1024x1024, .f32⟩ : BufTy).Contents (Elt F)),
    binary main_v47 main_v52 main_v53 (addf : (⟨S16x1024x1024, .f32⟩ : BufTy).Contents (Elt F) → (⟨S16x1024x1024, .f32⟩ : BufTy).Contents (Elt F) → (⟨S16x1024x1024, .f32⟩ : BufTy).Contents (Elt F)),
    unary main_cst main_v54 ((extractStridedSlice S1 ![4] · slices_S5_S1_4) : (⟨S5, .f32⟩ : BufTy).Contents (Elt F) → (⟨S1, .f32⟩ : BufTy).Contents (Elt F)),
    reshape main_v54 main_v55 rfl shapeCasts_S1_S_,
    unary main_v30 main_v56 ((extractStridedSlice S16x1024x1024 ![0, 0, 4] · slices_S16x1024x1028_S16x1024x1024_0_0_4) : (⟨S16x1024x1028, .f32⟩ : BufTy).Contents (Elt F) → (⟨S16x1024x1024, .f32⟩ : BufTy).Contents (Elt F)) ]

/-- The last tap of that sum, and the first detail. -/
abbrev a2 : List (HloOp τ sig (Elt F)) :=
  [ unary main_v55 main_v57 (broadcastInDim S16x1024x1024 ![] bcast_S_S16x1024x1024 : (⟨S_, .f32⟩ : BufTy).Contents (Elt F) → (⟨S16x1024x1024, .f32⟩ : BufTy).Contents (Elt F)),
    binary main_v57 main_v56 main_v58 (mulf : (⟨S16x1024x1024, .f32⟩ : BufTy).Contents (Elt F) → (⟨S16x1024x1024, .f32⟩ : BufTy).Contents (Elt F) → (⟨S16x1024x1024, .f32⟩ : BufTy).Contents (Elt F)),
    binary main_v53 main_v58 main_v59 (addf : (⟨S16x1024x1024, .f32⟩ : BufTy).Contents (Elt F) → (⟨S16x1024x1024, .f32⟩ : BufTy).Contents (Elt F) → (⟨S16x1024x1024, .f32⟩ : BufTy).Contents (Elt F)),
    binary main_arg0 main_v59 main_v60 (subf : (⟨S16x1024x1024, .f32⟩ : BufTy).Contents (Elt F) → (⟨S16x1024x1024, .f32⟩ : BufTy).Contents (Elt F) → (⟨S16x1024x1024, .f32⟩ : BufTy).Contents (Elt F)) ]

/-- The rows mirrored by 4 and the five-tap sum down the rows at dilation 2. -/
abbrev a3 : List (HloOp τ sig (Elt F)) :=
  [ nullary main_c_1 (constantI S_ 32 0#32),
    TRef.unary (.of main_v59 : TRef sig ⟨S16x1024x1024, .f32⟩) main_call2.v0 (extractStridedSlice S16x1x1024 ![0, 0, 0] · slices_S16x1024x1024_S16x1x1024_0_0_0),
    TRef.unary (.of main_v59 : TRef sig ⟨S16x1024x1024, .f32⟩) main_call2.v1 (extractStridedSlice S16x4x1024 ![0, 1, 0] · slices_S16x1024x1024_S16x4x1024_0_1_0),
    TRef.unary main_call2.v1 main_call2.call0.v0 (Host.reverse [1]),
    TRef.binary main_call2.call0.v0 (.of main_v59 : TRef sig ⟨S16x1024x1024, .f32⟩) main_call2.v3 (cat2 S16x1028x1024 1 S16x4x1024 S16x1024x1024 concatenates_S16x4x1024_S16x1024x1024_S16x1028x1024_d1),
    TRef.unary main_call2.v3 main_call2.v4 (extractStridedSlice S16x1x1024 ![0, 1027, 0] · slices_S16x1028x1024_S16x1x1024_0_1027_0),
    TRef.unary main_call2.v3 main_call2.v5 (extractStridedSlice S16x4x1024 ![0, 1023, 0] · slices_S16x1028x1024_S16x4x1024_0_1023_0),
    TRef.unary main_call2.v5 main_call2.call1.v0 (Host.reverse [1]),
    TRef.binary main_call2.v3 main_call2.call1.v0 main_call2.v7 (cat2 S16x1032x1024 1 S16x1028x1024 S16x4x1024 concatenates_S16x1028x1024_S16x4x1024_S16x1032x1024_d1),
    unary main_cst main_v62 ((extractStridedSlice S1 ![0] · slices_S5_S1_0) : (⟨S5, .f32⟩ : BufTy).Contents (Elt F) → (⟨S1, .f32⟩ : BufTy).Contents (Elt F)),
    reshape main_v62 main_v63 rfl shapeCasts_S1_S_,
    unary main_v61 main_v64 ((extractStridedSlice S16x1024x1024 ![0, 0, 0] · slices_S16x1032x1024_S16x1024x1024_0_0_0) : (⟨S16x1032x1024, .f32⟩ : BufTy).Contents (Elt F) → (⟨S16x1024x1024, .f32⟩ : BufTy).Contents (Elt F)),
    unary main_v63 main_v65 (broadcastInDim S16x1024x1024 ![] bcast_S_S16x1024x1024 : (⟨S_, .f32⟩ : BufTy).Contents (Elt F) → (⟨S16x1024x1024, .f32⟩ : BufTy).Contents (Elt F)),
    binary main_v65 main_v64 main_v66 (mulf : (⟨S16x1024x1024, .f32⟩ : BufTy).Contents (Elt F) → (⟨S16x1024x1024, .f32⟩ : BufTy).Contents (Elt F) → (⟨S16x1024x1024, .f32⟩ : BufTy).Contents (Elt F)),
    unary main_cst main_v67 ((extractStridedSlice S1 ![1] · slices_S5_S1_1) : (⟨S5, .f32⟩ : BufTy).Contents (Elt F) → (⟨S1, .f32⟩ : BufTy).Contents (Elt F)),
    reshape main_v67 main_v68 rfl shapeCasts_S1_S_,
    unary main_v61 main_v69 ((extractStridedSlice S16x1024x1024 ![0, 2, 0] · slices_S16x1032x1024_S16x1024x1024_0_2_0) : (⟨S16x1032x1024, .f32⟩ : BufTy).Contents (Elt F) → (⟨S16x1024x1024, .f32⟩ : BufTy).Contents (Elt F)),
    unary main_v68 main_v70 (broadcastInDim S16x1024x1024 ![] bcast_S_S16x1024x1024 : (⟨S_, .f32⟩ : BufTy).Contents (Elt F) → (⟨S16x1024x1024, .f32⟩ : BufTy).Contents (Elt F)),
    binary main_v70 main_v69 main_v71 (mulf : (⟨S16x1024x1024, .f32⟩ : BufTy).Contents (Elt F) → (⟨S16x1024x1024, .f32⟩ : BufTy).Contents (Elt F) → (⟨S16x1024x1024, .f32⟩ : BufTy).Contents (Elt F)),
    binary main_v66 main_v71 main_v72 (addf : (⟨S16x1024x1024, .f32⟩ : BufTy).Contents (Elt F) → (⟨S16x1024x1024, .f32⟩ : BufTy).Contents (Elt F) → (⟨S16x1024x1024, .f32⟩ : BufTy).Contents (Elt F)),
    unary main_cst main_v73 ((extractStridedSlice S1 ![2] · slices_S5_S1_2) : (⟨S5, .f32⟩ : BufTy).Contents (Elt F) → (⟨S1, .f32⟩ : BufTy).Contents (Elt F)),
    reshape main_v73 main_v74 rfl shapeCasts_S1_S_,
    unary main_v61 main_v75 ((extractStridedSlice S16x1024x1024 ![0, 4, 0] · slices_S16x1032x1024_S16x1024x1024_0_4_0) : (⟨S16x1032x1024, .f32⟩ : BufTy).Contents (Elt F) → (⟨S16x1024x1024, .f32⟩ : BufTy).Contents (Elt F)),
    unary main_v74 main_v76 (broadcastInDim S16x1024x1024 ![] bcast_S_S16x1024x1024 : (⟨S_, .f32⟩ : BufTy).Contents (Elt F) → (⟨S16x1024x1024, .f32⟩ : BufTy).Contents (Elt F)),
    binary main_v76 main_v75 main_v77 (mulf : (⟨S16x1024x1024, .f32⟩ : BufTy).Contents (Elt F) → (⟨S16x1024x1024, .f32⟩ : BufTy).Contents (Elt F) → (⟨S16x1024x1024, .f32⟩ : BufTy).Contents (Elt F)),
    binary main_v72 main_v77 main_v78 (addf : (⟨S16x1024x1024, .f32⟩ : BufTy).Contents (Elt F) → (⟨S16x1024x1024, .f32⟩ : BufTy).Contents (Elt F) → (⟨S16x1024x1024, .f32⟩ : BufTy).Contents (Elt F)),
    unary main_cst main_v79 ((extractStridedSlice S1 ![3] · slices_S5_S1_3) : (⟨S5, .f32⟩ : BufTy).Contents (Elt F) → (⟨S1, .f32⟩ : BufTy).Contents (Elt F)),
    reshape main_v79 main_v80 rfl shapeCasts_S1_S_,
    unary main_v61 main_v81 ((extractStridedSlice S16x1024x1024 ![0, 6, 0] · slices_S16x1032x1024_S16x1024x1024_0_6_0) : (⟨S16x1032x1024, .f32⟩ : BufTy).Contents (Elt F) → (⟨S16x1024x1024, .f32⟩ : BufTy).Contents (Elt F)),
    unary main_v80 main_v82 (broadcastInDim S16x1024x1024 ![] bcast_S_S16x1024x1024 : (⟨S_, .f32⟩ : BufTy).Contents (Elt F) → (⟨S16x1024x1024, .f32⟩ : BufTy).Contents (Elt F)),
    binary main_v82 main_v81 main_v83 (mulf : (⟨S16x1024x1024, .f32⟩ : BufTy).Contents (Elt F) → (⟨S16x1024x1024, .f32⟩ : BufTy).Contents (Elt F) → (⟨S16x1024x1024, .f32⟩ : BufTy).Contents (Elt F)),
    binary main_v78 main_v83 main_v84 (addf : (⟨S16x1024x1024, .f32⟩ : BufTy).Contents (Elt F) → (⟨S16x1024x1024, .f32⟩ : BufTy).Contents (Elt F) → (⟨S16x1024x1024, .f32⟩ : BufTy).Contents (Elt F)),
    unary main_cst main_v85 ((extractStridedSlice S1 ![4] · slices_S5_S1_4) : (⟨S5, .f32⟩ : BufTy).Contents (Elt F) → (⟨S1, .f32⟩ : BufTy).Contents (Elt F)),
    reshape main_v85 main_v86 rfl shapeCasts_S1_S_,
    unary main_v61 main_v87 ((extractStridedSlice S16x1024x1024 ![0, 8, 0] · slices_S16x1032x1024_S16x1024x1024_0_8_0) : (⟨S16x1032x1024, .f32⟩ : BufTy).Contents (Elt F) → (⟨S16x1024x1024, .f32⟩ : BufTy).Contents (Elt F)),
    unary main_v86 main_v88 (broadcastInDim S16x1024x1024 ![] bcast_S_S16x1024x1024 : (⟨S_, .f32⟩ : BufTy).Contents (Elt F) → (⟨S16x1024x1024, .f32⟩ : BufTy).Contents (Elt F)),
    binary main_v88 main_v87 main_v89 (mulf : (⟨S16x1024x1024, .f32⟩ : BufTy).Contents (Elt F) → (⟨S16x1024x1024, .f32⟩ : BufTy).Contents (Elt F) → (⟨S16x1024x1024, .f32⟩ : BufTy).Contents (Elt F)),
    binary main_v84 main_v89 main_v90 (addf : (⟨S16x1024x1024, .f32⟩ : BufTy).Contents (Elt F) → (⟨S16x1024x1024, .f32⟩ : BufTy).Contents (Elt F) → (⟨S16x1024x1024, .f32⟩ : BufTy).Contents (Elt F)) ]

/-- The columns mirrored by 4 and the first four taps of the sum along the columns at dilation 2. -/
abbrev a4 : List (HloOp τ sig (Elt F)) :=
  [ nullary main_c_2 (constantI S_ 32 0#32),
    TRef.unary (.of main_v90 : TRef sig ⟨S16x1024x1024, .f32⟩) main_call3.v0 (extractStridedSlice S16x1024x1 ![0, 0, 0] · slices_S16x1024x1024_S16x1024x1_0_0_0),
    TRef.unary (.of main_v90 : TRef sig ⟨S16x1024x1024, .f32⟩) main_call3.v1 (extractStridedSlice S16x1024x4 ![0, 0, 1] · slices_S16x1024x1024_S16x1024x4_0_0_1),
    TRef.unary main_call3.v1 main_call3.call0.v0 (Host.reverse [2]),
    TRef.binary main_call3.call0.v0 (.of main_v90 : TRef sig ⟨S16x1024x1024, .f32⟩) main_call3.v3 (cat2 S16x1024x1028 2 S16x1024x4 S16x1024x1024 concatenates_S16x1024x4_S16x1024x1024_S16x1024x1028_d2),
    TRef.unary main_call3.v3 main_call3.v4 (extractStridedSlice S16x1024x1 ![0, 0, 1027] · slices_S16x1024x1028_S16x1024x1_0_0_1027),
    TRef.unary main_call3.v3 main_call3.v5 (extractStridedSlice S16x1024x4 ![0, 0, 1023] · slices_S16x1024x1028_S16x1024x4_0_0_1023),
    TRef.unary main_call3.v5 main_call3.call1.v0 (Host.reverse [2]),
    TRef.binary main_call3.v3 main_call3.call1.v0 main_call3.v7 (cat2 S16x1024x1032 2 S16x1024x1028 S16x1024x4 concatenates_S16x1024x1028_S16x1024x4_S16x1024x1032_d2),
    unary main_cst main_v92 ((extractStridedSlice S1 ![0] · slices_S5_S1_0) : (⟨S5, .f32⟩ : BufTy).Contents (Elt F) → (⟨S1, .f32⟩ : BufTy).Contents (Elt F)),
    reshape main_v92 main_v93 rfl shapeCasts_S1_S_,
    unary main_v91 main_v94 ((extractStridedSlice S16x1024x1024 ![0, 0, 0] · slices_S16x1024x1032_S16x1024x1024_0_0_0) : (⟨S16x1024x1032, .f32⟩ : BufTy).Contents (Elt F) → (⟨S16x1024x1024, .f32⟩ : BufTy).Contents (Elt F)),
    unary main_v93 main_v95 (broadcastInDim S16x1024x1024 ![] bcast_S_S16x1024x1024 : (⟨S_, .f32⟩ : BufTy).Contents (Elt F) → (⟨S16x1024x1024, .f32⟩ : BufTy).Contents (Elt F)),
    binary main_v95 main_v94 main_v96 (mulf : (⟨S16x1024x1024, .f32⟩ : BufTy).Contents (Elt F) → (⟨S16x1024x1024, .f32⟩ : BufTy).Contents (Elt F) → (⟨S16x1024x1024, .f32⟩ : BufTy).Contents (Elt F)),
    unary main_cst main_v97 ((extractStridedSlice S1 ![1] · slices_S5_S1_1) : (⟨S5, .f32⟩ : BufTy).Contents (Elt F) → (⟨S1, .f32⟩ : BufTy).Contents (Elt F)),
    reshape main_v97 main_v98 rfl shapeCasts_S1_S_,
    unary main_v91 main_v99 ((extractStridedSlice S16x1024x1024 ![0, 0, 2] · slices_S16x1024x1032_S16x1024x1024_0_0_2) : (⟨S16x1024x1032, .f32⟩ : BufTy).Contents (Elt F) → (⟨S16x1024x1024, .f32⟩ : BufTy).Contents (Elt F)),
    unary main_v98 main_v100 (broadcastInDim S16x1024x1024 ![] bcast_S_S16x1024x1024 : (⟨S_, .f32⟩ : BufTy).Contents (Elt F) → (⟨S16x1024x1024, .f32⟩ : BufTy).Contents (Elt F)),
    binary main_v100 main_v99 main_v101 (mulf : (⟨S16x1024x1024, .f32⟩ : BufTy).Contents (Elt F) → (⟨S16x1024x1024, .f32⟩ : BufTy).Contents (Elt F) → (⟨S16x1024x1024, .f32⟩ : BufTy).Contents (Elt F)),
    binary main_v96 main_v101 main_v102 (addf : (⟨S16x1024x1024, .f32⟩ : BufTy).Contents (Elt F) → (⟨S16x1024x1024, .f32⟩ : BufTy).Contents (Elt F) → (⟨S16x1024x1024, .f32⟩ : BufTy).Contents (Elt F)),
    unary main_cst main_v103 ((extractStridedSlice S1 ![2] · slices_S5_S1_2) : (⟨S5, .f32⟩ : BufTy).Contents (Elt F) → (⟨S1, .f32⟩ : BufTy).Contents (Elt F)),
    reshape main_v103 main_v104 rfl shapeCasts_S1_S_,
    unary main_v91 main_v105 ((extractStridedSlice S16x1024x1024 ![0, 0, 4] · slices_S16x1024x1032_S16x1024x1024_0_0_4) : (⟨S16x1024x1032, .f32⟩ : BufTy).Contents (Elt F) → (⟨S16x1024x1024, .f32⟩ : BufTy).Contents (Elt F)),
    unary main_v104 main_v106 (broadcastInDim S16x1024x1024 ![] bcast_S_S16x1024x1024 : (⟨S_, .f32⟩ : BufTy).Contents (Elt F) → (⟨S16x1024x1024, .f32⟩ : BufTy).Contents (Elt F)),
    binary main_v106 main_v105 main_v107 (mulf : (⟨S16x1024x1024, .f32⟩ : BufTy).Contents (Elt F) → (⟨S16x1024x1024, .f32⟩ : BufTy).Contents (Elt F) → (⟨S16x1024x1024, .f32⟩ : BufTy).Contents (Elt F)),
    binary main_v102 main_v107 main_v108 (addf : (⟨S16x1024x1024, .f32⟩ : BufTy).Contents (Elt F) → (⟨S16x1024x1024, .f32⟩ : BufTy).Contents (Elt F) → (⟨S16x1024x1024, .f32⟩ : BufTy).Contents (Elt F)),
    unary main_cst main_v109 ((extractStridedSlice S1 ![3] · slices_S5_S1_3) : (⟨S5, .f32⟩ : BufTy).Contents (Elt F) → (⟨S1, .f32⟩ : BufTy).Contents (Elt F)),
    reshape main_v109 main_v110 rfl shapeCasts_S1_S_,
    unary main_v91 main_v111 ((extractStridedSlice S16x1024x1024 ![0, 0, 6] · slices_S16x1024x1032_S16x1024x1024_0_0_6) : (⟨S16x1024x1032, .f32⟩ : BufTy).Contents (Elt F) → (⟨S16x1024x1024, .f32⟩ : BufTy).Contents (Elt F)),
    unary main_v110 main_v112 (broadcastInDim S16x1024x1024 ![] bcast_S_S16x1024x1024 : (⟨S_, .f32⟩ : BufTy).Contents (Elt F) → (⟨S16x1024x1024, .f32⟩ : BufTy).Contents (Elt F)),
    binary main_v112 main_v111 main_v113 (mulf : (⟨S16x1024x1024, .f32⟩ : BufTy).Contents (Elt F) → (⟨S16x1024x1024, .f32⟩ : BufTy).Contents (Elt F) → (⟨S16x1024x1024, .f32⟩ : BufTy).Contents (Elt F)),
    binary main_v108 main_v113 main_v114 (addf : (⟨S16x1024x1024, .f32⟩ : BufTy).Contents (Elt F) → (⟨S16x1024x1024, .f32⟩ : BufTy).Contents (Elt F) → (⟨S16x1024x1024, .f32⟩ : BufTy).Contents (Elt F)) ]

/-- The last tap of that sum, and the second detail. -/
abbrev a5 : List (HloOp τ sig (Elt F)) :=
  [ unary main_cst main_v115 ((extractStridedSlice S1 ![4] · slices_S5_S1_4) : (⟨S5, .f32⟩ : BufTy).Contents (Elt F) → (⟨S1, .f32⟩ : BufTy).Contents (Elt F)),
    reshape main_v115 main_v116 rfl shapeCasts_S1_S_,
    unary main_v91 main_v117 ((extractStridedSlice S16x1024x1024 ![0, 0, 8] · slices_S16x1024x1032_S16x1024x1024_0_0_8) : (⟨S16x1024x1032, .f32⟩ : BufTy).Contents (Elt F) → (⟨S16x1024x1024, .f32⟩ : BufTy).Contents (Elt F)),
    unary main_v116 main_v118 (broadcastInDim S16x1024x1024 ![] bcast_S_S16x1024x1024 : (⟨S_, .f32⟩ : BufTy).Contents (Elt F) → (⟨S16x1024x1024, .f32⟩ : BufTy).Contents (Elt F)),
    binary main_v118 main_v117 main_v119 (mulf : (⟨S16x1024x1024, .f32⟩ : BufTy).Contents (Elt F) → (⟨S16x1024x1024, .f32⟩ : BufTy).Contents (Elt F) → (⟨S16x1024x1024, .f32⟩ : BufTy).Contents (Elt F)),
    binary main_v114 main_v119 main_v120 (addf : (⟨S16x1024x1024, .f32⟩ : BufTy).Contents (Elt F) → (⟨S16x1024x1024, .f32⟩ : BufTy).Contents (Elt F) → (⟨S16x1024x1024, .f32⟩ : BufTy).Contents (Elt F)),
    binary main_v59 main_v120 main_v121 (subf : (⟨S16x1024x1024, .f32⟩ : BufTy).Contents (Elt F) → (⟨S16x1024x1024, .f32⟩ : BufTy).Contents (Elt F) → (⟨S16x1024x1024, .f32⟩ : BufTy).Contents (Elt F)) ]

/-- The rows mirrored by 8 and the five-tap sum down the rows at dilation 4. -/
abbrev a6 : List (HloOp τ sig (Elt F)) :=
  [ nullary main_c_3 (constantI S_ 32 0#32),
    TRef.unary (.of main_v120 : TRef sig ⟨S16x1024x1024, .f32⟩) main_call4.v0 (extractStridedSlice S16x1x1024 ![0, 0, 0] · slices_S16x1024x1024_S16x1x1024_0_0_0),
    TRef.unary (.of main_v120 : TRef sig ⟨S16x1024x1024, .f32⟩) main_call4.v1 (extractStridedSlice S16x8x1024 ![0, 1, 0] · slices_S16x1024x1024_S16x8x1024_0_1_0),
    TRef.unary main_call4.v1 main_call4.call0.v0 (Host.reverse [1]),
    TRef.binary main_call4.call0.v0 (.of main_v120 : TRef sig ⟨S16x1024x1024, .f32⟩) main_call4.v3 (cat2 S16x1032x1024 1 S16x8x1024 S16x1024x1024 concatenates_S16x8x1024_S16x1024x1024_S16x1032x1024_d1),
    TRef.unary main_call4.v3 main_call4.v4 (extractStridedSlice S16x1x1024 ![0, 1031, 0] · slices_S16x1032x1024_S16x1x1024_0_1031_0),
    TRef.unary main_call4.v3 main_call4.v5 (extractStridedSlice S16x8x1024 ![0, 1023, 0] · slices_S16x1032x1024_S16x8x1024_0_1023_0),
    TRef.unary main_call4.v5 main_call4.call1.v0 (Host.reverse [1]),
    TRef.binary main_call4.v3 main_call4.call1.v0 main_call4.v7 (cat2 S16x1040x1024 1 S16x1032x1024 S16x8x1024 concatenates_S16x1032x1024_S16x8x1024_S16x1040x1024_d1),
    unary main_cst main_v123 ((extractStridedSlice S1 ![0] · slices_S5_S1_0) : (⟨S5, .f32⟩ : BufTy).Contents (Elt F) → (⟨S1, .f32⟩ : BufTy).Contents (Elt F)),
    reshape main_v123 main_v124 rfl shapeCasts_S1_S_,
    unary main_v122 main_v125 ((extractStridedSlice S16x1024x1024 ![0, 0, 0] · slices_S16x1040x1024_S16x1024x1024_0_0_0) : (⟨S16x1040x1024, .f32⟩ : BufTy).Contents (Elt F) → (⟨S16x1024x1024, .f32⟩ : BufTy).Contents (Elt F)),
    unary main_v124 main_v126 (broadcastInDim S16x1024x1024 ![] bcast_S_S16x1024x1024 : (⟨S_, .f32⟩ : BufTy).Contents (Elt F) → (⟨S16x1024x1024, .f32⟩ : BufTy).Contents (Elt F)),
    binary main_v126 main_v125 main_v127 (mulf : (⟨S16x1024x1024, .f32⟩ : BufTy).Contents (Elt F) → (⟨S16x1024x1024, .f32⟩ : BufTy).Contents (Elt F) → (⟨S16x1024x1024, .f32⟩ : BufTy).Contents (Elt F)),
    unary main_cst main_v128 ((extractStridedSlice S1 ![1] · slices_S5_S1_1) : (⟨S5, .f32⟩ : BufTy).Contents (Elt F) → (⟨S1, .f32⟩ : BufTy).Contents (Elt F)),
    reshape main_v128 main_v129 rfl shapeCasts_S1_S_,
    unary main_v122 main_v130 ((extractStridedSlice S16x1024x1024 ![0, 4, 0] · slices_S16x1040x1024_S16x1024x1024_0_4_0) : (⟨S16x1040x1024, .f32⟩ : BufTy).Contents (Elt F) → (⟨S16x1024x1024, .f32⟩ : BufTy).Contents (Elt F)),
    unary main_v129 main_v131 (broadcastInDim S16x1024x1024 ![] bcast_S_S16x1024x1024 : (⟨S_, .f32⟩ : BufTy).Contents (Elt F) → (⟨S16x1024x1024, .f32⟩ : BufTy).Contents (Elt F)),
    binary main_v131 main_v130 main_v132 (mulf : (⟨S16x1024x1024, .f32⟩ : BufTy).Contents (Elt F) → (⟨S16x1024x1024, .f32⟩ : BufTy).Contents (Elt F) → (⟨S16x1024x1024, .f32⟩ : BufTy).Contents (Elt F)),
    binary main_v127 main_v132 main_v133 (addf : (⟨S16x1024x1024, .f32⟩ : BufTy).Contents (Elt F) → (⟨S16x1024x1024, .f32⟩ : BufTy).Contents (Elt F) → (⟨S16x1024x1024, .f32⟩ : BufTy).Contents (Elt F)),
    unary main_cst main_v134 ((extractStridedSlice S1 ![2] · slices_S5_S1_2) : (⟨S5, .f32⟩ : BufTy).Contents (Elt F) → (⟨S1, .f32⟩ : BufTy).Contents (Elt F)),
    reshape main_v134 main_v135 rfl shapeCasts_S1_S_,
    unary main_v122 main_v136 ((extractStridedSlice S16x1024x1024 ![0, 8, 0] · slices_S16x1040x1024_S16x1024x1024_0_8_0) : (⟨S16x1040x1024, .f32⟩ : BufTy).Contents (Elt F) → (⟨S16x1024x1024, .f32⟩ : BufTy).Contents (Elt F)),
    unary main_v135 main_v137 (broadcastInDim S16x1024x1024 ![] bcast_S_S16x1024x1024 : (⟨S_, .f32⟩ : BufTy).Contents (Elt F) → (⟨S16x1024x1024, .f32⟩ : BufTy).Contents (Elt F)),
    binary main_v137 main_v136 main_v138 (mulf : (⟨S16x1024x1024, .f32⟩ : BufTy).Contents (Elt F) → (⟨S16x1024x1024, .f32⟩ : BufTy).Contents (Elt F) → (⟨S16x1024x1024, .f32⟩ : BufTy).Contents (Elt F)),
    binary main_v133 main_v138 main_v139 (addf : (⟨S16x1024x1024, .f32⟩ : BufTy).Contents (Elt F) → (⟨S16x1024x1024, .f32⟩ : BufTy).Contents (Elt F) → (⟨S16x1024x1024, .f32⟩ : BufTy).Contents (Elt F)),
    unary main_cst main_v140 ((extractStridedSlice S1 ![3] · slices_S5_S1_3) : (⟨S5, .f32⟩ : BufTy).Contents (Elt F) → (⟨S1, .f32⟩ : BufTy).Contents (Elt F)),
    reshape main_v140 main_v141 rfl shapeCasts_S1_S_,
    unary main_v122 main_v142 ((extractStridedSlice S16x1024x1024 ![0, 12, 0] · slices_S16x1040x1024_S16x1024x1024_0_12_0) : (⟨S16x1040x1024, .f32⟩ : BufTy).Contents (Elt F) → (⟨S16x1024x1024, .f32⟩ : BufTy).Contents (Elt F)),
    unary main_v141 main_v143 (broadcastInDim S16x1024x1024 ![] bcast_S_S16x1024x1024 : (⟨S_, .f32⟩ : BufTy).Contents (Elt F) → (⟨S16x1024x1024, .f32⟩ : BufTy).Contents (Elt F)),
    binary main_v143 main_v142 main_v144 (mulf : (⟨S16x1024x1024, .f32⟩ : BufTy).Contents (Elt F) → (⟨S16x1024x1024, .f32⟩ : BufTy).Contents (Elt F) → (⟨S16x1024x1024, .f32⟩ : BufTy).Contents (Elt F)),
    binary main_v139 main_v144 main_v145 (addf : (⟨S16x1024x1024, .f32⟩ : BufTy).Contents (Elt F) → (⟨S16x1024x1024, .f32⟩ : BufTy).Contents (Elt F) → (⟨S16x1024x1024, .f32⟩ : BufTy).Contents (Elt F)),
    unary main_cst main_v146 ((extractStridedSlice S1 ![4] · slices_S5_S1_4) : (⟨S5, .f32⟩ : BufTy).Contents (Elt F) → (⟨S1, .f32⟩ : BufTy).Contents (Elt F)),
    reshape main_v146 main_v147 rfl shapeCasts_S1_S_,
    unary main_v122 main_v148 ((extractStridedSlice S16x1024x1024 ![0, 16, 0] · slices_S16x1040x1024_S16x1024x1024_0_16_0) : (⟨S16x1040x1024, .f32⟩ : BufTy).Contents (Elt F) → (⟨S16x1024x1024, .f32⟩ : BufTy).Contents (Elt F)),
    unary main_v147 main_v149 (broadcastInDim S16x1024x1024 ![] bcast_S_S16x1024x1024 : (⟨S_, .f32⟩ : BufTy).Contents (Elt F) → (⟨S16x1024x1024, .f32⟩ : BufTy).Contents (Elt F)),
    binary main_v149 main_v148 main_v150 (mulf : (⟨S16x1024x1024, .f32⟩ : BufTy).Contents (Elt F) → (⟨S16x1024x1024, .f32⟩ : BufTy).Contents (Elt F) → (⟨S16x1024x1024, .f32⟩ : BufTy).Contents (Elt F)),
    binary main_v145 main_v150 main_v151 (addf : (⟨S16x1024x1024, .f32⟩ : BufTy).Contents (Elt F) → (⟨S16x1024x1024, .f32⟩ : BufTy).Contents (Elt F) → (⟨S16x1024x1024, .f32⟩ : BufTy).Contents (Elt F)) ]

/-- The columns mirrored by 8 and the first three and a half taps of the sum along the columns at dilation 4. -/
abbrev a7 : List (HloOp τ sig (Elt F)) :=
  [ nullary main_c_4 (constantI S_ 32 0#32),
    TRef.unary (.of main_v151 : TRef sig ⟨S16x1024x1024, .f32⟩) main_call5.v0 (extractStridedSlice S16x1024x1 ![0, 0, 0] · slices_S16x1024x1024_S16x1024x1_0_0_0),
    TRef.unary (.of main_v151 : TRef sig ⟨S16x1024x1024, .f32⟩) main_call5.v1 (extractStridedSlice S16x1024x8 ![0, 0, 1] · slices_S16x1024x1024_S16x1024x8_0_0_1),
    TRef.unary main_call5.v1 main_call5.call0.v0 (Host.reverse [2]),
    TRef.binary main_call5.call0.v0 (.of main_v151 : TRef sig ⟨S16x1024x1024, .f32⟩) main_call5.v3 (cat2 S16x1024x1032 2 S16x1024x8 S16x1024x1024 concatenates_S16x1024x8_S16x1024x1024_S16x1024x1032_d2),
    TRef.unary main_call5.v3 main_call5.v4 (extractStridedSlice S16x1024x1 ![0, 0, 1031] · slices_S16x1024x1032_S16x1024x1_0_0_1031),
    TRef.unary main_call5.v3 main_call5.v5 (extractStridedSlice S16x1024x8 ![0, 0, 1023] · slices_S16x1024x1032_S16x1024x8_0_0_1023),
    TRef.unary main_call5.v5 main_call5.call1.v0 (Host.reverse [2]),
    TRef.binary main_call5.v3 main_call5.call1.v0 main_call5.v7 (cat2 S16x1024x1040 2 S16x1024x1032 S16x1024x8 concatenates_S16x1024x1032_S16x1024x8_S16x1024x1040_d2),
    unary main_cst main_v153 ((extractStridedSlice S1 ![0] · slices_S5_S1_0) : (⟨S5, .f32⟩ : BufTy).Contents (Elt F) → (⟨S1, .f32⟩ : BufTy).Contents (Elt F)),
    reshape main_v153 main_v154 rfl shapeCasts_S1_S_,
    unary main_v152 main_v155 ((extractStridedSlice S16x1024x1024 ![0, 0, 0] · slices_S16x1024x1040_S16x1024x1024_0_0_0) : (⟨S16x1024x1040, .f32⟩ : BufTy).Contents (Elt F) → (⟨S16x1024x1024, .f32⟩ : BufTy).Contents (Elt F)),
    unary main_v154 main_v156 (broadcastInDim S16x1024x1024 ![] bcast_S_S16x1024x1024 : (⟨S_, .f32⟩ : BufTy).Contents (Elt F) → (⟨S16x1024x1024, .f32⟩ : BufTy).Contents (Elt F)),
    binary main_v156 main_v155 main_v157 (mulf : (⟨S16x1024x1024, .f32⟩ : BufTy).Contents (Elt F) → (⟨S16x1024x1024, .f32⟩ : BufTy).Contents (Elt F) → (⟨S16x1024x1024, .f32⟩ : BufTy).Contents (Elt F)),
    unary main_cst main_v158 ((extractStridedSlice S1 ![1] · slices_S5_S1_1) : (⟨S5, .f32⟩ : BufTy).Contents (Elt F) → (⟨S1, .f32⟩ : BufTy).Contents (Elt F)),
    reshape main_v158 main_v159 rfl shapeCasts_S1_S_,
    unary main_v152 main_v160 ((extractStridedSlice S16x1024x1024 ![0, 0, 4] · slices_S16x1024x1040_S16x1024x1024_0_0_4) : (⟨S16x1024x1040, .f32⟩ : BufTy).Contents (Elt F) → (⟨S16x1024x1024, .f32⟩ : BufTy).Contents (Elt F)),
    unary main_v159 main_v161 (broadcastInDim S16x1024x1024 ![] bcast_S_S16x1024x1024 : (⟨S_, .f32⟩ : BufTy).Contents (Elt F) → (⟨S16x1024x1024, .f32⟩ : BufTy).Contents (Elt F)),
    binary main_v161 main_v160 main_v162 (mulf : (⟨S16x1024x1024, .f32⟩ : BufTy).Contents (Elt F) → (⟨S16x1024x1024, .f32⟩ : BufTy).Contents (Elt F) → (⟨S16x1024x1024, .f32⟩ : BufTy).Contents (Elt F)),
    binary main_v157 main_v162 main_v163 (addf : (⟨S16x1024x1024, .f32⟩ : BufTy).Contents (Elt F) → (⟨S16x1024x1024, .f32⟩ : BufTy).Contents (Elt F) → (⟨S16x1024x1024, .f32⟩ : BufTy).Contents (Elt F)),
    unary main_cst main_v164 ((extractStridedSlice S1 ![2] · slices_S5_S1_2) : (⟨S5, .f32⟩ : BufTy).Contents (Elt F) → (⟨S1, .f32⟩ : BufTy).Contents (Elt F)),
    reshape main_v164 main_v165 rfl shapeCasts_S1_S_,
    unary main_v152 main_v166 ((extractStridedSlice S16x1024x1024 ![0, 0, 8] · slices_S16x1024x1040_S16x1024x1024_0_0_8) : (⟨S16x1024x1040, .f32⟩ : BufTy).Contents (Elt F) → (⟨S16x1024x1024, .f32⟩ : BufTy).Contents (Elt F)),
    unary main_v165 main_v167 (broadcastInDim S16x1024x1024 ![] bcast_S_S16x1024x1024 : (⟨S_, .f32⟩ : BufTy).Contents (Elt F) → (⟨S16x1024x1024, .f32⟩ : BufTy).Contents (Elt F)),
    binary main_v167 main_v166 main_v168 (mulf : (⟨S16x1024x1024, .f32⟩ : BufTy).Contents (Elt F) → (⟨S16x1024x1024, .f32⟩ : BufTy).Contents (Elt F) → (⟨S16x1024x1024, .f32⟩ : BufTy).Contents (Elt F)),
    binary main_v163 main_v168 main_v169 (addf : (⟨S16x1024x1024, .f32⟩ : BufTy).Contents (Elt F) → (⟨S16x1024x1024, .f32⟩ : BufTy).Contents (Elt F) → (⟨S16x1024x1024, .f32⟩ : BufTy).Contents (Elt F)),
    unary main_cst main_v170 ((extractStridedSlice S1 ![3] · slices_S5_S1_3) : (⟨S5, .f32⟩ : BufTy).Contents (Elt F) → (⟨S1, .f32⟩ : BufTy).Contents (Elt F)),
    reshape main_v170 main_v171 rfl shapeCasts_S1_S_,
    unary main_v152 main_v172 ((extractStridedSlice S16x1024x1024 ![0, 0, 12] · slices_S16x1024x1040_S16x1024x1024_0_0_12) : (⟨S16x1024x1040, .f32⟩ : BufTy).Contents (Elt F) → (⟨S16x1024x1024, .f32⟩ : BufTy).Contents (Elt F)) ]

/-- The rest of that sum, and the third detail. -/
abbrev a8 : List (HloOp τ sig (Elt F)) :=
  [ unary main_v171 main_v173 (broadcastInDim S16x1024x1024 ![] bcast_S_S16x1024x1024 : (⟨S_, .f32⟩ : BufTy).Contents (Elt F) → (⟨S16x1024x1024, .f32⟩ : BufTy).Contents (Elt F)),
    binary main_v173 main_v172 main_v174 (mulf : (⟨S16x1024x1024, .f32⟩ : BufTy).Contents (Elt F) → (⟨S16x1024x1024, .f32⟩ : BufTy).Contents (Elt F) → (⟨S16x1024x1024, .f32⟩ : BufTy).Contents (Elt F)),
    binary main_v169 main_v174 main_v175 (addf : (⟨S16x1024x1024, .f32⟩ : BufTy).Contents (Elt F) → (⟨S16x1024x1024, .f32⟩ : BufTy).Contents (Elt F) → (⟨S16x1024x1024, .f32⟩ : BufTy).Contents (Elt F)),
    unary main_cst main_v176 ((extractStridedSlice S1 ![4] · slices_S5_S1_4) : (⟨S5, .f32⟩ : BufTy).Contents (Elt F) → (⟨S1, .f32⟩ : BufTy).Contents (Elt F)),
    reshape main_v176 main_v177 rfl shapeCasts_S1_S_,
    unary main_v152 main_v178 ((extractStridedSlice S16x1024x1024 ![0, 0, 16] · slices_S16x1024x1040_S16x1024x1024_0_0_16) : (⟨S16x1024x1040, .f32⟩ : BufTy).Contents (Elt F) → (⟨S16x1024x1024, .f32⟩ : BufTy).Contents (Elt F)),
    unary main_v177 main_v179 (broadcastInDim S16x1024x1024 ![] bcast_S_S16x1024x1024 : (⟨S_, .f32⟩ : BufTy).Contents (Elt F) → (⟨S16x1024x1024, .f32⟩ : BufTy).Contents (Elt F)),
    binary main_v179 main_v178 main_v180 (mulf : (⟨S16x1024x1024, .f32⟩ : BufTy).Contents (Elt F) → (⟨S16x1024x1024, .f32⟩ : BufTy).Contents (Elt F) → (⟨S16x1024x1024, .f32⟩ : BufTy).Contents (Elt F)),
    binary main_v175 main_v180 main_v181 (addf : (⟨S16x1024x1024, .f32⟩ : BufTy).Contents (Elt F) → (⟨S16x1024x1024, .f32⟩ : BufTy).Contents (Elt F) → (⟨S16x1024x1024, .f32⟩ : BufTy).Contents (Elt F)),
    binary main_v120 main_v181 main_v182 (subf : (⟨S16x1024x1024, .f32⟩ : BufTy).Contents (Elt F) → (⟨S16x1024x1024, .f32⟩ : BufTy).Contents (Elt F) → (⟨S16x1024x1024, .f32⟩ : BufTy).Contents (Elt F)) ]

/-- The four bands, each given its unit axis, stacked. -/
abbrev a9 : List (HloOp τ sig (Elt F)) :=
  [ unary main_v60 main_v183 (broadcastInDim S16x1x1024x1024 ![0, 2, 3] bcast_S16x1024x1024_S16x1x1024x1024_0_2_3 : (⟨S16x1024x1024, .f32⟩ : BufTy).Contents (Elt F) → (⟨S16x1x1024x1024, .f32⟩ : BufTy).Contents (Elt F)),
    unary main_v121 main_v184 (broadcastInDim S16x1x1024x1024 ![0, 2, 3] bcast_S16x1024x1024_S16x1x1024x1024_0_2_3 : (⟨S16x1024x1024, .f32⟩ : BufTy).Contents (Elt F) → (⟨S16x1x1024x1024, .f32⟩ : BufTy).Contents (Elt F)),
    unary main_v182 main_v185 (broadcastInDim S16x1x1024x1024 ![0, 2, 3] bcast_S16x1024x1024_S16x1x1024x1024_0_2_3 : (⟨S16x1024x1024, .f32⟩ : BufTy).Contents (Elt F) → (⟨S16x1x1024x1024, .f32⟩ : BufTy).Contents (Elt F)),
    unary main_v181 main_v186 (broadcastInDim S16x1x1024x1024 ![0, 2, 3] bcast_S16x1024x1024_S16x1x1024x1024_0_2_3 : (⟨S16x1024x1024, .f32⟩ : BufTy).Contents (Elt F) → (⟨S16x1x1024x1024, .f32⟩ : BufTy).Contents (Elt F)),
    nary ![main_v183, main_v184, main_v185, main_v186] main_v187 (fun u => concatenate S16x4x1024x1024 1 [⟨S16x1x1024x1024, u 0⟩, ⟨S16x1x1024x1024, u 1⟩, ⟨S16x1x1024x1024, u 2⟩, ⟨S16x1x1024x1024, u 3⟩] concatenates_S16x1x1024x1024_S16x1x1024x1024_S16x1x1024x1024_S16x1x1024x1024_S16x4x1024x1024_d1) ]

/-- All the operations, in order. -/
abbrev ops : List (HloOp τ sig (Elt F)) :=
  a0 ++ (a1 ++ (a2 ++ (a3 ++ (a4 ++ (a5 ++ (a6 ++ (a7 ++ (a8 ++ a9))))))))

/-! ## The program is that list, run in order -/

set_option maxRecDepth 16384 in
theorem main_part0_eq (c : Dev nD) : main_part0 (F := F) c = seq (a0 ++ a1) := rfl
set_option maxRecDepth 16384 in
theorem main_part1_eq (c : Dev nD) : main_part1 (F := F) c = seq (a2 ++ (a3 ++ a4)) := rfl
set_option maxRecDepth 16384 in
theorem main_part2_eq (c : Dev nD) : main_part2 (F := F) c = seq (a5 ++ (a6 ++ a7)) := rfl
set_option maxRecDepth 16384 in
theorem main_part3_eq (c : Dev nD) : main_part3 (F := F) c = seq (a8 ++ a9) := rfl
set_option maxRecDepth 16384 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its result -/

theorem a0_sub : (a0 : List (HloOp τ sig (Elt F))).Forall fun op => op.bufs ⊆ tcRefs τ sig :=
  ⟨nullary_bufs_sub .., nullary_bufs_sub .., unary_bufs_sub .., unary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub ..⟩
theorem a1_sub : (a1 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub ..⟩
theorem a2_sub : (a2 : List (HloOp τ sig (Elt F))).Forall fun op => op.bufs ⊆ tcRefs τ sig :=
  ⟨unary_bufs_sub .., binary_bufs_sub .., binary_bufs_sub .., binary_bufs_sub ..⟩
theorem a3_sub : (a3 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub ..⟩
theorem a4_sub : (a4 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub ..⟩
theorem a5_sub : (a5 : List (HloOp τ sig (Elt F))).Forall fun op => op.bufs ⊆ tcRefs τ sig :=
  ⟨unary_bufs_sub .., reshape_bufs_sub .., unary_bufs_sub .., unary_bufs_sub .., binary_bufs_sub .., binary_bufs_sub .., binary_bufs_sub ..⟩
theorem a6_sub : (a6 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub ..⟩
theorem a7_sub : (a7 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub ..⟩
theorem a8_sub : (a8 : List (HloOp τ sig (Elt F))).Forall fun op => op.bufs ⊆ tcRefs τ sig :=
  ⟨unary_bufs_sub .., binary_bufs_sub .., binary_bufs_sub .., unary_bufs_sub .., reshape_bufs_sub .., unary_bufs_sub .., unary_bufs_sub .., binary_bufs_sub .., binary_bufs_sub .., binary_bufs_sub ..⟩
theorem a9_sub : (a9 : List (HloOp τ sig (Elt F))).Forall fun op => op.bufs ⊆ tcRefs τ sig :=
  ⟨unary_bufs_sub .., unary_bufs_sub .., unary_bufs_sub .., unary_bufs_sub .., nary_bufs_sub ..⟩
theorem a0_fresh : ∀ op ∈ (a0 : List (HloOp τ sig (Elt F))), op.fresh = ∅ := by
  intro _ h; (repeat (cases h with | head => rfl | tail _ h => ?_)); exact nomatch h
theorem a1_fresh : ∀ op ∈ (a1 : List (HloOp τ sig (Elt F))), op.fresh = ∅ := by
  intro _ h; (repeat (cases h with | head => rfl | tail _ h => ?_)); exact nomatch h
theorem a2_fresh : ∀ op ∈ (a2 : List (HloOp τ sig (Elt F))), op.fresh = ∅ := by
  intro _ h; (repeat (cases h with | head => rfl | tail _ h => ?_)); exact nomatch h
theorem a3_fresh : ∀ op ∈ (a3 : List (HloOp τ sig (Elt F))), op.fresh = ∅ := by
  intro _ h; (repeat (cases h with | head => rfl | tail _ h => ?_)); exact nomatch h
theorem a4_fresh : ∀ op ∈ (a4 : List (HloOp τ sig (Elt F))), op.fresh = ∅ := by
  intro _ h; (repeat (cases h with | head => rfl | tail _ h => ?_)); exact nomatch h
theorem a5_fresh : ∀ op ∈ (a5 : List (HloOp τ sig (Elt F))), op.fresh = ∅ := by
  intro _ h; (repeat (cases h with | head => rfl | tail _ h => ?_)); exact nomatch h
theorem a6_fresh : ∀ op ∈ (a6 : List (HloOp τ sig (Elt F))), op.fresh = ∅ := by
  intro _ h; (repeat (cases h with | head => rfl | tail _ h => ?_)); exact nomatch h
theorem a7_fresh : ∀ op ∈ (a7 : List (HloOp τ sig (Elt F))), op.fresh = ∅ := by
  intro _ h; (repeat (cases h with | head => rfl | tail _ h => ?_)); exact nomatch h
theorem a8_fresh : ∀ op ∈ (a8 : List (HloOp τ sig (Elt F))), op.fresh = ∅ := by
  intro _ h; (repeat (cases h with | head => rfl | tail _ h => ?_)); exact nomatch h
theorem a9_fresh : ∀ op ∈ (a9 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp a0_sub op h, List.forall_iff_forall_mem.mp a1_sub op h,
      List.forall_iff_forall_mem.mp a2_sub op h, List.forall_iff_forall_mem.mp a3_sub op h,
      List.forall_iff_forall_mem.mp a4_sub op h, List.forall_iff_forall_mem.mp a5_sub op h,
      List.forall_iff_forall_mem.mp a6_sub op h, List.forall_iff_forall_mem.mp a7_sub op h,
      List.forall_iff_forall_mem.mp a8_sub op h, List.forall_iff_forall_mem.mp a9_sub op h]

theorem ops_fresh : ∀ op ∈ (ops : List (HloOp τ sig (Elt F))), op.fresh = ∅ := fun op h => by
  simp only [ops, List.mem_append] at h
  rcases h with h | h | h | h | h | h | h | h | h | h
  exacts [a0_fresh op h, a1_fresh op h, a2_fresh op h, a3_fresh op h, a4_fresh op h, a5_fresh op h, a6_fresh op h,
    a7_fresh op h, a8_fresh op h, a9_fresh op h]

/-! ## What each piece leaves in the buffers, from any contents -/

/-- Two lists run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- An operation's one result buffer is among a list of references holding it. -/
theorem single_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The buffers the operations of `a0` write. -/
abbrev a0_W : List (Ref sig .tc) := [main_cst, main_c, main_call0.v0.ref, main_call0.v1.ref, main_call0.call0.v0.ref, main_call0.v3.ref, main_call0.v4.ref, main_call0.v5.ref, main_call0.call1.v0.ref, main_call0.v7.ref, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29]
theorem a0_writes : (a0 : List (HloOp τ sig (Elt F))).Forall fun op => op.writes ⊆ (a0_W.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
/-- A buffer the piece does not write keeps its contents through it. -/
theorem a0_keep (V : Valuation τ sig (Elt F)) (r : Ref sig .tc) (h : r ∉ a0_W) :
    after a0 V (Proc.devRef .tc r) = V (Proc.devRef .tc r) :=
  after_of_writes_sub a0 V a0_writes h

/-- The buffers the operations of `a1` write. -/
abbrev a1_W : List (Ref sig .tc) := [main_c_0, main_call1.v0.ref, main_call1.v1.ref, main_call1.call0.v0.ref, main_call1.v3.ref, main_call1.v4.ref, main_call1.v5.ref, main_call1.call1.v0.ref, main_call1.v7.ref, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56]
theorem a1_writes : (a1 : List (HloOp τ sig (Elt F))).Forall fun op => op.writes ⊆ (a1_W.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
/-- A buffer the piece does not write keeps its contents through it. -/
theorem a1_keep (V : Valuation τ sig (Elt F)) (r : Ref sig .tc) (h : r ∉ a1_W) :
    after a1 V (Proc.devRef .tc r) = V (Proc.devRef .tc r) :=
  after_of_writes_sub a1 V a1_writes h

/-- The buffers the operations of `a2` write. -/
abbrev a2_W : List (Ref sig .tc) := [main_v57, main_v58, main_v59, main_v60]
theorem a2_writes : (a2 : List (HloOp τ sig (Elt F))).Forall fun op => op.writes ⊆ (a2_W.map (Proc.devRef (τ := τ) .tc)).toFinset :=
  ⟨single_sub (by decide), single_sub (by decide), single_sub (by decide), single_sub (by decide)⟩
/-- A buffer the piece does not write keeps its contents through it. -/
theorem a2_keep (V : Valuation τ sig (Elt F)) (r : Ref sig .tc) (h : r ∉ a2_W) :
    after a2 V (Proc.devRef .tc r) = V (Proc.devRef .tc r) :=
  after_of_writes_sub a2 V a2_writes h

/-- The buffers the operations of `a3` write. -/
abbrev a3_W : List (Ref sig .tc) := [main_c_1, main_call2.v0.ref, main_call2.v1.ref, main_call2.call0.v0.ref, main_call2.v3.ref, main_call2.v4.ref, main_call2.v5.ref, main_call2.call1.v0.ref, main_call2.v7.ref, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90]
theorem a3_writes : (a3 : List (HloOp τ sig (Elt F))).Forall fun op => op.writes ⊆ (a3_W.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
/-- A buffer the piece does not write keeps its contents through it. -/
theorem a3_keep (V : Valuation τ sig (Elt F)) (r : Ref sig .tc) (h : r ∉ a3_W) :
    after a3 V (Proc.devRef .tc r) = V (Proc.devRef .tc r) :=
  after_of_writes_sub a3 V a3_writes h

/-- The buffers the operations of `a4` write. -/
abbrev a4_W : List (Ref sig .tc) := [main_c_2, main_call3.v0.ref, main_call3.v1.ref, main_call3.call0.v0.ref, main_call3.v3.ref, main_call3.v4.ref, main_call3.v5.ref, main_call3.call1.v0.ref, main_call3.v7.ref, main_v92, main_v93, main_v94, main_v95, main_v96, main_v97, main_v98, main_v99, main_v100, main_v101, main_v102, main_v103, main_v104, main_v105, main_v106, main_v107, main_v108, main_v109, main_v110, main_v111, main_v112, main_v113, main_v114]
theorem a4_writes : (a4 : List (HloOp τ sig (Elt F))).Forall fun op => op.writes ⊆ (a4_W.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
/-- A buffer the piece does not write keeps its contents through it. -/
theorem a4_keep (V : Valuation τ sig (Elt F)) (r : Ref sig .tc) (h : r ∉ a4_W) :
    after a4 V (Proc.devRef .tc r) = V (Proc.devRef .tc r) :=
  after_of_writes_sub a4 V a4_writes h

/-- The buffers the operations of `a5` write. -/
abbrev a5_W : List (Ref sig .tc) := [main_v115, main_v116, main_v117, main_v118, main_v119, main_v120, main_v121]
theorem a5_writes : (a5 : List (HloOp τ sig (Elt F))).Forall fun op => op.writes ⊆ (a5_W.map (Proc.devRef (τ := τ) .tc)).toFinset :=
  ⟨single_sub (by decide), single_sub (by decide), single_sub (by decide), single_sub (by decide), single_sub (by decide), single_sub (by decide), single_sub (by decide)⟩
/-- A buffer the piece does not write keeps its contents through it. -/
theorem a5_keep (V : Valuation τ sig (Elt F)) (r : Ref sig .tc) (h : r ∉ a5_W) :
    after a5 V (Proc.devRef .tc r) = V (Proc.devRef .tc r) :=
  after_of_writes_sub a5 V a5_writes h

/-- The buffers the operations of `a6` write. -/
abbrev a6_W : List (Ref sig .tc) := [main_c_3, main_call4.v0.ref, main_call4.v1.ref, main_call4.call0.v0.ref, main_call4.v3.ref, main_call4.v4.ref, main_call4.v5.ref, main_call4.call1.v0.ref, main_call4.v7.ref, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151]
theorem a6_writes : (a6 : List (HloOp τ sig (Elt F))).Forall fun op => op.writes ⊆ (a6_W.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
/-- A buffer the piece does not write keeps its contents through it. -/
theorem a6_keep (V : Valuation τ sig (Elt F)) (r : Ref sig .tc) (h : r ∉ a6_W) :
    after a6 V (Proc.devRef .tc r) = V (Proc.devRef .tc r) :=
  after_of_writes_sub a6 V a6_writes h

/-- The buffers the operations of `a7` write. -/
abbrev a7_W : List (Ref sig .tc) := [main_c_4, main_call5.v0.ref, main_call5.v1.ref, main_call5.call0.v0.ref, main_call5.v3.ref, main_call5.v4.ref, main_call5.v5.ref, main_call5.call1.v0.ref, main_call5.v7.ref, main_v153, main_v154, main_v155, main_v156, main_v157, main_v158, main_v159, main_v160, main_v161, main_v162, main_v163, main_v164, main_v165, main_v166, main_v167, main_v168, main_v169, main_v170, main_v171, main_v172]
theorem a7_writes : (a7 : List (HloOp τ sig (Elt F))).Forall fun op => op.writes ⊆ (a7_W.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
/-- A buffer the piece does not write keeps its contents through it. -/
theorem a7_keep (V : Valuation τ sig (Elt F)) (r : Ref sig .tc) (h : r ∉ a7_W) :
    after a7 V (Proc.devRef .tc r) = V (Proc.devRef .tc r) :=
  after_of_writes_sub a7 V a7_writes h

/-- The buffers the operations of `a8` write. -/
abbrev a8_W : List (Ref sig .tc) := [main_v173, main_v174, main_v175, main_v176, main_v177, main_v178, main_v179, main_v180, main_v181, main_v182]
theorem a8_writes : (a8 : List (HloOp τ sig (Elt F))).Forall fun op => op.writes ⊆ (a8_W.map (Proc.devRef (τ := τ) .tc)).toFinset :=
  ⟨single_sub (by decide), single_sub (by decide), single_sub (by decide), single_sub (by decide), single_sub (by decide), single_sub (by decide), single_sub (by decide), single_sub (by decide), single_sub (by decide), single_sub (by decide)⟩
/-- A buffer the piece does not write keeps its contents through it. -/
theorem a8_keep (V : Valuation τ sig (Elt F)) (r : Ref sig .tc) (h : r ∉ a8_W) :
    after a8 V (Proc.devRef .tc r) = V (Proc.devRef .tc r) :=
  after_of_writes_sub a8 V a8_writes h

/-- The buffers the operations of `a9` write. -/
abbrev a9_W : List (Ref sig .tc) := [main_v183, main_v184, main_v185, main_v186, main_v187]
theorem a9_writes : (a9 : List (HloOp τ sig (Elt F))).Forall fun op => op.writes ⊆ (a9_W.map (Proc.devRef (τ := τ) .tc)).toFinset :=
  ⟨single_sub (by decide), single_sub (by decide), single_sub (by decide), single_sub (by decide), single_sub (by decide)⟩
/-- A buffer the piece does not write keeps its contents through it. -/
theorem a9_keep (V : Valuation τ sig (Elt F)) (r : Ref sig .tc) (h : r ∉ a9_W) :
    after a9 V (Proc.devRef .tc r) = V (Proc.devRef .tc r) :=
  after_of_writes_sub a9 V a9_writes h

/-! ### Dilation 1 -/

set_option maxRecDepth 16384 in
/-- The first piece writes the weight table. -/
theorem a0_cst (V : Valuation τ sig (Elt F)) :
    after a0 V (Proc.devRef .tc main_cst) = Stages.weights := by
  simp only [a0]
  after_results_simp
  rfl

set_option maxRecDepth 16384 in
/-- The first piece ends with the rows filtered at dilation 1. -/
theorem a0_v29 (V : Valuation τ sig (Elt F)) :
    after a0 V (Proc.devRef .tc main_v29) = Stages.rows1 (V (Proc.devRef .tc main_arg0) : Stages.Batch F) := by
  simp only [a0]
  after_results_simp
  simp only [TRef.toBuf, TRef.ofBuf, cast_eq]
  rfl

set_option maxRecDepth 16384 in
/-- Then the columns filtered at dilation 1. -/
theorem w1_v59 (V : Valuation τ sig (Elt F)) (hc : V (Proc.devRef .tc main_cst) = Stages.weights) :
    after a2 (after a1 V) (Proc.devRef .tc main_v59) = Stages.cols1 (V (Proc.devRef .tc main_v29) : Stages.Batch F) := by
  simp only [a1, a2]
  after_results_simp
  simp only [TRef.toBuf, TRef.ofBuf, cast_eq]
  rw [hc]
  rfl

set_option maxRecDepth 16384 in
/-- And the first detail: the image less its first approximation. -/
theorem w1_v60 (V : Valuation τ sig (Elt F)) (hc : V (Proc.devRef .tc main_cst) = Stages.weights) :
    after a2 (after a1 V) (Proc.devRef .tc main_v60) = subf (V (Proc.devRef .tc main_arg0) : Stages.Batch F) (Stages.cols1 (V (Proc.devRef .tc main_v29) : Stages.Batch F)) := by
  simp only [a1, a2]
  after_results_simp
  simp only [TRef.toBuf, TRef.ofBuf, cast_eq]
  rw [hc]
  rfl

/-! ### Dilation 2 -/

set_option maxRecDepth 16384 in
/-- The rows filtered at dilation 2. -/
theorem w2_v90 (V : Valuation τ sig (Elt F)) (hc : V (Proc.devRef .tc main_cst) = Stages.weights) :
    after a3 V (Proc.devRef .tc main_v90) = Stages.rows2 (V (Proc.devRef .tc main_v59) : Stages.Batch F) := by
  simp only [a3]
  after_results_simp
  simp only [TRef.toBuf, TRef.ofBuf, cast_eq]
  rw [hc]
  rfl

set_option maxRecDepth 16384 in
/-- Then the columns filtered at dilation 2. -/
theorem w3_v120 (V : Valuation τ sig (Elt F)) (hc : V (Proc.devRef .tc main_cst) = Stages.weights) :
    after a5 (after a4 V) (Proc.devRef .tc main_v120) = Stages.cols2 (V (Proc.devRef .tc main_v90) : Stages.Batch F) := by
  simp only [a4, a5]
  after_results_simp
  simp only [TRef.toBuf, TRef.ofBuf, cast_eq]
  rw [hc]
  rfl

set_option maxRecDepth 16384 in
/-- And the second detail. -/
theorem w3_v121 (V : Valuation τ sig (Elt F)) (hc : V (Proc.devRef .tc main_cst) = Stages.weights) :
    after a5 (after a4 V) (Proc.devRef .tc main_v121) = subf (V (Proc.devRef .tc main_v59) : Stages.Batch F) (Stages.cols2 (V (Proc.devRef .tc main_v90) : Stages.Batch F)) := by
  simp only [a4, a5]
  after_results_simp
  simp only [TRef.toBuf, TRef.ofBuf, cast_eq]
  rw [hc]
  rfl

/-! ### Dilation 4 -/

set_option maxRecDepth 16384 in
/-- The rows filtered at dilation 4. -/
theorem w4_v151 (V : Valuation τ sig (Elt F)) (hc : V (Proc.devRef .tc main_cst) = Stages.weights) :
    after a6 V (Proc.devRef .tc main_v151) = Stages.rows4 (V (Proc.devRef .tc main_v120) : Stages.Batch F) := by
  simp only [a6]
  after_results_simp
  simp only [TRef.toBuf, TRef.ofBuf, cast_eq]
  rw [hc]
  rfl

set_option maxRecDepth 16384 in
/-- Then the columns filtered at dilation 4. -/
theorem w5_v181 (V : Valuation τ sig (Elt F)) (hc : V (Proc.devRef .tc main_cst) = Stages.weights) :
    after a8 (after a7 V) (Proc.devRef .tc main_v181) = Stages.cols4 (V (Proc.devRef .tc main_v151) : Stages.Batch F) := by
  simp only [a7, a8]
  after_results_simp
  simp only [TRef.toBuf, TRef.ofBuf, cast_eq]
  rw [hc]
  rfl

set_option maxRecDepth 16384 in
/-- And the third detail. -/
theorem w5_v182 (V : Valuation τ sig (Elt F)) (hc : V (Proc.devRef .tc main_cst) = Stages.weights) :
    after a8 (after a7 V) (Proc.devRef .tc main_v182) = subf (V (Proc.devRef .tc main_v120) : Stages.Batch F) (Stages.cols4 (V (Proc.devRef .tc main_v151) : Stages.Batch F)) := by
  simp only [a7, a8]
  after_results_simp
  simp only [TRef.toBuf, TRef.ofBuf, cast_eq]
  rw [hc]
  rfl

/-! ### The stacking -/

set_option maxRecDepth 16384 in
/-- The last piece stacks the three details and the last approximation, each with its unit axis. -/
theorem a9_v187 (V : Valuation τ sig (Elt F)) :
    after a9 V (Proc.devRef .tc main_v187) = concatenate S16x4x1024x1024 1
      [⟨S16x1x1024x1024, Stages.asBand (V (Proc.devRef .tc main_v60) : Stages.Batch F)⟩, ⟨S16x1x1024x1024, Stages.asBand (V (Proc.devRef .tc main_v121) : Stages.Batch F)⟩,
       ⟨S16x1x1024x1024, Stages.asBand (V (Proc.devRef .tc main_v182) : Stages.Batch F)⟩, ⟨S16x1x1024x1024, Stages.asBand (V (Proc.devRef .tc main_v181) : Stages.Batch F)⟩]
      concatenates_S16x1x1024x1024_S16x1x1024x1024_S16x1x1024x1024_S16x1x1024x1024_S16x4x1024x1024_d1 := by
  simp only [a9]
  after_results
  rfl

/-! ## The pieces chained -/

/-- The result buffer after the whole list: the stages composed. Each step names the contents after one stage and
    keeps only what the later stages read of them. -/
theorem out_eq (V : Valuation τ sig (Elt F)) :
    after ops V (Proc.devRef .tc main_v187) = Stages.out (V (Proc.devRef .tc main_arg0) : Stages.Batch F) := by
  simp only [ops, after_append]
  -- dilation 1, the rows
  have c1 := a0_cst V
  have h29 := a0_v29 V
  have hx1 := a0_keep V main_arg0 (by decide)
  generalize after a0 V = V1 at c1 h29 hx1 ⊢
  -- dilation 1, the columns, and the first detail
  have c2 := (a2_keep (after a1 V1) main_cst (by decide)).trans ((a1_keep V1 main_cst (by decide)).trans c1)
  have h59 := w1_v59 V1 c1
  have h60 := w1_v60 V1 c1
  rw [h29] at h59 h60
  rw [hx1] at h60
  generalize after a2 (after a1 V1) = V2 at c2 h59 h60 ⊢
  -- dilation 2, the rows
  have c3 := (a3_keep V2 main_cst (by decide)).trans c2
  have h90 := w2_v90 V2 c2
  have k59 := (a3_keep V2 main_v59 (by decide)).trans h59
  have k60 := (a3_keep V2 main_v60 (by decide)).trans h60
  rw [h59] at h90
  generalize after a3 V2 = V3 at c3 h90 k59 k60 ⊢
  -- dilation 2, the columns, and the second detail
  have c4 := (a5_keep (after a4 V3) main_cst (by decide)).trans ((a4_keep V3 main_cst (by decide)).trans c3)
  have h120 := w3_v120 V3 c3
  have h121 := w3_v121 V3 c3
  have l60 := (a5_keep (after a4 V3) main_v60 (by decide)).trans ((a4_keep V3 main_v60 (by decide)).trans k60)
  rw [h90] at h120 h121
  rw [k59] at h121
  generalize after a5 (after a4 V3) = V4 at c4 h120 h121 l60 ⊢
  -- dilation 4, the rows
  have c5 := (a6_keep V4 main_cst (by decide)).trans c4
  have h151 := w4_v151 V4 c4
  have m60 := (a6_keep V4 main_v60 (by decide)).trans l60
  have m121 := (a6_keep V4 main_v121 (by decide)).trans h121
  have m120 := (a6_keep V4 main_v120 (by decide)).trans h120
  rw [h120] at h151
  generalize after a6 V4 = V5 at c5 h151 m60 m121 m120 ⊢
  -- dilation 4, the columns, and the third detail
  have h181 := w5_v181 V5 c5
  have h182 := w5_v182 V5 c5
  have n60 := (a8_keep (after a7 V5) main_v60 (by decide)).trans ((a7_keep V5 main_v60 (by decide)).trans m60)
  have n121 := (a8_keep (after a7 V5) main_v121 (by decide)).trans ((a7_keep V5 main_v121 (by decide)).trans m121)
  rw [h151] at h181 h182
  rw [m120] at h182
  generalize after a8 (after a7 V5) = V6 at h181 h182 n60 n121 ⊢
  -- the stacking
  rw [a9_v187 V6, n60, n121, h182, h181]
  rfl

/-- No operation writes the argument. -/
theorem arg0_eq (V : Valuation τ sig (Elt F)) : after ops V (Proc.devRef .tc main_arg0) = V (Proc.devRef .tc main_arg0) := by
  simp only [ops, after_append]
  rw [a9_keep _ main_arg0 (by decide), a8_keep _ main_arg0 (by decide), a7_keep _ main_arg0 (by decide),
    a6_keep _ main_arg0 (by decide), a5_keep _ main_arg0 (by decide), a4_keep _ main_arg0 (by decide),
    a3_keep _ main_arg0 (by decide), a2_keep _ main_arg0 (by decide), a1_keep _ main_arg0 (by decide),
    a0_keep _ main_arg0 (by decide)]

/-- On every device, from any memory with zero counters: the run ends, the result holds `Stages.out` of the
    argument's launch contents, and the argument is as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v187) = Stages.out (m ((c.tc : Thread nD τ).loc main_arg0))
      ∧ r.2.mem ((c.tc : Thread nD τ).loc main_arg0) = m ((c.tc : Thread nD τ).loc main_arg0) :=
  (θ_run defs _ _).mono (fun _ h c => ⟨(h c main_v187).trans (out_eq (launchContents m c)), (h c main_arg0).trans (arg0_eq (launchContents m c))⟩)
    (run_seq scopedRefs_eq scopedSems_eq defs main (fun _ => ops) main_eq (fun _ => ops_sub) m ρ (fun _ => ops_fresh))

end Cert.ReferenceIdeal.RefRun

end
-- ==== Proof.RefWeights.lean ====
/-
  The reference's five filter weights, read at an index: each is one entry of the five-entry table, cut out as a
  one-entry vector, reshaped to a scalar and spread over the batch, so at every index it is that entry.
-/
import proofs.«148597_j34797825032657_1_alg».proof.Proof.RefStages
import Idealize.ShloMosaic.Lib.Pipeline.Value

noncomputable section

namespace Cert.ReferenceIdeal.Stages

open Idealize.ShloMosaic Cert.ReferenceIdeal Cert.ReferenceIdeal.Gen

variable {F : FTy → Type} [FloatOps F]

/-- The table at an index whose one coordinate is `k` holds word `k` of the literal table. -/
theorem weights_at (k : Fin 5) (i : S5.Idx) (h : (i 0).val = k.val) :
    weights (F := F) i = FloatOps.ofBits .f32 (lit0 k) := by
  unfold weights
  congr 2
  apply Fin.ext
  rw [Shape.rowMajor_val_one]
  exact h

/-- Weight 0 of the table, read anywhere in the batch, is 1/16 (as its binary32 word). -/
theorem wgt0_apply (j : S16x1024x1024.Idx) : wgt0 (F := F) j = FloatOps.ofBits .f32 0x3D800000#32 := by
  unfold wgt0 broadcastInDim shapeCast extractStridedSlice
  dsimp only
  refine (weights_at 0 _ ?_).trans rfl
  exact (fun (x : Fin 1) => (by have := x.isLt; omega : 0 + x.val = 0)) _

/-- Weight 1 of the table, read anywhere in the batch, is 1/4 (as its binary32 word). -/
theorem wgt1_apply (j : S16x1024x1024.Idx) : wgt1 (F := F) j = FloatOps.ofBits .f32 0x3E800000#32 := by
  unfold wgt1 broadcastInDim shapeCast extractStridedSlice
  dsimp only
  refine (weights_at 1 _ ?_).trans rfl
  exact (fun (x : Fin 1) => (by have := x.isLt; omega : 1 + x.val = 1)) _

/-- Weight 2 of the table, read anywhere in the batch, is 3/8 (as its binary32 word). -/
theorem wgt2_apply (j : S16x1024x1024.Idx) : wgt2 (F := F) j = FloatOps.ofBits .f32 0x3EC00000#32 := by
  unfold wgt2 broadcastInDim shapeCast extractStridedSlice
  dsimp only
  refine (weights_at 2 _ ?_).trans rfl
  exact (fun (x : Fin 1) => (by have := x.isLt; omega : 2 + x.val = 2)) _

/-- Weight 3 of the table, read anywhere in the batch, is 1/4 (as its binary32 word). -/
theorem wgt3_apply (j : S16x1024x1024.Idx) : wgt3 (F := F) j = FloatOps.ofBits .f32 0x3E800000#32 := by
  unfold wgt3 broadcastInDim shapeCast extractStridedSlice
  dsimp only
  refine (weights_at 3 _ ?_).trans rfl
  exact (fun (x : Fin 1) => (by have := x.isLt; omega : 3 + x.val = 3)) _

/-- Weight 4 of the table, read anywhere in the batch, is 1/16 (as its binary32 word). -/
theorem wgt4_apply (j : S16x1024x1024.Idx) : wgt4 (F := F) j = FloatOps.ofBits .f32 0x3D800000#32 := by
  unfold wgt4 broadcastInDim shapeCast extractStridedSlice
  dsimp only
  refine (weights_at 4 _ ?_).trans rfl
  exact (fun (x : Fin 1) => (by have := x.isLt; omega : 4 + x.val = 4)) _

/-- The five-window weighted sum at an index: the weights are constants there, the windows are read where they stand. -/
theorem fold5_apply (s0 s1 s2 s3 s4 : Batch F) (j : S16x1024x1024.Idx) :
    fold5 s0 s1 s2 s3 s4 j
      = FloatOps.addf (FloatOps.addf (FloatOps.addf (FloatOps.addf
          (FloatOps.mulf (FloatOps.ofBits .f32 0x3D800000#32) (s0 j))
          (FloatOps.mulf (FloatOps.ofBits .f32 0x3E800000#32) (s1 j)))
          (FloatOps.mulf (FloatOps.ofBits .f32 0x3EC00000#32) (s2 j)))
          (FloatOps.mulf (FloatOps.ofBits .f32 0x3E800000#32) (s3 j)))
          (FloatOps.mulf (FloatOps.ofBits .f32 0x3D800000#32) (s4 j)) := by
  show FloatOps.addf (FloatOps.addf (FloatOps.addf (FloatOps.addf
          (FloatOps.mulf (wgt0 j) (s0 j)) (FloatOps.mulf (wgt1 j) (s1 j))) (FloatOps.mulf (wgt2 j) (s2 j)))
          (FloatOps.mulf (wgt3 j) (s3 j))) (FloatOps.mulf (wgt4 j) (s4 j)) = _
  rw [wgt0_apply, wgt1_apply, wgt2_apply, wgt3_apply, wgt4_apply]

end Cert.ReferenceIdeal.Stages

end
-- ==== Proof.RefLevel1.lean ====
/-
  The reference's level with dilation 1, read entry by entry: image `b` of the result is the rows-then-columns
  filter of image `b` of the argument.
-/
import proofs.«148597_j34797825032657_1_alg».proof.Proof.RefStages
import proofs.«148597_j34797825032657_1_alg».proof.Proof.RefWeights
import proofs.«148597_j34797825032657_1_alg».proof.Proof.Spline
import Idealize.ShloMosaic.Lib.Pipeline.Value
import Idealize.ShloMosaic.Lib.ValueIdx
import Idealize.ShloMosaic.Lib.ValueLayout

noncomputable section

namespace Cert.ReferenceIdeal.Stages

open Idealize.ShloMosaic Idealize.ShloMosaic.ValueIdx Cert.ReferenceIdeal Cert.ReferenceIdeal.Gen Cert.Spline

variable {F : FTy → Type} [FloatOps F]

/-- A reversal along the rows, read at an index: the row counted from the other end. -/
private theorem reverseRows_apply {α : Type} {n : ℕ} (v : (⟨3, ![16, n, 1024]⟩ : Shape).Idx → α) (b : Fin 16) (i : Fin n)
    (q : Fin 1024) : Host.reverse [1] v (ix3 b i q) = v (ix3 b i.rev q) := by
  unfold Host.reverse
  refine congrArg v (funext fun a => ?_)
  match a with
  | ⟨0, _⟩ => rfl
  | ⟨1, _⟩ => rfl
  | ⟨2, _⟩ => rfl

/-- A reversal along the columns, read at an index: the column counted from the other end. -/
private theorem reverseCols_apply {α : Type} {n : ℕ} (v : (⟨3, ![16, 1024, n]⟩ : Shape).Idx → α) (b : Fin 16) (r : Fin 1024)
    (i : Fin n) : Host.reverse [2] v (ix3 b r i) = v (ix3 b r i.rev) := by
  unfold Host.reverse
  refine congrArg v (funext fun a => ?_)
  match a with
  | ⟨0, _⟩ => rfl
  | ⟨1, _⟩ => rfl
  | ⟨2, _⟩ => rfl

/-- The batch with its rows 1 and 2 put, reversed, in front of it. -/
private def frontRows1 (x : Batch F) : FVec F S16x1026x1024 .f32 :=
  concatenate S16x1026x1024 1 [⟨S16x2x1024, Host.reverse [1] (extractStridedSlice S16x2x1024 ![0, 1, 0] x slices_S16x1024x1024_S16x2x1024_0_1_0)⟩, ⟨S16x1024x1024, x⟩] concatenates_S16x2x1024_S16x1024x1024_S16x1026x1024_d1

/-- The rows' mirroring, its second step written over the first step's result. -/
private theorem padRows1_eq (x : Batch F) :
    padRows1 x = concatenate S16x1028x1024 1 [⟨S16x1026x1024, frontRows1 x⟩, ⟨S16x2x1024, Host.reverse [1] (extractStridedSlice S16x2x1024 ![0, 1023, 0] (frontRows1 x) slices_S16x1026x1024_S16x2x1024_0_1023_0)⟩] concatenates_S16x1026x1024_S16x2x1024_S16x1028x1024_d1 := rfl

/-- The front margin: row `i < 2` of the lengthened batch is row `2 - i` of the batch. -/
private theorem frontRows1_lo (x : Batch F) (b : Fin 16) (i : Fin 1026) (q : Fin 1024) (h : i.val < 2) :
    frontRows1 x (ix3 b i q) = x (ix3 b (at1024 (src 1 i.val)) q) := by
  unfold frontRows1
  refine (concatenate_pair_apply_left (t := S16x1026x1024) (s₁ := S16x2x1024) (s₂ := S16x1024x1024) 1 _ _ _
    (ix3 b i q) rfl (ix3 b (⟨i.val, h⟩ : Fin 2) q) ?_).trans ?_
  · intro a
    match a with
    | ⟨0, _⟩ => rfl
    | ⟨1, _⟩ => rfl
    | ⟨2, _⟩ => rfl
  · refine (reverseRows_apply _ b (⟨i.val, h⟩ : Fin 2) q).trans ?_
    refine extractStridedSlice_apply _ x _ _ _ ?_
    intro a
    match a with
    | ⟨0, _⟩ => show b.val = 0 + b.val; omega
    | ⟨1, _⟩ =>
      show min (src 1 i.val) 1023 = 1 + (2 - (i.val + 1))
      unfold src
      split_ifs <;> omega
    | ⟨2, _⟩ => show q.val = 0 + q.val; omega

/-- Past the front margin: row `i ≥ 2` of the lengthened batch is row `i - 2` of the batch. -/
private theorem frontRows1_hi (x : Batch F) (b : Fin 16) (i : Fin 1026) (q : Fin 1024) (h : 2 ≤ i.val) :
    frontRows1 x (ix3 b i q) = x (ix3 b (at1024 (src 1 i.val)) q) := by
  have hi := i.isLt
  unfold frontRows1
  refine (concatenate_pair_apply_right (t := S16x1026x1024) (s₁ := S16x2x1024) (s₂ := S16x1024x1024) 1 _ _ _
    (ix3 b i q) rfl rfl (ix3 b (⟨i.val - 2, by omega⟩ : Fin 1024) q) ?_ ?_).trans ?_
  · intro a ha
    match a with
    | ⟨0, _⟩ => rfl
    | ⟨1, _⟩ => exact absurd rfl ha
    | ⟨2, _⟩ => rfl
  · show i.val - 2 + 2 = i.val
    omega
  · refine congrArg x (funext fun a => ?_)
    match a with
    | ⟨0, _⟩ => rfl
    | ⟨1, _⟩ =>
      apply Fin.ext
      show i.val - 2 = min (src 1 i.val) 1023
      unfold src
      split_ifs <;> omega
    | ⟨2, _⟩ => rfl

/-- Row `i` of the lengthened batch is the row of the batch the mirrored axis reads there (both regions). -/
private theorem frontRows1_apply (x : Batch F) (b : Fin 16) (i : Fin 1026) (q : Fin 1024) :
    frontRows1 x (ix3 b i q) = x (ix3 b (at1024 (src 1 i.val)) q) := by
  by_cases h : i.val < 2
  · exact frontRows1_lo x b i q h
  · exact frontRows1_hi x b i q (by omega)

/-- Row `i` of the batch with its rows mirrored by 2 on each side is the row of the batch the mirrored axis reads there. -/
private theorem padRows1_apply (x : Batch F) (b : Fin 16) (i : Fin 1028) (q : Fin 1024) :
    padRows1 x (ix3 b i q) = x (ix3 b (at1024 (src 1 i.val)) q) := by
  have hi := i.isLt
  rw [padRows1_eq]
  by_cases h : i.val < 1026
  · refine (concatenate_pair_apply_left (t := S16x1028x1024) (s₁ := S16x1026x1024) (s₂ := S16x2x1024) 1 _ _ _
      (ix3 b i q) rfl (ix3 b (⟨i.val, h⟩ : Fin 1026) q) ?_).trans ?_
    · intro a
      match a with
      | ⟨0, _⟩ => rfl
      | ⟨1, _⟩ => rfl
      | ⟨2, _⟩ => rfl
    · exact frontRows1_apply x b ⟨i.val, h⟩ q
  · refine (concatenate_pair_apply_right (t := S16x1028x1024) (s₁ := S16x1026x1024) (s₂ := S16x2x1024) 1 _ _ _
      (ix3 b i q) rfl rfl (ix3 b (⟨i.val - 1026, by omega⟩ : Fin 2) q) ?_ ?_).trans ?_
    · intro a ha
      match a with
      | ⟨0, _⟩ => rfl
      | ⟨1, _⟩ => exact absurd rfl ha
      | ⟨2, _⟩ => rfl
    · show i.val - 1026 + 1026 = i.val
      omega
    · refine (reverseRows_apply _ b (⟨i.val - 1026, by omega⟩ : Fin 2) q).trans ?_
      refine (extractStridedSlice_apply _ (frontRows1 x) _ _ (ix3 b (⟨2050 - i.val, by omega⟩ : Fin 1026) q) ?_).trans ?_
      · intro a
        match a with
        | ⟨0, _⟩ => show b.val = 0 + b.val; omega
        | ⟨1, _⟩ => show 2050 - i.val = 1023 + (2 - (i.val - 1026 + 1)); omega
        | ⟨2, _⟩ => show q.val = 0 + q.val; omega
      · refine (frontRows1_apply x b _ q).trans ?_
        refine congrArg x (funext fun a => ?_)
        match a with
        | ⟨0, _⟩ => rfl
        | ⟨1, _⟩ =>
          apply Fin.ext
          show min (src 1 (2050 - i.val)) 1023 = min (src 1 i.val) 1023
          unfold src
          split_ifs <;> omega
        | ⟨2, _⟩ => rfl

/-- The window of the mirrored rows at offset `k`, read at (b, r, q): the row the tap at distance `k` from `r` reads. -/
private theorem windowRows1 (x : Batch F) (b : Fin 16) (r q : Fin 1024) (k : ℕ) (hk : k < 5)
    (h : S16x1028x1024.Slices ![0, k, 0] S16x1024x1024) :
    extractStridedSlice S16x1024x1024 ![0, k, 0] (padRows1 x) h (ix3 b r q) = img3 x b (tapAt 1 r.val ⟨k, hk⟩) q := by
  have hr := r.isLt
  refine (extractStridedSlice_apply _ (padRows1 x) h _ (ix3 b (⟨r.val + k, by omega⟩ : Fin 1028) q) ?_).trans ?_
  · intro a
    match a with
    | ⟨0, _⟩ => show b.val = 0 + b.val; omega
    | ⟨1, _⟩ => show r.val + k = k + r.val; omega
    | ⟨2, _⟩ => show q.val = 0 + q.val; omega
  · refine (padRows1_apply x b _ q).trans ?_
    show x (ix3 b (at1024 (src 1 (r.val + k))) q) = x (ix3 b (at1024 (src 1 (r.val + k * 1))) q)
    rw [Nat.mul_one]

/-- The reference's filter down the rows at dilation 1, read at (b, r, q). -/
private theorem rows1_apply (x : Batch F) (b : Fin 16) (r q : Fin 1024) :
    rows1 x (ix3 b r q) = smoothRows 1 (img3 x b) r q := by
  unfold rows1
  refine (fold5_apply _ _ _ _ _ _).trans ?_
  rw [windowRows1 x b r q 0 (by omega), windowRows1 x b r q 1 (by omega), windowRows1 x b r q 2 (by omega),
    windowRows1 x b r q 3 (by omega), windowRows1 x b r q 4 (by omega)]
  rfl

/-- The batch with its columns 1 and 2 put, reversed, in front of it. -/
private def frontCols1 (x : Batch F) : FVec F S16x1024x1026 .f32 :=
  concatenate S16x1024x1026 2 [⟨S16x1024x2, Host.reverse [2] (extractStridedSlice S16x1024x2 ![0, 0, 1] x slices_S16x1024x1024_S16x1024x2_0_0_1)⟩, ⟨S16x1024x1024, x⟩] concatenates_S16x1024x2_S16x1024x1024_S16x1024x1026_d2

/-- The columns' mirroring, its second step written over the first step's result. -/
private theorem padCols1_eq (x : Batch F) :
    padCols1 x = concatenate S16x1024x1028 2 [⟨S16x1024x1026, frontCols1 x⟩, ⟨S16x1024x2, Host.reverse [2] (extractStridedSlice S16x1024x2 ![0, 0, 1023] (frontCols1 x) slices_S16x1024x1026_S16x1024x2_0_0_1023)⟩] concatenates_S16x1024x1026_S16x1024x2_S16x1024x1028_d2 := rfl

/-- The front margin: column `i < 2` of the lengthened batch is column `2 - i` of the batch. -/
private theorem frontCols1_lo (x : Batch F) (b : Fin 16) (r : Fin 1024) (i : Fin 1026) (h : i.val < 2) :
    frontCols1 x (ix3 b r i) = x (ix3 b r (at1024 (src 1 i.val))) := by
  unfold frontCols1
  refine (concatenate_pair_apply_left (t := S16x1024x1026) (s₁ := S16x1024x2) (s₂ := S16x1024x1024) 2 _ _ _
    (ix3 b r i) rfl (ix3 b r (⟨i.val, h⟩ : Fin 2)) ?_).trans ?_
  · intro a
    match a with
    | ⟨0, _⟩ => rfl
    | ⟨1, _⟩ => rfl
    | ⟨2, _⟩ => rfl
  · refine (reverseCols_apply _ b r (⟨i.val, h⟩ : Fin 2)).trans ?_
    refine extractStridedSlice_apply _ x _ _ _ ?_
    intro a
    match a with
    | ⟨0, _⟩ => show b.val = 0 + b.val; omega
    | ⟨1, _⟩ => show r.val = 0 + r.val; omega
    | ⟨2, _⟩ =>
      show min (src 1 i.val) 1023 = 1 + (2 - (i.val + 1))
      unfold src
      split_ifs <;> omega

/-- Past the front margin: column `i ≥ 2` of the lengthened batch is column `i - 2` of the batch. -/
private theorem frontCols1_hi (x : Batch F) (b : Fin 16) (r : Fin 1024) (i : Fin 1026) (h : 2 ≤ i.val) :
    frontCols1 x (ix3 b r i) = x (ix3 b r (at1024 (src 1 i.val))) := by
  have hi := i.isLt
  unfold frontCols1
  refine (concatenate_pair_apply_right (t := S16x1024x1026) (s₁ := S16x1024x2) (s₂ := S16x1024x1024) 2 _ _ _
    (ix3 b r i) rfl rfl (ix3 b r (⟨i.val - 2, by omega⟩ : Fin 1024)) ?_ ?_).trans ?_
  · intro a ha
    match a with
    | ⟨0, _⟩ => rfl
    | ⟨1, _⟩ => rfl
    | ⟨2, _⟩ => exact absurd rfl ha
  · show i.val - 2 + 2 = i.val
    omega
  · refine congrArg x (funext fun a => ?_)
    match a with
    | ⟨0, _⟩ => rfl
    | ⟨1, _⟩ => rfl
    | ⟨2, _⟩ =>
      apply Fin.ext
      show i.val - 2 = min (src 1 i.val) 1023
      unfold src
      split_ifs <;> omega

/-- Column `i` of the lengthened batch is the column of the batch the mirrored axis reads there (both regions). -/
private theorem frontCols1_apply (x : Batch F) (b : Fin 16) (r : Fin 1024) (i : Fin 1026) :
    frontCols1 x (ix3 b r i) = x (ix3 b r (at1024 (src 1 i.val))) := by
  by_cases h : i.val < 2
  · exact frontCols1_lo x b r i h
  · exact frontCols1_hi x b r i (by omega)

/-- Column `i` of the batch with its columns mirrored by 2 on each side is the column of the batch the mirrored axis reads
    there. -/
private theorem padCols1_apply (x : Batch F) (b : Fin 16) (r : Fin 1024) (i : Fin 1028) :
    padCols1 x (ix3 b r i) = x (ix3 b r (at1024 (src 1 i.val))) := by
  have hi := i.isLt
  rw [padCols1_eq]
  by_cases h : i.val < 1026
  · refine (concatenate_pair_apply_left (t := S16x1024x1028) (s₁ := S16x1024x1026) (s₂ := S16x1024x2) 2 _ _ _
      (ix3 b r i) rfl (ix3 b r (⟨i.val, h⟩ : Fin 1026)) ?_).trans ?_
    · intro a
      match a with
      | ⟨0, _⟩ => rfl
      | ⟨1, _⟩ => rfl
      | ⟨2, _⟩ => rfl
    · exact frontCols1_apply x b r ⟨i.val, h⟩
  · refine (concatenate_pair_apply_right (t := S16x1024x1028) (s₁ := S16x1024x1026) (s₂ := S16x1024x2) 2 _ _ _
      (ix3 b r i) rfl rfl (ix3 b r (⟨i.val - 1026, by omega⟩ : Fin 2)) ?_ ?_).trans ?_
    · intro a ha
      match a with
      | ⟨0, _⟩ => rfl
      | ⟨1, _⟩ => rfl
      | ⟨2, _⟩ => exact absurd rfl ha
    · show i.val - 1026 + 1026 = i.val
      omega
    · refine (reverseCols_apply _ b r (⟨i.val - 1026, by omega⟩ : Fin 2)).trans ?_
      refine (extractStridedSlice_apply _ (frontCols1 x) _ _ (ix3 b r (⟨2050 - i.val, by omega⟩ : Fin 1026)) ?_).trans ?_
      · intro a
        match a with
        | ⟨0, _⟩ => show b.val = 0 + b.val; omega
        | ⟨1, _⟩ => show r.val = 0 + r.val; omega
        | ⟨2, _⟩ => show 2050 - i.val = 1023 + (2 - (i.val - 1026 + 1)); omega
      · refine (frontCols1_apply x b r _).trans ?_
        refine congrArg x (funext fun a => ?_)
        match a with
        | ⟨0, _⟩ => rfl
        | ⟨1, _⟩ => rfl
        | ⟨2, _⟩ =>
          apply Fin.ext
          show min (src 1 (2050 - i.val)) 1023 = min (src 1 i.val) 1023
          unfold src
          split_ifs <;> omega

/-- The window of the mirrored columns at offset `k`, read at (b, r, q): the column the tap at distance `k` from `q`
    reads. -/
private theorem windowCols1 (x : Batch F) (b : Fin 16) (r q : Fin 1024) (k : ℕ) (hk : k < 5)
    (h : S16x1024x1028.Slices ![0, 0, k] S16x1024x1024) :
    extractStridedSlice S16x1024x1024 ![0, 0, k] (padCols1 x) h (ix3 b r q) = img3 x b r (tapAt 1 q.val ⟨k, hk⟩) := by
  have hq := q.isLt
  refine (extractStridedSlice_apply _ (padCols1 x) h _ (ix3 b r (⟨q.val + k, by omega⟩ : Fin 1028)) ?_).trans ?_
  · intro a
    match a with
    | ⟨0, _⟩ => show b.val = 0 + b.val; omega
    | ⟨1, _⟩ => show r.val = 0 + r.val; omega
    | ⟨2, _⟩ => show q.val + k = k + q.val; omega
  · refine (padCols1_apply x b r _).trans ?_
    show x (ix3 b r (at1024 (src 1 (q.val + k)))) = x (ix3 b r (at1024 (src 1 (q.val + k * 1))))
    rw [Nat.mul_one]

/-- The reference's filter along the columns at dilation 1, read at (b, r, q). -/
private theorem cols1_apply (x : Batch F) (b : Fin 16) (r q : Fin 1024) :
    cols1 x (ix3 b r q) = smoothCols 1 (img3 x b) r q := by
  unfold cols1
  refine (fold5_apply _ _ _ _ _ _).trans ?_
  rw [windowCols1 x b r q 0 (by omega), windowCols1 x b r q 1 (by omega), windowCols1 x b r q 2 (by omega),
    windowCols1 x b r q 3 (by omega), windowCols1 x b r q 4 (by omega)]
  rfl

/-- Entry (b, r, q) of the reference's level with dilation 1. -/
theorem level1_apply (x : Batch F) (b : Fin 16) (r q : Fin 1024) :
    level1 x (ix3 b r q) = level 1 (img3 x b) r q := by
  have himg : img3 (rows1 x) b = smoothRows 1 (img3 x b) := funext fun r' => funext fun q' => rows1_apply x b r' q'
  show cols1 (rows1 x) (ix3 b r q) = smoothCols 1 (smoothRows 1 (img3 x b)) r q
  rw [cols1_apply, himg]

end Cert.ReferenceIdeal.Stages

end
-- ==== Proof.RefLevel2.lean ====
/-
  The reference's level with dilation 2, read entry by entry: image `b` of the result is the rows-then-columns
  filter of image `b` of the argument.
-/
import proofs.«148597_j34797825032657_1_alg».proof.Proof.RefStages
import proofs.«148597_j34797825032657_1_alg».proof.Proof.RefWeights
import proofs.«148597_j34797825032657_1_alg».proof.Proof.Spline
import Idealize.ShloMosaic.Lib.Pipeline.Value
import Idealize.ShloMosaic.Lib.ValueIdx
import Idealize.ShloMosaic.Lib.ValueLayout

noncomputable section

namespace Cert.ReferenceIdeal.Stages

open Idealize.ShloMosaic Idealize.ShloMosaic.ValueIdx Cert.ReferenceIdeal Cert.ReferenceIdeal.Gen Cert.Spline

variable {F : FTy → Type} [FloatOps F]

/-! ## Rows -/

/-- Four rows reversed: row `i` of the result is row `3 - i` of the argument. -/
private theorem rev_rows (v : FVec F S16x4x1024 .f32) (b : Fin 16) (i : Fin 4) (q : Fin 1024) :
    Host.reverse (s := S16x4x1024) [1] v (ix3 b i q) = v (ix3 b i.rev q) := by
  unfold Host.reverse
  exact congrArg v (funext fun a => match a with
    | ⟨0, _⟩ => rfl | ⟨1, _⟩ => rfl | ⟨2, _⟩ => rfl)

/-- The batch with the left margin of its rows in place: rows 4, 3, 2, 1, then all the rows. -/
private def frontRows2 (x : Batch F) : FVec F S16x1028x1024 .f32 :=
  concatenate S16x1028x1024 1 [⟨S16x4x1024, Host.reverse [1] (extractStridedSlice S16x4x1024 ![0, 1, 0] x slices_S16x1024x1024_S16x4x1024_0_1_0)⟩, ⟨S16x1024x1024, x⟩] concatenates_S16x4x1024_S16x1024x1024_S16x1028x1024_d1

/-- In the left margin, position `i` reads row `4 - i`. -/
private theorem frontRows2_left (x : Batch F) (b : Fin 16) (i : Fin 1028) (q : Fin 1024) (h : i.val < 4) :
    frontRows2 x (ix3 b i q) = x (ix3 b ⟨4 - i.val, by omega⟩ q) := by
  unfold frontRows2
  refine (concatenate_pair_apply_left (t := S16x1028x1024) (s₁ := S16x4x1024) (s₂ := S16x1024x1024) 1 _ _ _ (ix3 b i q) rfl (ix3 b (⟨i.val, h⟩ : Fin 4) q)
    (fun a => match a with | ⟨0, _⟩ => rfl | ⟨1, _⟩ => rfl | ⟨2, _⟩ => rfl)).trans ?_
  refine (rev_rows _ b ⟨i.val, h⟩ q).trans ?_
  exact extractStridedSlice_apply _ _ _ _ (ix3 b (⟨4 - i.val, by omega⟩ : Fin 1024) q) (fun a => match a with
    | ⟨0, _⟩ => by show b.val = 0 + b.val; omega
    | ⟨1, _⟩ => by show 4 - i.val = 1 + (4 - (i.val + 1)); omega
    | ⟨2, _⟩ => by show q.val = 0 + q.val; omega)

/-- Past the left margin, position `i` reads row `i - 4`. -/
private theorem frontRows2_right (x : Batch F) (b : Fin 16) (i : Fin 1028) (q : Fin 1024) (h : 4 ≤ i.val) :
    frontRows2 x (ix3 b i q) = x (ix3 b ⟨i.val - 4, by have := i.isLt; omega⟩ q) := by
  have hi := i.isLt
  unfold frontRows2
  exact concatenate_pair_apply_right (t := S16x1028x1024) (s₁ := S16x4x1024) (s₂ := S16x1024x1024) 1 _ _ _ (ix3 b i q) rfl rfl (ix3 b (⟨i.val - 4, by omega⟩ : Fin 1024) q)
    (fun a ha => by
      match a with
      | ⟨0, _⟩ => rfl
      | ⟨1, _⟩ => exact absurd rfl ha
      | ⟨2, _⟩ => rfl)
    (by show i.val - 4 + 4 = i.val; omega)

/-- The mirrored rows in terms of the batch with its left margin: that, then its rows 1026, 1025, 1024, 1023. -/
private theorem padRows2_eq (x : Batch F) :
    padRows2 x = concatenate S16x1032x1024 1 [⟨S16x1028x1024, frontRows2 x⟩, ⟨S16x4x1024, Host.reverse [1] (extractStridedSlice S16x4x1024 ![0, 1023, 0] (frontRows2 x) slices_S16x1028x1024_S16x4x1024_0_1023_0)⟩] concatenates_S16x1028x1024_S16x4x1024_S16x1032x1024_d1 := rfl

/-- Row `i` of the batch with mirrored rows is row `src 2 i` of the batch. -/
private theorem padRows2_apply (x : Batch F) (b : Fin 16) (i : Fin 1032) (q : Fin 1024) :
    padRows2 x (ix3 b i q) = x (ix3 b (at1024 (src 2 i.val)) q) := by
  have hi := i.isLt
  rw [padRows2_eq]
  by_cases h1 : i.val < 1028
  · refine (concatenate_pair_apply_left (t := S16x1032x1024) (s₁ := S16x1028x1024) (s₂ := S16x4x1024) 1 _ _ _ (ix3 b i q) rfl (ix3 b (⟨i.val, h1⟩ : Fin 1028) q)
      (fun a => match a with | ⟨0, _⟩ => rfl | ⟨1, _⟩ => rfl | ⟨2, _⟩ => rfl)).trans ?_
    by_cases h2 : i.val < 4
    · refine (frontRows2_left x b _ q h2).trans ?_
      refine congrArg (fun t => x (ix3 b t q)) (Fin.ext ?_)
      show 4 - i.val = min (src 2 i.val) 1023
      unfold src; split_ifs <;> omega
    · refine (frontRows2_right x b _ q (by show 4 ≤ i.val; omega)).trans ?_
      refine congrArg (fun t => x (ix3 b t q)) (Fin.ext ?_)
      show i.val - 4 = min (src 2 i.val) 1023
      unfold src; split_ifs <;> omega
  · refine (concatenate_pair_apply_right (t := S16x1032x1024) (s₁ := S16x1028x1024) (s₂ := S16x4x1024) 1 _ _ _ (ix3 b i q) rfl rfl (ix3 b (⟨i.val - 1028, by omega⟩ : Fin 4) q)
      (fun a ha => by
        match a with
        | ⟨0, _⟩ => rfl
        | ⟨1, _⟩ => exact absurd rfl ha
        | ⟨2, _⟩ => rfl)
      (by show i.val - 1028 + 1028 = i.val; omega)).trans ?_
    refine (rev_rows _ b _ q).trans ?_
    refine (extractStridedSlice_apply _ _ _ _ (ix3 b (⟨2054 - i.val, by omega⟩ : Fin 1028) q) (fun a => match a with
      | ⟨0, _⟩ => by show b.val = 0 + b.val; omega
      | ⟨1, _⟩ => by show 2054 - i.val = 1023 + (4 - (i.val - 1028 + 1)); omega
      | ⟨2, _⟩ => by show q.val = 0 + q.val; omega)).trans ?_
    refine (frontRows2_right x b _ q (by show 4 ≤ 2054 - i.val; omega)).trans ?_
    refine congrArg (fun t => x (ix3 b t q)) (Fin.ext ?_)
    show 2054 - i.val - 4 = min (src 2 i.val) 1023
    unfold src; split_ifs <;> omega

/-- The window of the mirrored rows at offset `k`, read at row `r`. -/
private theorem rowsWin (x : Batch F) (b : Fin 16) (r q : Fin 1024) (k : ℕ) (hk : k ≤ 8)
    (h : S16x1032x1024.Slices ![0, k, 0] S16x1024x1024) :
    extractStridedSlice S16x1024x1024 ![0, k, 0] (padRows2 x) h (ix3 b r q)
      = x (ix3 b (at1024 (src 2 (r.val + k))) q) := by
  have hr := r.isLt
  refine (extractStridedSlice_apply _ _ h _ (ix3 b (⟨r.val + k, by omega⟩ : Fin 1032) q) (fun a => match a with
    | ⟨0, _⟩ => by show b.val = 0 + b.val; omega
    | ⟨1, _⟩ => by show r.val + k = k + r.val; omega
    | ⟨2, _⟩ => by show q.val = 0 + q.val; omega)).trans ?_
  exact padRows2_apply x b _ q

/-- The reference's filter down the rows at dilation 2 is the specification's. -/
private theorem rows2_apply (x : Batch F) (b : Fin 16) (r q : Fin 1024) :
    rows2 x (ix3 b r q) = smoothRows 2 (img3 x b) r q := by
  unfold rows2
  rw [fold5_apply, rowsWin x b r q 0 (by omega), rowsWin x b r q 2 (by omega), rowsWin x b r q 4 (by omega),
    rowsWin x b r q 6 (by omega), rowsWin x b r q 8 (by omega)]
  rfl

/-! ## Columns -/

/-- Four columns reversed: column `i` of the result is column `3 - i` of the argument. -/
private theorem rev_cols (v : FVec F S16x1024x4 .f32) (b : Fin 16) (r : Fin 1024) (i : Fin 4) :
    Host.reverse (s := S16x1024x4) [2] v (ix3 b r i) = v (ix3 b r i.rev) := by
  unfold Host.reverse
  exact congrArg v (funext fun a => match a with
    | ⟨0, _⟩ => rfl | ⟨1, _⟩ => rfl | ⟨2, _⟩ => rfl)

/-- The batch with the left margin of its columns in place: columns 4, 3, 2, 1, then all the columns. -/
private def frontCols2 (x : Batch F) : FVec F S16x1024x1028 .f32 :=
  concatenate S16x1024x1028 2 [⟨S16x1024x4, Host.reverse [2] (extractStridedSlice S16x1024x4 ![0, 0, 1] x slices_S16x1024x1024_S16x1024x4_0_0_1)⟩, ⟨S16x1024x1024, x⟩] concatenates_S16x1024x4_S16x1024x1024_S16x1024x1028_d2

/-- In the left margin, position `i` reads column `4 - i`. -/
private theorem frontCols2_left (x : Batch F) (b : Fin 16) (r : Fin 1024) (i : Fin 1028) (h : i.val < 4) :
    frontCols2 x (ix3 b r i) = x (ix3 b r ⟨4 - i.val, by omega⟩) := by
  unfold frontCols2
  refine (concatenate_pair_apply_left (t := S16x1024x1028) (s₁ := S16x1024x4) (s₂ := S16x1024x1024) 2 _ _ _ (ix3 b r i) rfl (ix3 b r (⟨i.val, h⟩ : Fin 4))
    (fun a => match a with | ⟨0, _⟩ => rfl | ⟨1, _⟩ => rfl | ⟨2, _⟩ => rfl)).trans ?_
  refine (rev_cols _ b r ⟨i.val, h⟩).trans ?_
  exact extractStridedSlice_apply _ _ _ _ (ix3 b r (⟨4 - i.val, by omega⟩ : Fin 1024)) (fun a => match a with
    | ⟨0, _⟩ => by show b.val = 0 + b.val; omega
    | ⟨1, _⟩ => by show r.val = 0 + r.val; omega
    | ⟨2, _⟩ => by show 4 - i.val = 1 + (4 - (i.val + 1)); omega)

/-- Past the left margin, position `i` reads column `i - 4`. -/
private theorem frontCols2_right (x : Batch F) (b : Fin 16) (r : Fin 1024) (i : Fin 1028) (h : 4 ≤ i.val) :
    frontCols2 x (ix3 b r i) = x (ix3 b r ⟨i.val - 4, by have := i.isLt; omega⟩) := by
  have hi := i.isLt
  unfold frontCols2
  exact concatenate_pair_apply_right (t := S16x1024x1028) (s₁ := S16x1024x4) (s₂ := S16x1024x1024) 2 _ _ _ (ix3 b r i) rfl rfl (ix3 b r (⟨i.val - 4, by omega⟩ : Fin 1024))
    (fun a ha => by
      match a with
      | ⟨0, _⟩ => rfl
      | ⟨1, _⟩ => rfl
      | ⟨2, _⟩ => exact absurd rfl ha)
    (by show i.val - 4 + 4 = i.val; omega)

/-- The mirrored columns in terms of the batch with its left margin: that, then its columns 1026, 1025, 1024, 1023. -/
private theorem padCols2_eq (x : Batch F) :
    padCols2 x = concatenate S16x1024x1032 2 [⟨S16x1024x1028, frontCols2 x⟩, ⟨S16x1024x4, Host.reverse [2] (extractStridedSlice S16x1024x4 ![0, 0, 1023] (frontCols2 x) slices_S16x1024x1028_S16x1024x4_0_0_1023)⟩] concatenates_S16x1024x1028_S16x1024x4_S16x1024x1032_d2 := rfl

/-- Column `i` of the batch with mirrored columns is column `src 2 i` of the batch. -/
private theorem padCols2_apply (x : Batch F) (b : Fin 16) (r : Fin 1024) (i : Fin 1032) :
    padCols2 x (ix3 b r i) = x (ix3 b r (at1024 (src 2 i.val))) := by
  have hi := i.isLt
  rw [padCols2_eq]
  by_cases h1 : i.val < 1028
  · refine (concatenate_pair_apply_left (t := S16x1024x1032) (s₁ := S16x1024x1028) (s₂ := S16x1024x4) 2 _ _ _ (ix3 b r i) rfl (ix3 b r (⟨i.val, h1⟩ : Fin 1028))
      (fun a => match a with | ⟨0, _⟩ => rfl | ⟨1, _⟩ => rfl | ⟨2, _⟩ => rfl)).trans ?_
    by_cases h2 : i.val < 4
    · refine (frontCols2_left x b r _ h2).trans ?_
      refine congrArg (fun t => x (ix3 b r t)) (Fin.ext ?_)
      show 4 - i.val = min (src 2 i.val) 1023
      unfold src; split_ifs <;> omega
    · refine (frontCols2_right x b r _ (by show 4 ≤ i.val; omega)).trans ?_
      refine congrArg (fun t => x (ix3 b r t)) (Fin.ext ?_)
      show i.val - 4 = min (src 2 i.val) 1023
      unfold src; split_ifs <;> omega
  · refine (concatenate_pair_apply_right (t := S16x1024x1032) (s₁ := S16x1024x1028) (s₂ := S16x1024x4) 2 _ _ _ (ix3 b r i) rfl rfl (ix3 b r (⟨i.val - 1028, by omega⟩ : Fin 4))
      (fun a ha => by
        match a with
        | ⟨0, _⟩ => rfl
        | ⟨1, _⟩ => rfl
        | ⟨2, _⟩ => exact absurd rfl ha)
      (by show i.val - 1028 + 1028 = i.val; omega)).trans ?_
    refine (rev_cols _ b r _).trans ?_
    refine (extractStridedSlice_apply _ _ _ _ (ix3 b r (⟨2054 - i.val, by omega⟩ : Fin 1028)) (fun a => match a with
      | ⟨0, _⟩ => by show b.val = 0 + b.val; omega
      | ⟨1, _⟩ => by show r.val = 0 + r.val; omega
      | ⟨2, _⟩ => by show 2054 - i.val = 1023 + (4 - (i.val - 1028 + 1)); omega)).trans ?_
    refine (frontCols2_right x b r _ (by show 4 ≤ 2054 - i.val; omega)).trans ?_
    refine congrArg (fun t => x (ix3 b r t)) (Fin.ext ?_)
    show 2054 - i.val - 4 = min (src 2 i.val) 1023
    unfold src; split_ifs <;> omega

/-- The window of the mirrored columns at offset `k`, read at column `q`. -/
private theorem colsWin (x : Batch F) (b : Fin 16) (r q : Fin 1024) (k : ℕ) (hk : k ≤ 8)
    (h : S16x1024x1032.Slices ![0, 0, k] S16x1024x1024) :
    extractStridedSlice S16x1024x1024 ![0, 0, k] (padCols2 x) h (ix3 b r q)
      = x (ix3 b r (at1024 (src 2 (q.val + k)))) := by
  have hq := q.isLt
  refine (extractStridedSlice_apply _ _ h _ (ix3 b r (⟨q.val + k, by omega⟩ : Fin 1032)) (fun a => match a with
    | ⟨0, _⟩ => by show b.val = 0 + b.val; omega
    | ⟨1, _⟩ => by show r.val = 0 + r.val; omega
    | ⟨2, _⟩ => by show q.val + k = k + q.val; omega)).trans ?_
  exact padCols2_apply x b r _

/-- The reference's filter along the columns at dilation 2 is the specification's. -/
private theorem cols2_apply (x : Batch F) (b : Fin 16) (r q : Fin 1024) :
    cols2 x (ix3 b r q) = smoothCols 2 (img3 x b) r q := by
  unfold cols2
  rw [fold5_apply, colsWin x b r q 0 (by omega), colsWin x b r q 2 (by omega), colsWin x b r q 4 (by omega),
    colsWin x b r q 6 (by omega), colsWin x b r q 8 (by omega)]
  rfl

/-! ## The level -/

/-- Entry (b, r, q) of the reference's level with dilation 2. -/
theorem level2_apply (x : Batch F) (b : Fin 16) (r q : Fin 1024) :
    level2 x (ix3 b r q) = level 2 (img3 x b) r q := by
  have h : img3 (rows2 x) b = smoothRows 2 (img3 x b) :=
    funext fun r' => funext fun q' => rows2_apply x b r' q'
  show cols2 (rows2 x) (ix3 b r q) = smoothCols 2 (smoothRows 2 (img3 x b)) r q
  rw [← h]
  exact cols2_apply (rows2 x) b r q

end Cert.ReferenceIdeal.Stages

end
-- ==== Proof.RefLevel4.lean ====
/-
  The reference's level with dilation 4, read entry by entry: image `b` of the result is the rows-then-columns
  filter of image `b` of the argument.
-/
import proofs.«148597_j34797825032657_1_alg».proof.Proof.RefStages
import proofs.«148597_j34797825032657_1_alg».proof.Proof.RefWeights
import proofs.«148597_j34797825032657_1_alg».proof.Proof.Spline
import Idealize.ShloMosaic.Lib.Pipeline.Value
import Idealize.ShloMosaic.Lib.ValueIdx
import Idealize.ShloMosaic.Lib.ValueLayout

noncomputable section

namespace Cert.ReferenceIdeal.Stages

open Idealize.ShloMosaic Idealize.ShloMosaic.ValueIdx Cert.ReferenceIdeal Cert.ReferenceIdeal.Gen Cert.Spline

variable {F : FTy → Type} [FloatOps F]

/-- A reversal along axis 1 of a rank-3 array, read at an index: the same entry with the row counted from the end. -/
private theorem reverse1_apply {α : Type} {n0 n1 n2 : Nat} (v : (⟨3, ![n0, n1, n2]⟩ : Shape).Idx → α)
    (b : Fin n0) (i : Fin n1) (q : Fin n2) :
    Host.reverse [1] v (ix3 b i q) = v (ix3 b i.rev q) := by
  unfold Host.reverse
  refine congrArg v (funext fun a => ?_)
  match a with
  | ⟨0, _⟩ => rfl
  | ⟨1, _⟩ => rfl
  | ⟨2, _⟩ => rfl

/-- The rows with the front margin only: the 8 rows after the first, reversed, then the rows themselves. -/
private def frontRows4 (x : Batch F) : FVec F S16x1032x1024 .f32 :=
  concatenate S16x1032x1024 1 [⟨S16x8x1024, Host.reverse [1] (extractStridedSlice S16x8x1024 ![0, 1, 0] x slices_S16x1024x1024_S16x8x1024_0_1_0)⟩, ⟨S16x1024x1024, x⟩] concatenates_S16x8x1024_S16x1024x1024_S16x1032x1024_d1

private theorem padRows4_eq (x : Batch F) :
    padRows4 x = concatenate S16x1040x1024 1 [⟨S16x1032x1024, frontRows4 x⟩, ⟨S16x8x1024, Host.reverse [1] (extractStridedSlice S16x8x1024 ![0, 1023, 0] (frontRows4 x) slices_S16x1032x1024_S16x8x1024_0_1023_0)⟩] concatenates_S16x1032x1024_S16x8x1024_S16x1040x1024_d1 := rfl

/-- In the front margin, position p reads row 8 − p. -/
private theorem frontRows4_left (x : Batch F) (b : Fin 16) (i : Fin 1032) (q : Fin 1024) (hi : i.val < 8) :
    frontRows4 x (ix3 b i q) = x (ix3 b ⟨8 - i.val, by omega⟩ q) := by
  unfold frontRows4
  refine (concatenate_pair_apply_left (s₁ := S16x8x1024) (s₂ := S16x1024x1024) _ _ _ _ (ix3 b i q) rfl (ix3 b (⟨i.val, hi⟩ : Fin 8) q) ?_).trans ?_
  · intro a
    match a with
    | ⟨0, _⟩ => rfl
    | ⟨1, _⟩ => rfl
    | ⟨2, _⟩ => rfl
  refine (reverse1_apply _ b (⟨i.val, hi⟩ : Fin 8) q).trans ?_
  refine extractStridedSlice_apply _ x _ _ (ix3 b ⟨8 - i.val, by omega⟩ q) ?_
  intro a
  match a with
  | ⟨0, _⟩ => show b.val = 0 + b.val; omega
  | ⟨1, _⟩ => show 8 - i.val = 1 + (8 - (i.val + 1)); omega
  | ⟨2, _⟩ => show q.val = 0 + q.val; omega

/-- Past the front margin, position p reads row p − 8. -/
private theorem frontRows4_right (x : Batch F) (b : Fin 16) (i : Fin 1032) (q : Fin 1024) (hi : 8 ≤ i.val) :
    frontRows4 x (ix3 b i q) = x (ix3 b ⟨i.val - 8, by omega⟩ q) := by
  unfold frontRows4
  refine concatenate_pair_apply_right (s₁ := S16x8x1024) (s₂ := S16x1024x1024) _ _ _ _ (ix3 b i q) rfl rfl (ix3 b (⟨i.val - 8, by omega⟩ : Fin 1024) q) ?_ ?_
  · intro a ha
    match a with
    | ⟨0, _⟩ => rfl
    | ⟨1, _⟩ => exact absurd rfl ha
    | ⟨2, _⟩ => rfl
  · show i.val - 8 + 8 = i.val
    omega

/-- The rows mirrored by 8 on each side, read at an index: position p holds the row the mirrored axis names. -/
private theorem padRows4_apply (x : Batch F) (b : Fin 16) (i : Fin 1040) (q : Fin 1024) :
    padRows4 x (ix3 b i q) = x (ix3 b (at1024 (src 4 i.val)) q) := by
  rw [padRows4_eq]
  have hi := i.isLt
  by_cases h1 : i.val < 1032
  · refine (concatenate_pair_apply_left (s₁ := S16x1032x1024) (s₂ := S16x8x1024) _ _ _ _ (ix3 b i q) rfl
      (ix3 b (⟨i.val, h1⟩ : Fin 1032) q) ?_).trans ?_
    · intro a
      match a with
      | ⟨0, _⟩ => rfl
      | ⟨1, _⟩ => rfl
      | ⟨2, _⟩ => rfl
    by_cases h0 : i.val < 8
    · refine (frontRows4_left x b ⟨i.val, h1⟩ q h0).trans ?_
      refine congrArg (fun n => x (ix3 b n q)) (Fin.ext ?_)
      show 8 - i.val = min (src 4 i.val) 1023
      unfold src
      split_ifs <;> omega
    · refine (frontRows4_right x b ⟨i.val, h1⟩ q (by show 8 ≤ i.val; omega)).trans ?_
      refine congrArg (fun n => x (ix3 b n q)) (Fin.ext ?_)
      show i.val - 8 = min (src 4 i.val) 1023
      unfold src
      split_ifs <;> omega
  · refine (concatenate_pair_apply_right (s₁ := S16x1032x1024) (s₂ := S16x8x1024) _ _ _ _ (ix3 b i q) rfl rfl
      (ix3 b (⟨i.val - 1032, by omega⟩ : Fin 8) q) ?_ ?_).trans ?_
    · intro a ha
      match a with
      | ⟨0, _⟩ => rfl
      | ⟨1, _⟩ => exact absurd rfl ha
      | ⟨2, _⟩ => rfl
    · show i.val - 1032 + 1032 = i.val
      omega
    refine (reverse1_apply _ b (⟨i.val - 1032, by omega⟩ : Fin 8) q).trans ?_
    refine (extractStridedSlice_apply _ (frontRows4 x) _ _ (ix3 b (⟨2062 - i.val, by omega⟩ : Fin 1032) q) ?_).trans ?_
    · intro a
      match a with
      | ⟨0, _⟩ => show b.val = 0 + b.val; omega
      | ⟨1, _⟩ => show 2062 - i.val = 1023 + (8 - (i.val - 1032 + 1)); omega
      | ⟨2, _⟩ => show q.val = 0 + q.val; omega
    refine (frontRows4_right x b ⟨2062 - i.val, by omega⟩ q (by show 8 ≤ 2062 - i.val; omega)).trans ?_
    refine congrArg (fun n => x (ix3 b n q)) (Fin.ext ?_)
    show 2062 - i.val - 8 = min (src 4 i.val) 1023
    unfold src
    split_ifs <;> omega

/-- The filter down the rows at dilation 4, read at an index: the five mirrored rows of the specification. -/
private theorem rows4_apply (x : Batch F) (b : Fin 16) (r q : Fin 1024) :
    rows4 x (ix3 b r q) = smoothRows 4 (img3 x b) r q := by
  have hr := r.isLt
  have e : ∀ (k : Nat) (_ : k ≤ 16) (h : S16x1040x1024.Slices ![0, k, 0] S16x1024x1024),
      extractStridedSlice S16x1024x1024 ![0, k, 0] (padRows4 x) h (ix3 b r q)
        = x (ix3 b (at1024 (src 4 (r.val + k))) q) := by
    intro k hk h
    refine (extractStridedSlice_apply _ (padRows4 x) h _ (ix3 b (⟨r.val + k, by omega⟩ : Fin 1040) q) ?_).trans ?_
    · intro a
      match a with
      | ⟨0, _⟩ => show b.val = 0 + b.val; omega
      | ⟨1, _⟩ => show r.val + k = k + r.val; omega
      | ⟨2, _⟩ => show q.val = 0 + q.val; omega
    exact padRows4_apply x b _ q
  unfold rows4
  rw [fold5_apply, e 0 (by omega) _, e 4 (by omega) _, e 8 (by omega) _, e 12 (by omega) _, e 16 (by omega) _]
  rfl

/-- A reversal along axis 2 of a rank-3 array, read at an index: the same entry with the column counted from the end. -/
private theorem reverse2_apply {α : Type} {n0 n1 n2 : Nat} (v : (⟨3, ![n0, n1, n2]⟩ : Shape).Idx → α)
    (b : Fin n0) (r : Fin n1) (i : Fin n2) :
    Host.reverse [2] v (ix3 b r i) = v (ix3 b r i.rev) := by
  unfold Host.reverse
  refine congrArg v (funext fun a => ?_)
  match a with
  | ⟨0, _⟩ => rfl
  | ⟨1, _⟩ => rfl
  | ⟨2, _⟩ => rfl

/-- The columns with the front margin only: the 8 columns after the first, reversed, then the columns themselves. -/
private def frontCols4 (x : Batch F) : FVec F S16x1024x1032 .f32 :=
  concatenate S16x1024x1032 2 [⟨S16x1024x8, Host.reverse [2] (extractStridedSlice S16x1024x8 ![0, 0, 1] x slices_S16x1024x1024_S16x1024x8_0_0_1)⟩, ⟨S16x1024x1024, x⟩] concatenates_S16x1024x8_S16x1024x1024_S16x1024x1032_d2

private theorem padCols4_eq (x : Batch F) :
    padCols4 x = concatenate S16x1024x1040 2 [⟨S16x1024x1032, frontCols4 x⟩, ⟨S16x1024x8, Host.reverse [2] (extractStridedSlice S16x1024x8 ![0, 0, 1023] (frontCols4 x) slices_S16x1024x1032_S16x1024x8_0_0_1023)⟩] concatenates_S16x1024x1032_S16x1024x8_S16x1024x1040_d2 := rfl

/-- In the front margin, position p reads column 8 − p. -/
private theorem frontCols4_left (x : Batch F) (b : Fin 16) (r : Fin 1024) (i : Fin 1032) (hi : i.val < 8) :
    frontCols4 x (ix3 b r i) = x (ix3 b r ⟨8 - i.val, by omega⟩) := by
  unfold frontCols4
  refine (concatenate_pair_apply_left (s₁ := S16x1024x8) (s₂ := S16x1024x1024) _ _ _ _ (ix3 b r i) rfl (ix3 b r (⟨i.val, hi⟩ : Fin 8)) ?_).trans ?_
  · intro a
    match a with
    | ⟨0, _⟩ => rfl
    | ⟨1, _⟩ => rfl
    | ⟨2, _⟩ => rfl
  refine (reverse2_apply _ b r (⟨i.val, hi⟩ : Fin 8)).trans ?_
  refine extractStridedSlice_apply _ x _ _ (ix3 b r ⟨8 - i.val, by omega⟩) ?_
  intro a
  match a with
  | ⟨0, _⟩ => show b.val = 0 + b.val; omega
  | ⟨1, _⟩ => show r.val = 0 + r.val; omega
  | ⟨2, _⟩ => show 8 - i.val = 1 + (8 - (i.val + 1)); omega

/-- Past the front margin, position p reads column p − 8. -/
private theorem frontCols4_right (x : Batch F) (b : Fin 16) (r : Fin 1024) (i : Fin 1032) (hi : 8 ≤ i.val) :
    frontCols4 x (ix3 b r i) = x (ix3 b r ⟨i.val - 8, by omega⟩) := by
  unfold frontCols4
  refine concatenate_pair_apply_right (s₁ := S16x1024x8) (s₂ := S16x1024x1024) _ _ _ _ (ix3 b r i) rfl rfl (ix3 b r (⟨i.val - 8, by omega⟩ : Fin 1024)) ?_ ?_
  · intro a ha
    match a with
    | ⟨0, _⟩ => rfl
    | ⟨1, _⟩ => rfl
    | ⟨2, _⟩ => exact absurd rfl ha
  · show i.val - 8 + 8 = i.val
    omega

/-- The columns mirrored by 8 on each side, read at an index: position p holds the column the mirrored axis names. -/
private theorem padCols4_apply (x : Batch F) (b : Fin 16) (r : Fin 1024) (i : Fin 1040) :
    padCols4 x (ix3 b r i) = x (ix3 b r (at1024 (src 4 i.val))) := by
  rw [padCols4_eq]
  have hi := i.isLt
  by_cases h1 : i.val < 1032
  · refine (concatenate_pair_apply_left (s₁ := S16x1024x1032) (s₂ := S16x1024x8) _ _ _ _ (ix3 b r i) rfl
      (ix3 b r (⟨i.val, h1⟩ : Fin 1032)) ?_).trans ?_
    · intro a
      match a with
      | ⟨0, _⟩ => rfl
      | ⟨1, _⟩ => rfl
      | ⟨2, _⟩ => rfl
    by_cases h0 : i.val < 8
    · refine (frontCols4_left x b r ⟨i.val, h1⟩ h0).trans ?_
      refine congrArg (fun n => x (ix3 b r n)) (Fin.ext ?_)
      show 8 - i.val = min (src 4 i.val) 1023
      unfold src
      split_ifs <;> omega
    · refine (frontCols4_right x b r ⟨i.val, h1⟩ (by show 8 ≤ i.val; omega)).trans ?_
      refine congrArg (fun n => x (ix3 b r n)) (Fin.ext ?_)
      show i.val - 8 = min (src 4 i.val) 1023
      unfold src
      split_ifs <;> omega
  · refine (concatenate_pair_apply_right (s₁ := S16x1024x1032) (s₂ := S16x1024x8) _ _ _ _ (ix3 b r i) rfl rfl
      (ix3 b r (⟨i.val - 1032, by omega⟩ : Fin 8)) ?_ ?_).trans ?_
    · intro a ha
      match a with
      | ⟨0, _⟩ => rfl
      | ⟨1, _⟩ => rfl
      | ⟨2, _⟩ => exact absurd rfl ha
    · show i.val - 1032 + 1032 = i.val
      omega
    refine (reverse2_apply _ b r (⟨i.val - 1032, by omega⟩ : Fin 8)).trans ?_
    refine (extractStridedSlice_apply _ (frontCols4 x) _ _ (ix3 b r (⟨2062 - i.val, by omega⟩ : Fin 1032)) ?_).trans ?_
    · intro a
      match a with
      | ⟨0, _⟩ => show b.val = 0 + b.val; omega
      | ⟨1, _⟩ => show r.val = 0 + r.val; omega
      | ⟨2, _⟩ => show 2062 - i.val = 1023 + (8 - (i.val - 1032 + 1)); omega
    refine (frontCols4_right x b r ⟨2062 - i.val, by omega⟩ (by show 8 ≤ 2062 - i.val; omega)).trans ?_
    refine congrArg (fun n => x (ix3 b r n)) (Fin.ext ?_)
    show 2062 - i.val - 8 = min (src 4 i.val) 1023
    unfold src
    split_ifs <;> omega

/-- The filter along the columns at dilation 4, read at an index: the five mirrored columns of the specification. -/
private theorem cols4_apply (x : Batch F) (b : Fin 16) (r q : Fin 1024) :
    cols4 x (ix3 b r q) = smoothCols 4 (img3 x b) r q := by
  have hq := q.isLt
  have e : ∀ (k : Nat) (_ : k ≤ 16) (h : S16x1024x1040.Slices ![0, 0, k] S16x1024x1024),
      extractStridedSlice S16x1024x1024 ![0, 0, k] (padCols4 x) h (ix3 b r q)
        = x (ix3 b r (at1024 (src 4 (q.val + k)))) := by
    intro k hk h
    refine (extractStridedSlice_apply _ (padCols4 x) h _ (ix3 b r (⟨q.val + k, by omega⟩ : Fin 1040)) ?_).trans ?_
    · intro a
      match a with
      | ⟨0, _⟩ => show b.val = 0 + b.val; omega
      | ⟨1, _⟩ => show r.val = 0 + r.val; omega
      | ⟨2, _⟩ => show q.val + k = k + q.val; omega
    exact padCols4_apply x b r _
  unfold cols4
  rw [fold5_apply, e 0 (by omega) _, e 4 (by omega) _, e 8 (by omega) _, e 12 (by omega) _, e 16 (by omega) _]
  rfl

/-- Entry (b, r, q) of the reference's level with dilation 4. -/
theorem level4_apply (x : Batch F) (b : Fin 16) (r q : Fin 1024) :
    level4 x (ix3 b r q) = level 4 (img3 x b) r q := by
  unfold level4
  rw [cols4_apply]
  show smoothCols 4 (img3 (rows4 x) b) r q = smoothCols 4 (smoothRows 4 (img3 x b)) r q
  refine congrArg (fun y : Img F => smoothCols 4 y r q) (funext fun r' => funext fun q' => ?_)
  exact rows4_apply x b r' q'

end Cert.ReferenceIdeal.Stages

end
-- ==== Proof.RefValue.lean ====
/-
  The reference's result, entry by entry: entry (b, l, r, q) of the stacked array is band l of image b at (r, q).

  Each level of the reference acts on every image of the batch separately, as the specification's level acts on one
  image; the three details are differences of consecutive approximations taken entry by entry, and stacking puts band
  l at position l of the new axis.
-/
import proofs.«148597_j34797825032657_1_alg».proof.Proof.RefStages
import proofs.«148597_j34797825032657_1_alg».proof.Proof.RefLevel1
import proofs.«148597_j34797825032657_1_alg».proof.Proof.RefLevel2
import proofs.«148597_j34797825032657_1_alg».proof.Proof.RefLevel4
import proofs.«148597_j34797825032657_1_alg».proof.Proof.Spline
import Idealize.ShloMosaic.Lib.Pipeline.Value
import Idealize.ShloMosaic.Lib.ValueIdx

noncomputable section

namespace Cert.ReferenceIdeal.Stages

open Idealize.ShloMosaic Idealize.ShloMosaic.ValueIdx Cert.ReferenceIdeal Cert.ReferenceIdeal.Gen Cert.Spline

variable {F : FTy → Type} [FloatOps F]

/-- Image b after a level of the reference is the specification's level of image b. -/
theorem img3_level1 (x : Batch F) (b : Fin 16) : img3 (level1 x) b = level 1 (img3 x b) :=
  funext fun r => funext fun q => level1_apply x b r q
theorem img3_level2 (x : Batch F) (b : Fin 16) : img3 (level2 x) b = level 2 (img3 x b) :=
  funext fun r => funext fun q => level2_apply x b r q
theorem img3_level4 (x : Batch F) (b : Fin 16) : img3 (level4 x) b = level 4 (img3 x b) :=
  funext fun r => funext fun q => level4_apply x b r q

/-- A batch given a unit axis after the first, read at position 0 of that axis. -/
theorem asBand_apply (y : Batch F) (b : Fin 16) (r q : Fin 1024) :
    asBand y (ix4 b (0 : Fin 1) r q) = y (ix3 b r q) := by
  unfold asBand
  refine broadcastInDim_apply _ _ _ _ (ix3 b r q) fun a => ?_
  match a with
  | ⟨0, _⟩ => rfl
  | ⟨1, _⟩ => rfl
  | ⟨2, _⟩ => rfl

/-- The difference of two batches at an entry, as a difference of images. -/
theorem subf_img3 (y z : Batch F) (b : Fin 16) (r q : Fin 1024) :
    subf y z (ix3 b r q) = FloatOps.subf (img3 y b r q) (img3 z b r q) := rfl

/-- Entry (b, l, r, q) of the reference's result is band l of image b at (r, q). -/
theorem out_apply (x : Batch F) (b : Fin 16) (l : Fin 4) (r q : Fin 1024) :
    out x (ix4 b l r q) = transform x (ix4 b l r q) := by
  rw [transform_apply]
  unfold out
  match l with
  | ⟨0, _⟩ =>
    refine (concatenate_apply_piece 1 _ _ (ix4 b (⟨0, by omega⟩ : Fin 4) r q) 0 (by simp) S16x1x1024x1024 _ rfl rfl 0 rfl
      (ix4 b (0 : Fin 1) r q)
      (fun a ha => match a with
        | ⟨0, _⟩ => rfl
        | ⟨1, _⟩ => absurd rfl ha
        | ⟨2, _⟩ => rfl
        | ⟨3, _⟩ => rfl)
      rfl).trans ?_
    rw [asBand_apply, subf_img3, img3_level1]
    rfl
  | ⟨1, _⟩ =>
    refine (concatenate_apply_piece 1 _ _ (ix4 b (⟨1, by omega⟩ : Fin 4) r q) 1 (by simp) S16x1x1024x1024 _ rfl rfl 1 rfl
      (ix4 b (0 : Fin 1) r q)
      (fun a ha => match a with
        | ⟨0, _⟩ => rfl
        | ⟨1, _⟩ => absurd rfl ha
        | ⟨2, _⟩ => rfl
        | ⟨3, _⟩ => rfl)
      rfl).trans ?_
    rw [asBand_apply, subf_img3, img3_level2, img3_level1]
    rfl
  | ⟨2, _⟩ =>
    refine (concatenate_apply_piece 1 _ _ (ix4 b (⟨2, by omega⟩ : Fin 4) r q) 2 (by simp) S16x1x1024x1024 _ rfl rfl 2 rfl
      (ix4 b (0 : Fin 1) r q)
      (fun a ha => match a with
        | ⟨0, _⟩ => rfl
        | ⟨1, _⟩ => absurd rfl ha
        | ⟨2, _⟩ => rfl
        | ⟨3, _⟩ => rfl)
      rfl).trans ?_
    rw [asBand_apply, subf_img3, img3_level4, img3_level2, img3_level1]
    rfl
  | ⟨3, _⟩ =>
    refine (concatenate_apply_piece 1 _ _ (ix4 b (⟨3, by omega⟩ : Fin 4) r q) 3 (by simp) S16x1x1024x1024 _ rfl rfl 3 rfl
      (ix4 b (0 : Fin 1) r q)
      (fun a ha => match a with
        | ⟨0, _⟩ => rfl
        | ⟨1, _⟩ => absurd rfl ha
        | ⟨2, _⟩ => rfl
        | ⟨3, _⟩ => rfl)
      rfl).trans ?_
    rw [asBand_apply]
    show img3 (level4 (level2 (level1 x))) b r q = _
    rw [img3_level4, img3_level2, img3_level1]
    rfl

/-- The reference's result is the transform of its argument. -/
theorem out_eq (x : Batch F) : out x = transform x := by
  funext j
  rw [eq_ix4 j]
  exact out_apply x (j 0) (j 1) (j 2) (j 3)

end Cert.ReferenceIdeal.Stages

end
-- ==== Proof.lean ====
/-
  The wavelet kernel against its reference.

  Both programs compute the three-level à-trous B3-spline transform of sixteen 1024 × 1024 images: each level
  filters the rows and then the columns with the taps 1/16, 1/4, 3/8, 1/4, 1/16 at dilation 1, 2, 4 over mirrored
  margins, and the four bands are x − A₁, A₁ − A₂, A₂ − A₃ and A₃. They spell the same sums in the same order with
  the same weight words, so the two results are one function of the argument (`Cert.Spline.transform`) at any float
  instance, and no property of the inputs is used.

  The kernel side: the grid's point 4 b + l carries the approximation of image b in a scratch image and writes band l
  of image b to the result (Proof/KernelPieces, Proof/KernelLevel1, 2, 4, Proof/KernelValue over the frame run).
  The reference side: its run ends at the composed stages (Proof/RefStages, Proof/RefRun), which are that transform
  entry by entry (Proof/RefWeights, Proof/RefLevel1, 2, 4, Proof/RefValue).
-/
import proofs.«148597_j34797825032657_1_alg».proof.Defs
import proofs.«148597_j34797825032657_1_alg».proof.Proof.Gen.Kernel
import proofs.«148597_j34797825032657_1_alg».proof.Proof.Gen.Kernel.Skeleton
import proofs.«148597_j34797825032657_1_alg».proof.Proof.Gen.Kernel.Launch
import proofs.«148597_j34797825032657_1_alg».proof.Proof.Gen.Kernel.Points
import proofs.«148597_j34797825032657_1_alg».proof.Proof.Gen.Kernel.Frame
import proofs.«148597_j34797825032657_1_alg».proof.Proof.Gen.KernelIdeal
import proofs.«148597_j34797825032657_1_alg».proof.Proof.Gen.KernelIdeal.Skeleton
import proofs.«148597_j34797825032657_1_alg».proof.Proof.Gen.KernelIdeal.Launch
import proofs.«148597_j34797825032657_1_alg».proof.Proof.Gen.KernelIdeal.Points
import proofs.«148597_j34797825032657_1_alg».proof.Proof.Gen.KernelIdeal.Frame
import proofs.«148597_j34797825032657_1_alg».proof.Proof.Gen.ReferenceIdeal
import proofs.«148597_j34797825032657_1_alg».proof.Proof.Gen.Pre_finite_inputs
import proofs.«148597_j34797825032657_1_alg».proof.Proof.KernelValue
import proofs.«148597_j34797825032657_1_alg».proof.Proof.RefRun
import proofs.«148597_j34797825032657_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its argument as it was. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its argument as it was: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- From memories that agree on the argument both programs end with the result at the transform of the argument:
    the kernel's array block by block, the reference's stage by stage. -/
theorem algebraic : Cert.algebraic_KernelIdeal_ReferenceIdeal := by
  intro m ρ m' ρ' _ hagree
  refine ⟨_, Cert.KernelIdeal.Wavelet.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.Stages.out_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
